-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_2)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v6_0)) (v3 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_2) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v6_0) = v2 c
          ∧ r.2.mem ((c.tc : Thread Cert.KernelIdeal.nD Cert.KernelIdeal.τ).loc Cert.KernelIdeal.main_v6_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x16 .f32 := Host.absf main_arg6
  let main_cst_10 : FVec F S_ .f32 := constant S_ .f32 0x7F800000#32
  let main_v30 : FVec F S64x16 .f32 := broadcastInDim S64x16 ![] bcast_S_S64x16 main_cst_10
  let main_v31 : IVec S64x16 1 := cmpf .olt main_v29 main_v30
  let main_c_11 : IVec S_ 1 := constantI S_ 1 1#1
  let main_v32 : IVec S_ 1 := (fun x v => Host.reduce IntOp.andi x v reducesTo_S64x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S1x16 : Shape := ⟨2, ![1, 16]⟩
abbrev S10000x16 : Shape := ⟨2, ![10000, 16]⟩
abbrev S1000x10000 : Shape := ⟨2, ![1000, 10000]⟩
abbrev S1000x64 : Shape := ⟨2, ![1000, 64]⟩
abbrev S1000x16 : Shape := ⟨2, ![1000, 16]⟩
abbrev S1000 : Shape := ⟨1, ![1000]⟩
abbrev S1000x1 : Shape := ⟨2, ![1000, 1]⟩

abbrev nBuf : Space → Nat
  | .hbm => 19
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S1x64, .f32⟩
  | .hbm, ⟨9, _⟩ => ⟨S64x64, .bf16⟩
  | .hbm, ⟨10, _⟩ => ⟨S10000x64, .f32⟩
  | .hbm, ⟨11, _⟩ => ⟨S10000x10000, .bf16⟩
  | .hbm, ⟨12, _⟩ => ⟨S10000x64, .bf16⟩
  | .hbm, ⟨13, _⟩ => ⟨S1x64, .f32⟩
  | .hbm, ⟨14, _⟩ => ⟨S1x16, .f32⟩
  | .hbm, ⟨15, _⟩ => ⟨S64x16, .bf16⟩
  | .hbm, ⟨16, _⟩ => ⟨S10000x64, .f32⟩
  | .hbm, ⟨17, _⟩ => ⟨S10000x16, .f32⟩
  | .hbm, ⟨18, _⟩ => ⟨S10000x16, .f32⟩
  | .local _ .vmem, ⟨0, _⟩ => ⟨S10000x128, .f32⟩
  | .local _ .vmem, ⟨1, _⟩ => ⟨S128x64, .f32⟩
  | .local _ .vmem, ⟨2, _⟩ => ⟨S400x10000, .f32⟩
  | .local _ .vmem, ⟨3, _⟩ => ⟨S400x10000, .f32⟩
  | .local _ .vmem, ⟨4, _⟩ => ⟨S1x64, .f32⟩
  | .local _ .vmem, ⟨5, _⟩ => ⟨S64x64, .bf16⟩
  | .local _ .vmem, ⟨6, _⟩ => ⟨S400x64, .f32⟩
  | .local _ .vmem, ⟨7, _⟩ => ⟨S400x64, .f32⟩
  | .local _ .vmem, ⟨8, _⟩ => ⟨S400x10000, .bf16⟩
  | .local _ .vmem, ⟨9, _⟩ => ⟨S400x10000, .bf16⟩
  | .local _ .vmem, ⟨10, _⟩ => ⟨S400x64, .bf16⟩
  | .local _ .vmem, ⟨11, _⟩ => ⟨S400x64, .bf16⟩
  | .local _ .vmem, ⟨12, _⟩ => ⟨S10000x64, .bf16⟩
  | .local _ .vmem, ⟨13, _⟩ => ⟨S1000x10000, .bf16⟩
  | .local _ .vmem, ⟨14, _⟩ => ⟨S1000x10000, .bf16⟩
  | .local _ .vmem, ⟨15, _⟩ => ⟨S10000x64, .bf16⟩
  | .local _ .vmem, ⟨16, _⟩ => ⟨S1x64, .f32⟩
  | .local _ .vmem, ⟨17, _⟩ => ⟨S1x16, .f32⟩
  | .local _ .vmem, ⟨18, _⟩ => ⟨S64x16, .bf16⟩
  | .local _ .vmem, ⟨19, _⟩ => ⟨S1000x64, .f32⟩
  | .local _ .vmem, ⟨20, _⟩ => ⟨S1000x64, .f32⟩
  | .local _ .vmem, ⟨21, _⟩ => ⟨S1000x16, .f32⟩
  | .local _ .vmem, ⟨22, _⟩ => ⟨S1000x16, .f32⟩
  | .local _ .vmem, ⟨23, _⟩ => ⟨S1000x16, .f32⟩
  | .local _ .vmem, ⟨24, _⟩ => ⟨S1000x16, .f32⟩
  | .local _ .vmem, ⟨25, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_scratch0 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![2, 10], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c1000_i32 : BitVec 32 := 1000#32
  let v22 : BitVec 32 := Scalar.muli arg1 c1000_i32
  let v23 : Index := Scalar.indexCast v22
  let c0_13 : Index := 0#32
  ![v23.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 32 := Scalar.select v0 arg1 c9_i32
  let c0_i32_0 : BitVec 32 := 0#32
  let c0_i32_1 : BitVec 32 := 0#32
  ![v1.toNat, c0_i32_0.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc1_transform_7 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x16 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1000x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S64_S1x64 : S64.ShapeCasts S1x64
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  packedbf16_S400x64_S400x64_0_0 : (Rect.unit (s := S400x64) ![0, 0] S400x64.size inb_S400x64_S400x64_0_0).PackedRows (EltTy.packing .bf16)
  shapeCasts_S16_S1x16 : S16.ShapeCasts S1x16
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  inb_S64x16_S64x16_0_0 : ∀ a, (![0, 0] : Fin 2 → Nat) a + S64x16.size a ≤ S64x16.size a
  h_S64x16 : 0 < S64x16.numel
  shapeCasts_S64x16_S64x16 : S64x16.ShapeCasts S64x16
  h_S1000x16 : 0 < S1000x16.numel
  shapeCasts_S1000x16_S1000x16 : S1000x16.ShapeCasts S1000x16
  inb_S10000x16_S10000x16_0_0 : ∀ a, (![0, 0] : Fin 2 → Nat) a + S10000x16.size a ≤ S10000x16.size a
  h_S10000x16 : 0 < S10000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  inb_S1000x16_S1000x16_0_0 : ∀ a, (![0, 0] : Fin 2 → Nat) a + S1000x16.size a ≤ S1000x16.size a
  reduces_S1000x16_S1000 : S1000x16.Reduces [1] S1000
  shapeCasts_S1000_S1000x1 : S1000.ShapeCasts S1000x1
  broadcasts_S1000x1_S1000x16 : S1000x1.Broadcasts S1000x16
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S1000x10000_S10000x64_S1000x64_1_0_0_1_n_n_wf : DotDims.WF S1000x10000 S10000x64 S1000x64 [1] [0] [0] [1] [] []
  dot_S1000x64_S64x16_S1000x16_1_0_0_1_n_n_wf : DotDims.WF S1000x64 S64x16 S1000x16 [1] [0] [0] [1] [] []
  dot_S1000x10000_S10000x16_S1000x16_1_0_0_1_n_n_wf : DotDims.WF S1000x10000 S10000x16 S1000x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x64.size a ≤ S10000x64.size a
  hwx0_5 : ∀ i : grid0.Coords, EltTy.bits .f32 = 32 ∨ (Rect.block (s := S10000x64) S400x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x10000.size a ≤ S10000x10000.size a
  hwx0_6 : ∀ i : grid0.Coords, EltTy.bits .bf16 = 32 ∨ (Rect.block (s := S10000x10000) S400x10000.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x64.size a ≤ S10000x64.size a
  hwx0_7 : ∀ i : grid0.Coords, EltTy.bits .bf16 = 32 ∨ (Rect.block (s := S10000x64) S400x64.size (cc0_transform_7 i) (hinb0_7 i)).WholeWords (EltTy.packing .bf16)
  hrank1 : 0 < grid1.rank
  k1_off1_inb : ∀ i : grid1.Coords, ∀ (k1_h1 : k1_cond1 i = 1#1), ∀ a, (k1_off1 i) a + S1000x16.size a ≤ S10000x16.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .bf16 = 32 ∨ (Rect.block (s := S10000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x16.size a ≤ S64x16.size a
  hwx1_4 : ∀ i : grid1.Coords, EltTy.bits .bf16 = 32 ∨ (Rect.block (s := S64x16) S64x16.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x64.size a ≤ S10000x64.size a
  hwx1_5 : ∀ i : grid1.Coords, EltTy.bits .f32 = 32 ∨ (Rect.block (s := S10000x64) S1000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x16.size a ≤ S10000x16.size a
  hwx1_6 : ∀ i : grid1.Coords, EltTy.bits .f32 = 32 ∨ (Rect.block (s := S10000x16) S1000x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x16.size a ≤ S10000x16.size a
  hwx1_7 : ∀ i : grid1.Coords, EltTy.bits .f32 = 32 ∨ (Rect.block (s := S10000x16) S1000x16.size (cc1_transform_7 i) (hinb1_7 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S1000x10000_S10000x64_S1000x64_1_0_0_1_n_n : DotDims S1000x10000 S10000x64 S1000x64 where
  lhsContracting := [1]
  rhsContracting := [0]
  lhsNonContracting := [0]
  rhsNonContracting := [1]
  lhsBatch := []
  rhsBatch := []
  wf := dot_S1000x10000_S10000x64_S1000x64_1_0_0_1_n_n_wf
def dot_S1000x64_S64x16_S1000x16_1_0_0_1_n_n : DotDims S1000x64 S64x16 S1000x16 where
  lhsContracting := [1]
  rhsContracting := [0]
  lhsNonContracting := [0]
  rhsNonContracting := [1]
  lhsBatch := []
  rhsBatch := []
  wf := dot_S1000x64_S64x16_S1000x16_1_0_0_1_n_n_wf
def dot_S1000x10000_S10000x16_S1000x16_1_0_0_1_n_n : DotDims S1000x10000 S10000x16 S1000x16 where
  lhsContracting := [1]
  rhsContracting := [0]
  lhsNonContracting := [0]
  rhsNonContracting := [1]
  lhsBatch := []
  rhsBatch := []
  wf := dot_S1000x10000_S10000x16_S1000x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S400x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S400x10000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_2) S400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_1) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_2) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S64x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6_0) S1000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6_1) S1000x16.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v6_2) S1000x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun i => !(k1_cond1 i == 1#1) | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x16, .f32⟩
  | .hbm, ⟨25, _⟩ => ⟨S10000x16, .f32⟩
  | .hbm, ⟨26, _⟩ => ⟨S1x16, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x16, .f32⟩
  | .hbm, ⟨36, _⟩ => ⟨S10000x16, .f32⟩
  | .hbm, ⟨37, _⟩ => ⟨S10000x16, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x16, .f32⟩
  | .hbm, ⟨43, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v17 : Ref sig .tc := ⟨.hbm, 43, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.K.R0.lean ====
/-
  The first pallas_call, over row blocks of 400: at the first grid point it forms z₁ = x·W₁ in a scratch buffer kept
  across points; at every point it re-lays the adjacency block, forms h₁ = adj·z₁ + b₁ on the block's rows and the next
  layer's projection z₂ = relu(h₁)·W₂. Stated at any float family and at any contents `V` of the core's buffers when
  the region is entered.
-/
import proofs.«137813_g44306882625589_cont_8to1_c_1074_18_alg».proof.Proof.Gen.Kernel.Launch
import proofs.«137813_g44306882625589_cont_8to1_c_1074_18_alg».proof.Proof.Gen.Kernel.Skeleton
import proofs.«137813_g44306882625589_cont_8to1_c_1074_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev first0 : Fin cfg0.N := ⟨0, by decide⟩

/-- The five input blocks at a point, at their literal types: the features (whole), W₁ (whole), the adjacency's row
    block, the bias row, W₂. -/
abbrev xin0 (c : Dev nD) (t : Fin cfg0.N) : Vec F S10000x128 .f32 := iblk0 V c 0 t
abbrev w1in0 (c : Dev nD) (t : Fin cfg0.N) : Vec F S128x64 .f32 := iblk0 V c 1 t
abbrev adjin0 (c : Dev nD) (t : Fin cfg0.N) : Vec F S400x10000 .f32 := iblk0 V c 2 t
abbrev b1in0 (c : Dev nD) (t : Fin cfg0.N) : Vec F S1x64 .f32 := iblk0 V c 3 t
abbrev w2in0 (c : Dev nD) (t : Fin cfg0.N) : Vec F S64x64 .bf16 := iblk0 V c 4 t

/-! ## What the body computes -/

/-- z₁ = x·W₁: what the scratch buffer holds from the end of the first point on. -/
def Z1 (c : Dev nD) : Vec F S10000x64 .bf16 := k0_pay1 (xin0 V c first0) (w1in0 V c first0)

/-- The rows of h₁ the point writes. -/
def out0_5 (c : Dev nD) (t : Fin cfg0.N) : Vec F S400x64 .f32 := k0_pay3 (adjin0 V c t) (Z1 V c) (b1in0 V c t)
/-- The adjacency block re-laid. -/
def out0_6 (c : Dev nD) (t : Fin cfg0.N) : Vec F S400x10000 .bf16 := k0_pay2 (adjin0 V c t)
/-- The rows of z₂ the point writes. -/
def out0_7 (c : Dev nD) (t : Fin cfg0.N) : Vec F S400x64 .bf16 := k0_pay4 (adjin0 V c t) (Z1 V c) (b1in0 V c t) (w2in0 V c t)

/-! ## The region's invariant and proof data -/

/-- The scratch buffer as a memref. -/
abbrev scM0 : Memref sig .tc .vmem S10000x64 .bf16 := Memref.whole cc0_scratch0

/-- Between points: before the first, the class's invariant (every scoped buffer that is no staging buffer at some contents,
    the generator register at some state); afterwards the same with the scratch named: it holds z₁. -/
def PhiS0 (c : Dev nD) : ℕ → sProp 𝕄
  | 0 => Pipeline.ΦA spec0 c
  | _ + 1 => iprop(owns (c : Thread nD τ) scM0 fullShare (Z1 V c)
      ∗ Pipeline.scopedRestBut (Ix := Unit) (Name := ℕ) (U := UR sig nD τ) (Lvl := ℕ) (Val := Elt F) spec0 c [cc0_scratch0]
      ∗ ∃ r, prngReg c r)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 V c t
    | ⟨6, _⟩ => out0_6 V c t
    | ⟨7, _⟩ => out0_7 V c t
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 V c t := by dsimp only [dat0]
theorem after0_6 (c : Dev nD) (t : Fin cfg0.N) : (dat0 V c).after 6 t = out0_6 V c t := by dsimp only [dat0]
theorem after0_7 (c : Dev nD) (t : Fin cfg0.N) : (dat0 V c).after 7 t = out0_7 V c t := by dsimp only [dat0]

/-! ## The inputs' buffers hold their blocks -/

/-- Each input window's current buffer holds its block at every point, fetched there or not: the body leaves the block in
    place, and where the pipeline does not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The body's branch condition -/

/-- The condition of the body's conditional, from the grid coordinates: the point is the first. -/
abbrev cond0 (i : grid0.Coords) : Prop := (Scalar.cmpi .ne (Scalar.extui (Scalar.cmpi .eq (BitVec.ofNat 32 (i 0).val) 0#32)) 0#32) = 1#1
/-- It holds at point 0 only. -/
theorem hcond0 : ∀ t : Fin cfg0.N, cond0 (grid0.coords t) ↔ t.val = 0 :=
  (by decide +kernel : ∀ t : Fin grid0.N, cond0 (grid0.coords t) ↔ t.val = 0)

/-! ## Whole-buffer loads and stores -/

theorem hz2 : (![0, 0] : Fin 2 → Nat) = fun _ => 0 := funext fun a => by fin_cases a <;> rfl

/-- One store through the whole-buffer rectangle at zero offsets leaves its payload, whatever the buffer held. -/
theorem read_store_whole {sp : Space} {S : Shape} {e : EltTy} (m : Memref sig .tc sp S e) (f : m.view.ty.Contents (Elt F))
    {off : Fin S.rank → Nat} (h : off = fun _ => 0) (inb : ∀ a, off a + S.size a ≤ S.size a) (w : S.Idx → Elt F e) :
    m.view.read (Elt F) (m.view.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-! ## The class's invariant with the scratch buffer named -/

/-- The class's invariant with the scratch as a memref owned at some contents, the other scoped buffers unopened. -/
theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [bigSepL_singleton, scM0, owns_whole]
  rfl

theorem PhiS0_zero (c : Dev nD) : PhiS0 V c 0 = Pipeline.ΦA spec0 c := rfl

theorem PhiS0_succ (c : Dev nD) (n : ℕ) : PhiS0 V c (n + 1) = iprop(owns (c : Thread nD τ) scM0 fullShare (Z1 V c)
      ∗ Pipeline.scopedRestBut (Ix := Unit) (Name := ℕ) (U := UR sig nD τ) (Lvl := ℕ) (Val := Elt F) spec0 c [cc0_scratch0]
      ∗ ∃ r, prngReg c r) := rfl

theorem PhiS0_pos (c : Dev nD) (n : ℕ) (hn : n ≠ 0) : PhiS0 V c n = iprop(owns (c : Thread nD τ) scM0 fullShare (Z1 V c)
      ∗ Pipeline.scopedRestBut (Ix := Unit) (Name := ℕ) (U := UR sig nD τ) (Lvl := ℕ) (Val := Elt F) spec0 c [cc0_scratch0]
      ∗ ∃ r, prngReg c r) := by
  cases n with
  | zero => exact absurd rfl hn
  | succ n => rfl

set_option maxHeartbeats 1000000 in
/-- The body at the first point, on whole memrefs: the inputs at their contents, the outputs and the scratch at anything.
    It forms z₁ from the features and W₁ in the scratch, then the three output blocks from the adjacency block,
    that z₁, the bias row and W₂; the inputs are handed back as they were. -/
theorem sound_kernel0_first (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : cond0 i)
    (x0 : Vec F S10000x128 .f32) (x1 : Vec F S128x64 .f32) (x2 : Vec F S400x10000 .f32) (x3 : Vec F S1x64 .f32) (x4 : Vec F S64x64 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay3 x2 (k0_pay1 x0 x1) x3)
            ∗ owns (c : Thread nD τ) arg7 fullShare (k0_pay2 x2)
            ∗ owns (c : Thread nD τ) arg8 fullShare (k0_pay4 x2 (k0_pay1 x0 x1) x3 x4)
            ∗ owns (c : Thread nD τ) arg9 fullShare (k0_pay1 x0 x1)) -∗ K ⟨⟩))
      ⊢ wp frame (wpE (defs₀ (F := F)) Variants.none c none) E (cc0__a_body i arg1 harg1 arg2 harg2 arg3 harg3 arg4 harg4 arg5 harg5 arg6 harg6 arg7 harg7 arg8 harg8 arg9 harg9) K := by
  simp only [cc0__a_body_eq_skeleton]; unfold cc0__a_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (read_store_whole arg6 _ hz2 _ _).trans ?_
    simp only [View.readAt_eq_ld, harg1.read_unread, harg2.read_unread, harg3.read_unread, harg4.read_unread, harg5.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]
  isplitl [H7]
  · iexists _; isplitr
    swap; · iexact H7
    ipureintro
    refine (read_store_whole arg7 _ hz2 _ _).trans ?_
    simp only [View.readAt_eq_ld, harg1.read_unread, harg2.read_unread, harg3.read_unread, harg4.read_unread, harg5.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]
  isplitl [H8]
  · iexists _; isplitr
    swap; · iexact H8
    ipureintro
    sl_unfold_words
    refine (read_store_whole arg8 _ hz2 _ _).trans ?_
    simp only [View.readAt_eq_ld, harg1.read_unread, harg2.read_unread, harg3.read_unread, harg4.read_unread, harg5.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]
  iexists _; isplitr
  swap; · iexact H9
  ipureintro
  sl_unfold_words
  refine (read_store_whole arg9 _ hz2 _ _).trans ?_
  simp only [View.readAt_eq_ld, harg1.read_unread, harg2.read_unread, harg3.read_unread, harg4.read_unread, harg5.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]

set_option maxHeartbeats 1000000 in
/-- The body at a later point, on whole memrefs: the scratch comes in at contents `xs` and goes out unchanged; the three
    output blocks are formed from the adjacency block, `xs`, the bias row and W₂; the inputs are handed back as they were. -/
theorem sound_kernel0_later (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : ¬cond0 i)
    (x0 : Vec F S10000x128 .f32) (x1 : Vec F S128x64 .f32) (x2 : Vec F S400x10000 .f32) (x3 : Vec F S1x64 .f32) (x4 : Vec F S64x64 .bf16)
    (xs : Vec F S10000x64 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay3 x2 xs x3)
            ∗ owns (c : Thread nD τ) arg7 fullShare (k0_pay2 x2)
            ∗ owns (c : Thread nD τ) arg8 fullShare (k0_pay4 x2 xs x3 x4)
            ∗ owns (c : Thread nD τ) arg9 fullShare xs) -∗ K ⟨⟩))
      ⊢ wp frame (wpE (defs₀ (F := F)) Variants.none c none) E (cc0__a_body i arg1 harg1 arg2 harg2 arg3 harg3 arg4 harg4 arg5 harg5 arg6 harg6 arg7 harg7 arg8 harg8 arg9 harg9) K := by
  simp only [cc0__a_body_eq_skeleton]; unfold cc0__a_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg9.eq_unread hf9
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_store_whole arg6 _ hz2 _ _).trans ?_
    simp only [View.readAt_eq_ld, harg1.read_unread, harg2.read_unread, harg3.read_unread, harg4.read_unread, harg5.read_unread, harg9.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]
  isplitl [H7]
  · iexists _; isplitr
    swap; · iexact H7
    ipureintro
    refine (read_store_whole arg7 _ hz2 _ _).trans ?_
    simp only [View.readAt_eq_ld, harg1.read_unread, harg2.read_unread, harg3.read_unread, harg4.read_unread, harg5.read_unread, harg9.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]
  isplitl [H8]
  · iexists _; isplitr
    swap; · iexact H8
    ipureintro
    refine (read_store_whole arg8 _ hz2 _ _).trans ?_
    simp only [View.readAt_eq_ld, harg1.read_unread, harg2.read_unread, harg3.read_unread, harg4.read_unread, harg5.read_unread, harg9.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]
  iexists _; isplitr; · ipureintro; exact harg9.read_unread _
  iexact H9

/-! ## The body obligation, at a generic point -/

theorem PhiS0_castSucc (c : Dev nD) (t : Fin cfg0.N) : (dat0 V c).Φ t.castSucc = PhiS0 V c t.val := by
  dsimp only [dat0]; simp only [Fin.coe_castSucc]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
/-- The body at any point. The inputs' memrefs hold their blocks. At the first point the invariant hands over the scratch at
    anything and takes it back at z₁ of that point's features and W₁, which are the first point's; at a later point it
    hands the scratch over at z₁ and takes it back unchanged. The other scoped buffers, the generator register and the core's
    tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = PhiS0 V c (t.val + 1) from rfl, PhiS0_succ, PhiS0_castSucc,
    after0_0, after0_1, after0_2, after0_3, after0_4, after0_5, after0_6, after0_7]
  unfold out0_5 out0_6 out0_7
  by_cases h0 : t.val = 0
  · obtain rfl : t = first0 := Fin.ext h0
    rw [show PhiS0 V c (first0 : Fin cfg0.N).val = Pipeline.ΦA spec0 c from rfl, PhiA0_eq]
    unfold Z1
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_first c Set.univ (grid0.coords first0) _ _ _ _ _ _ _ _ _ _ _ _ _ _ _ _ _ _ ((hcond0 first0).mpr rfl)
      (xin0 V c first0) (w1in0 V c first0) (adjin0 V c first0) (b1in0 V c first0) (w2in0 V c first0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS0_pos V c _ h0]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_later c Set.univ (grid0.coords t) _ _ _ _ _ _ _ _ _ _ _ _ _ _ _ _ _ _ (fun h => h0 ((hcond0 t).mp h))
      (xin0 V c t) (w1in0 V c t) (adjin0 V c t) (b1in0 V c t) (w2in0 V c t) (Z1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- At every point the body, handed the invariant and the windows' current buffers, leaves them as the proof data says. -/
theorem body_obligation0 (c : Dev nD) : BodyObligation (dat0 (F := F) V c) (defs₀ (F := F)) Variants.none () Set.univ := fun t => by
  rw [bigSep_W0, bigSep_W0]
  exact sound_body0 V c t

/-! ## The invariant's ends -/

/-- What the launch hands the region is the invariant before the first point. -/
theorem hin0 (c : Dev nD) : Pipeline.ΦA spec0 c ⊢ (dat0 V c).Φ 0 := by
  rw [show (dat0 V c).Φ 0 = PhiS0 V c 0 from rfl, PhiS0_zero]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 25 := N_0; omega), PhiA0_eq]
  iintro ⟨HS, HR, Hg⟩
  isplitl [HS HR]
  · isplitl [HS]
    · iexists _; iexact HS
    iexact HR
  iexact Hg

end Cert.Kernel.Hand

end
-- ==== Proof.K.R1.lean ====
/-
  The second pallas_call, over a grid (2, 10) of row blocks of 1000. In its first pass (l = 0) point k forms the rows of
  h₂ = adj·z₂ + b₂ on block k and stores the rows of z₃ = relu(h₂)·W₃ into a scratch buffer kept across points; in its second
  pass (l = 1) point k forms the rows of h₃ = adj·z₃ + b₃ from the whole scratch and their log-softmax. The h₂ window rests on
  its last block during the second pass and the h₃ and log-softmax windows rest on their first block during the first: where a
  window is not stored into, its buffer is handed back as found. Stated at any float family and at any contents `V` of the
  core's buffers when the region is entered.
-/
import proofs.«137813_g44306882625589_cont_8to1_c_1074_18_alg».proof.Proof.Gen.Kernel.Launch
import proofs.«137813_g44306882625589_cont_8to1_c_1074_18_alg».proof.Proof.Gen.Kernel.Skeleton
import proofs.«137813_g44306882625589_cont_8to1_c_1074_18_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.WritesUnit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The five input blocks at a point, at their literal types: the re-laid adjacency's row block, z₂ (whole), the two bias
    rows, W₃. -/
abbrev adjbin1 (c : Dev nD) (t : Fin cfg1.N) : Vec F S1000x10000 .bf16 := iblk1 V c 0 t
abbrev z2in1 (c : Dev nD) (t : Fin cfg1.N) : Vec F S10000x64 .bf16 := iblk1 V c 1 t
abbrev b2in1 (c : Dev nD) (t : Fin cfg1.N) : Vec F S1x64 .f32 := iblk1 V c 2 t
abbrev b3in1 (c : Dev nD) (t : Fin cfg1.N) : Vec F S1x16 .f32 := iblk1 V c 3 t
abbrev w3in1 (c : Dev nD) (t : Fin cfg1.N) : Vec F S64x16 .bf16 := iblk1 V c 4 t

/-- The point (0, k) of the first pass: the grid is walked row-major, so it is point number k. -/
abbrev ptA (k : Fin 10) : Fin cfg1.N := ⟨k.val, Nat.lt_of_lt_of_le k.isLt (by decide)⟩

/-- The point of the first pass whose h₂ block a point's h₂ window holds: itself in the first pass, the last one (0, 9)
    throughout the second. -/
abbrev q5 (t : Fin cfg1.N) : Fin cfg1.N := ⟨min t.val 9, Nat.lt_of_le_of_lt (Nat.min_le_right _ _) (by decide)⟩

/-! ## What the body computes -/

/-- Rows 1000k … 1000k + 999 of z₃, as point (0, k) stores them into the scratch. -/
def z3blk (c : Dev nD) (k : Fin 10) : Vec F S1000x16 .f32 :=
  k1_pay2 (adjbin1 V c (ptA k)) (z2in1 V c (ptA k)) (b2in1 V c (ptA k)) (w3in1 V c (ptA k))

/-- z₃ whole: what the scratch buffer holds once the first pass is over. Row r is row r mod 1000 of block r / 1000. -/
def Z3 (c : Dev nD) : Vec F S10000x16 .f32 := fun y =>
  z3blk V c ⟨(y 0).val / 1000, Nat.div_lt_of_lt_mul (show (y 0).val < 1000 * 10 from (y 0).isLt)⟩
    (ValueIdx.ix2 ⟨(y 0).val % 1000, Nat.mod_lt _ (by decide)⟩ (y 1))

/-- The rows of h₂ a point's h₂ window holds after the body. -/
def out1_5 (c : Dev nD) (t : Fin cfg1.N) : Vec F S1000x64 .f32 :=
  k1_pay1 (adjbin1 V c (q5 t)) (z2in1 V c (q5 t)) (b2in1 V c (q5 t))
/-- The rows of h₃ a point of the second pass writes. -/
def out1_6 (c : Dev nD) (t : Fin cfg1.N) : Vec F S1000x16 .f32 := k1_pay3 (adjbin1 V c t) (Z3 V c) (b3in1 V c t)
/-- The rows of the log-softmax a point of the second pass writes. -/
def out1_7 (c : Dev nD) (t : Fin cfg1.N) : Vec F S1000x16 .f32 := k1_pay4 (adjbin1 V c t) (Z3 V c) (b3in1 V c t)

/-! ## The region's invariant and proof data -/

/-- The scratch buffer as a memref. -/
abbrev scM1 : Memref sig .tc .vmem S10000x16 .f32 := Memref.whole cc1_scratch0

/-- Between points: before the first, the class's invariant; before point n + 1, the same with the scratch named on the row
    blocks the first pass has stored so far: blocks 0 … min n 9 hold their rows of z₃. -/
def PhiS1 (c : Dev nD) : ℕ → sProp 𝕄
  | 0 => Pipeline.ΦA spec1 c
  | n + 1 => iprop((∃ d : Vec F S10000x16 .f32, owns (c : Thread nD τ) scM1 fullShare d
        ∗ ⌜∀ y : S10000x16.Idx, (y 0).val < 1000 * (min n 9 + 1) → d y = Z3 V c y⌝)
      ∗ Pipeline.scopedRestBut (Ix := Unit) (Name := ℕ) (U := UR sig nD τ) (Lvl := ℕ) (Val := Elt F) spec1 c [cc1_scratch0]
      ∗ ∃ r, prngReg c r)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
    | ⟨6, _⟩ => out1_6 V c t
    | ⟨7, _⟩ => out1_7 V c t
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]
theorem after1_6 (c : Dev nD) (t : Fin cfg1.N) : (dat1 V c).after 6 t = out1_6 V c t := by dsimp only [dat1]
theorem after1_7 (c : Dev nD) (t : Fin cfg1.N) : (dat1 V c).after 7 t = out1_7 V c t := by dsimp only [dat1]

/-! ## The branch conditions and the windows' rest, in closed form -/

/-- The first conditional is taken exactly in the first pass. -/
theorem hcond1_1 : ∀ t : Fin cfg1.N, k1_cond1 (grid1.coords t) = 1#1 ↔ t.val < 10 :=
  (by decide +kernel : ∀ t : Fin grid1.N, k1_cond1 (grid1.coords t) = 1#1 ↔ t.val < 10)
/-- The second conditional is taken exactly in the second pass. -/
theorem hcond1_2 : ∀ t : Fin cfg1.N, k1_cond2 (grid1.coords t) = 1#1 ↔ 10 ≤ t.val :=
  (by decide +kernel : ∀ t : Fin grid1.N, k1_cond2 (grid1.coords t) = 1#1 ↔ 10 ≤ t.val)

theorem liveAt1_5 : ∀ t : Fin cfg1.N, t.val < 10 → cfg1.idle 5 (grid1.coords t) = false := by decide +kernel
theorem idleAt1_5 : ∀ t : Fin cfg1.N, 10 ≤ t.val → cfg1.idle 5 (grid1.coords t) = true := by decide +kernel
theorem liveAt1_6 : ∀ t : Fin cfg1.N, 10 ≤ t.val → cfg1.idle 6 (grid1.coords t) = false := by decide +kernel
theorem idleAt1_6 : ∀ t : Fin cfg1.N, t.val < 10 → cfg1.idle 6 (grid1.coords t) = true := by decide +kernel
theorem liveAt1_7 : ∀ t : Fin cfg1.N, 10 ≤ t.val → cfg1.idle 7 (grid1.coords t) = false := by decide +kernel
theorem idleAt1_7 : ∀ t : Fin cfg1.N, t.val < 10 → cfg1.idle 7 (grid1.coords t) = true := by decide +kernel

theorem flush1_5 : ∀ t : Fin cfg1.N, (cfg1.win 5).flush t = true ↔ (t.val < 9 ∨ t.val = 19) :=
  (by decide +kernel : ∀ t : Fin grid1.N, win1_5.flush t = true ↔ (t.val < 9 ∨ t.val = 19))
theorem flush1_6 : ∀ t : Fin cfg1.N, (cfg1.win 6).flush t = true ↔ 10 ≤ t.val :=
  (by decide +kernel : ∀ t : Fin grid1.N, win1_6.flush t = true ↔ 10 ≤ t.val)
theorem flush1_7 : ∀ t : Fin cfg1.N, (cfg1.win 7).flush t = true ↔ 10 ≤ t.val :=
  (by decide +kernel : ∀ t : Fin grid1.N, win1_7.flush t = true ↔ 10 ≤ t.val)
theorem nofetch1_5 : ∀ t : Fin cfg1.N, (cfg1.win 5).fetch t = false :=
  (by decide +kernel : ∀ t : Fin grid1.N, win1_5.fetch t = false)

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The invariant's two forms -/

theorem PhiS1_zero (c : Dev nD) : PhiS1 V c 0 = Pipeline.ΦA spec1 c := rfl

theorem PhiS1_succ (c : Dev nD) (n : ℕ) :
    PhiS1 V c (n + 1) = iprop((∃ d : Vec F S10000x16 .f32, owns (c : Thread nD τ) scM1 fullShare d
        ∗ ⌜∀ y : S10000x16.Idx, (y 0).val < 1000 * (min n 9 + 1) → d y = Z3 V c y⌝)
      ∗ Pipeline.scopedRestBut (Ix := Unit) (Name := ℕ) (U := UR sig nD τ) (Lvl := ℕ) (Val := Elt F) spec1 c [cc1_scratch0]
      ∗ ∃ r, prngReg c r) := rfl

/-- The class's invariant with the scratch buffer taken out of the scoped rest and owned as a memref at some contents. -/
theorem PhiA1_eq (c : Dev nD) :
    (Pipeline.ΦA spec1 c : sProp 𝕄)
      = iprop(((∃ d : Vec F S10000x16 .f32, owns (c : Thread nD τ) scM1 fullShare d)
          ∗ Pipeline.scopedRestBut (Ix := Unit) (Name := ℕ) (U := UR sig nD τ) (Lvl := ℕ) (Val := Elt F) spec1 c [cc1_scratch0])
        ∗ ∃ r, prngReg c r) := by
  unfold Pipeline.ΦA
  rw [Pipeline.scopedRest_split_of_list spec1 c [cc1_scratch0] (by decide) (by decide)]
  simp only [scM1, owns_whole, Idealize.SL.BI.bigSepL_singleton]
  try rfl

/-! ## The h₂ window through the second pass -/

theorem out1_5_congr (c : Dev nD) {t t' : Fin cfg1.N} (h : q5 t = q5 t') : out1_5 V c t = out1_5 V c t' := by
  unfold out1_5; rw [h]

/-- The h₂ window is never cut: what the body leaves in its buffer is kept whole. -/
theorem kept1_5 (c : Dev nD) (t : Fin cfg1.N) (d) : (dat1 V c).kept 5 t d = out1_5 V c t := by
  unfold Dat.kept
  rw [Pipeline.fill_of_clip_none (cfg := cfg1) 5 _ (fun _ => rfl) d ((dat1 V c).after 5 t), Window.fill_cut, after1_5]

/-- One step back from a point after the first, for the h₂ window (never fetched). -/
theorem before1_5_step (c : Dev nD) (t t' : Fin cfg1.N) (h : t.val = t'.val + 1) (d) :
    (dat1 V c).before 5 t d = if (cfg1.win 5).flush t' then d else (dat1 V c).left 5 t' d := by
  have e : t' = ⟨t.val - 1, Nat.lt_of_le_of_lt (Nat.sub_le _ _) t.isLt⟩ := Fin.ext (by show t'.val = t.val - 1; omega)
  subst e
  exact (dat1 V c).before_of_pos 5 t (by omega) (nofetch1_5 t) d

/-- Throughout the second pass the h₂ window's buffer still holds the rows the last point of the first pass left:
    no point in between stores into it, fetches it or writes it back. -/
theorem before5_second (c : Dev nD) : ∀ (k : ℕ) (t : Fin cfg1.N), t.val = 10 + k → ∀ d, (dat1 V c).before 5 t d = out1_5 V c t := by
  intro k
  induction k with
  | zero =>
    intro t ht d
    have hN : (9 : ℕ) < cfg1.N := by rw [show cfg1.N = 20 from N_1]; omega
    rw [before1_5_step V c t ⟨9, hN⟩ (by show t.val = 9 + 1; omega) d]
    have hfl : (cfg1.win 5).flush ⟨9, hN⟩ = false := by
      rw [← Bool.not_eq_true]; intro h
      have := (flush1_5 ⟨9, hN⟩).mp h
      change (9 < 9 ∨ 9 = 19) at this; omega
    rw [hfl, if_neg Bool.false_ne_true]
    unfold Dat.left
    rw [liveAt1_5 ⟨9, hN⟩ (by show 9 < 10; omega)]
    show (dat1 V c).kept 5 ⟨9, hN⟩ d = _
    rw [kept1_5]
    exact out1_5_congr V c (Fin.ext (by show min 9 9 = min t.val 9; omega))
  | succ k ih =>
    intro t ht d
    have hlt : t.val < cfg1.N := t.isLt
    have e20 : cfg1.N = 20 := N_1
    have hN : 10 + k < cfg1.N := by omega
    rw [before1_5_step V c t ⟨10 + k, hN⟩ (by show t.val = 10 + k + 1; omega) d]
    have hfl : (cfg1.win 5).flush ⟨10 + k, hN⟩ = false := by
      rw [← Bool.not_eq_true]; intro h
      have := (flush1_5 ⟨10 + k, hN⟩).mp h
      change (10 + k < 9 ∨ 10 + k = 19) at this; omega
    rw [hfl, if_neg Bool.false_ne_true]
    unfold Dat.left
    rw [idleAt1_5 ⟨10 + k, hN⟩ (by show 10 ≤ 10 + k; omega)]
    show (dat1 V c).before 5 ⟨10 + k, hN⟩ d = _
    rw [ih ⟨10 + k, hN⟩ rfl d]
    exact out1_5_congr V c (Fin.ext (by show min (10 + k) 9 = min t.val 9; omega))

/-! ## Loads and stores through whole buffers, and rows stored into the scratch -/

/-- The zero offsets of a whole-buffer access. -/
theorem hzero1 : (![0, 0] : Fin 2 → Nat) = fun _ => 0 := funext fun a => by fin_cases a <;> rfl

/-- One store through the whole buffer's rectangle leaves its payload, whatever the buffer held. -/
theorem read_whole_store1 {κ : Kind} {sp : Space} {S : Shape} {e : EltTy} (v : View sig κ sp S e) (f : v.ty.Contents (Elt F))
    (off : Fin S.rank → ℕ) (h0 : off = fun _ => 0) (inb : ∀ a, off a + S.size a ≤ S.size a) (p : S.Idx → Elt F e) :
    v.read (Elt F) (v.writes (Elt F) f [⟨Rect.unit off S.size inb, p⟩]) = p :=
  (View.read_writes_eq_canon v f _ (fun y => ⟨_, List.mem_singleton_self _, View.mem_set_unit_zero h0 inb y⟩)).trans
    (View.canon_unit_zero h0 inb p)

/-- `d'` is `d` with its 1000 rows from row `o` on replaced by the rows of `p`. -/
def RowsPut1 (o : ℕ) (d d' : Vec F S10000x16 .f32) (p : Vec F S1000x16 .f32) : Prop :=
  (∀ y : S10000x16.Idx, ((y 0).val < o ∨ o + 1000 ≤ (y 0).val) → d' y = d y) ∧
  (∀ (y : S10000x16.Idx) (x : S1000x16.Idx), (y 0).val = o + (x 0).val → (y 1).val = (x 1).val → d' y = p x)

/-- A whole scratch buffer holding `d`, after a store of the rows `p` at row `o`, reads as `d` with those rows replaced. -/
theorem rowsPut_store1 {κ : Kind} {sp : Space} (m : Memref sig κ sp S10000x16 .f32) (hm : m.IsWhole) (d : Vec F S10000x16 .f32)
    (p : Vec F S1000x16 .f32) (off : Fin 2 → ℕ) (o : ℕ) (hoff : off = ![o, 0]) (inb : ∀ a : Fin 2, off a + S1000x16.size a ≤ S10000x16.size a) :
    RowsPut1 o d (m.view.read (Elt F) (m.view.writes (Elt F) (hm.unread d) [⟨Rect.unit (s := S10000x16) off S1000x16.size inb, p⟩])) p := by
  constructor
  · intro y hy
    rw [View.read_writes_cons_rows_of_not_mem m.view (hm.unread d) inb p [] y hoff rfl hy, View.writes_nil]
    exact congrFun (hm.read_unread d) y
  · intro y x h0 h1
    exact View.read_writes_cons_rows_of_mem m.view (hm.unread d) inb p [] y x hoff h0 h1
/-! ## The body in the first pass -/

set_option maxHeartbeats 2000000 in
/-- In the first pass (first conditional taken, second not) the body, on whole buffers, the inputs' at contents `x·`, the h₂
    window's at anything, the h₃ and log-softmax windows' at contents handed back untouched, the scratch at `ds`, runs to the
    continuation holding the h₂ window at h₂'s rows of the inputs and the scratch at `ds` with block `k`'s rows replaced by
    the rows of z₃ computed from the inputs. -/
theorem sound_first (c : Dev nD) (E : Set ℕ) (i : grid1.Coords) (arg2 : Memref sig .tc .vmem S1000x10000 .bf16) (harg2 : arg2.IsWhole) (arg3 : Memref sig .tc .vmem S10000x64 .bf16) (harg3 : arg3.IsWhole) (arg4 : Memref sig .tc .vmem S1x64 .f32) (harg4 : arg4.IsWhole) (arg5 : Memref sig .tc .vmem S1x16 .f32) (harg5 : arg5.IsWhole) (arg6 : Memref sig .tc .vmem S64x16 .bf16) (harg6 : arg6.IsWhole) (arg7 : Memref sig .tc .vmem S1000x64 .f32) (harg7 : arg7.IsWhole) (arg8 : Memref sig .tc .vmem S1000x16 .f32) (harg8 : arg8.IsWhole) (arg9 : Memref sig .tc .vmem S1000x16 .f32) (harg9 : arg9.IsWhole) (arg10 : Memref sig .tc .vmem S10000x16 .f32) (harg10 : arg10.IsWhole)
    (hc1 : k1_cond1 i = 1#1) (hc2 : ¬ k1_cond2 i = 1#1) (x0 : Vec F S1000x10000 .bf16) (x1 : Vec F S10000x64 .bf16) (x2 : Vec F S1x64 .f32) (x3 : Vec F S1x16 .f32) (x4 : Vec F S64x16 .bf16)
    (xi6 xi7 : Vec F S1000x16 .f32) (ds : Vec F S10000x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xi6 ∗ owns (c : Thread nD τ) arg9 fullShare xi7
        ∗ owns (c : Thread nD τ) arg10 fullShare ds
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k1_pay1 x0 x1 x2) ∗ owns (c : Thread nD τ) arg8 fullShare xi6 ∗ owns (c : Thread nD τ) arg9 fullShare xi7
            ∗ (∃ d', owns (c : Thread nD τ) arg10 fullShare d' ∗ ⌜RowsPut1 (1000 * (i 1).val) ds d' (k1_pay2 x0 x1 x2 x4)⌝)) -∗ K ⟨⟩))
      ⊢ wp frame (wpE (defs₀ (F := F)) Variants.none c none) E (cc1__b_body i arg2 harg2 arg3 harg3 arg4 harg4 arg5 harg5 arg6 harg6 arg7 harg7 arg8 harg8 arg9 harg9 arg10 harg10) K := by
  simp only [cc1__b_body_eq_skeleton]; unfold cc1__b_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hf6; obtain rfl := harg9.eq_unread hf7; obtain rfl := harg10.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    simp only [View.readAt_eq_ld, harg2.read_unread, harg3.read_unread, harg4.read_unread,
      View.ld_unit_zero (S := S1000x10000) hzero1, View.ld_unit_zero (S := S10000x64) hzero1, View.ld_unit_zero (S := S1x64) hzero1]
    exact read_whole_store1 arg7.view f5 _ hzero1 _ _
  isplitl [H6]
  · iexists _; isplitr; · ipureintro; exact harg8.read_unread _
    iexact H6
  isplitl [H7]
  · iexists _; isplitr; · ipureintro; exact harg9.read_unread _
    iexact H7
  iexists _
  isplitl [HS]
  · iexists _; isplitr
    swap; · iexact HS
    ipureintro; rfl
  ipureintro
  simp only [View.readAt_eq_ld, harg2.read_unread, harg3.read_unread, harg4.read_unread, harg6.read_unread,
    View.ld_unit_zero (S := S1000x10000) hzero1, View.ld_unit_zero (S := S10000x64) hzero1, View.ld_unit_zero (S := S1x64) hzero1,
    View.ld_unit_zero (S := S64x16) hzero1]
  exact rowsPut_store1 arg10 harg10 ds (k1_pay2 x0 x1 x2 x4) (k1_off1 i) (1000 * (i 1).val) (k1_off1_eq i) _

/-! ## The body in the second pass -/

set_option maxHeartbeats 2000000 in
/-- In the second pass (first conditional not taken, second taken) the body, on whole buffers, the inputs' at contents `x·`,
    the scratch at `ds`, the h₂ window's at contents handed back untouched, the h₃ and log-softmax windows' at anything, runs to
    the continuation holding the h₃ window at h₃'s rows and the log-softmax window at its rows, both computed from the adjacency
    block, the whole scratch and the bias row; the scratch is left as found. -/
theorem sound_second (c : Dev nD) (E : Set ℕ) (i : grid1.Coords) (arg2 : Memref sig .tc .vmem S1000x10000 .bf16) (harg2 : arg2.IsWhole) (arg3 : Memref sig .tc .vmem S10000x64 .bf16) (harg3 : arg3.IsWhole) (arg4 : Memref sig .tc .vmem S1x64 .f32) (harg4 : arg4.IsWhole) (arg5 : Memref sig .tc .vmem S1x16 .f32) (harg5 : arg5.IsWhole) (arg6 : Memref sig .tc .vmem S64x16 .bf16) (harg6 : arg6.IsWhole) (arg7 : Memref sig .tc .vmem S1000x64 .f32) (harg7 : arg7.IsWhole) (arg8 : Memref sig .tc .vmem S1000x16 .f32) (harg8 : arg8.IsWhole) (arg9 : Memref sig .tc .vmem S1000x16 .f32) (harg9 : arg9.IsWhole) (arg10 : Memref sig .tc .vmem S10000x16 .f32) (harg10 : arg10.IsWhole)
    (hc1 : ¬ k1_cond1 i = 1#1) (hc2 : k1_cond2 i = 1#1) (x0 : Vec F S1000x10000 .bf16) (x1 : Vec F S10000x64 .bf16) (x2 : Vec F S1x64 .f32) (x3 : Vec F S1x16 .f32) (x4 : Vec F S64x16 .bf16)
    (xi5 : Vec F S1000x64 .f32) (ds : Vec F S10000x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xi5 ∗ (∃ d, owns (c : Thread nD τ) arg8 fullShare d) ∗ (∃ d, owns (c : Thread nD τ) arg9 fullShare d)
        ∗ owns (c : Thread nD τ) arg10 fullShare ds
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xi5 ∗ owns (c : Thread nD τ) arg8 fullShare (k1_pay3 x0 ds x3) ∗ owns (c : Thread nD τ) arg9 fullShare (k1_pay4 x0 ds x3)
            ∗ owns (c : Thread nD τ) arg10 fullShare ds) -∗ K ⟨⟩))
      ⊢ wp frame (wpE (defs₀ (F := F)) Variants.none c none) E (cc1__b_body i arg2 harg2 arg3 harg3 arg4 harg4 arg5 harg5 arg6 harg6 arg7 harg7 arg8 harg8 arg9 harg9 arg10 harg10) K := by
  simp only [cc1__b_body_eq_skeleton]; unfold cc1__b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5; obtain rfl := harg10.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    simp only [View.readAt_eq_ld, harg2.read_unread, harg10.read_unread, harg5.read_unread,
      View.ld_unit_zero (S := S1000x10000) hzero1, View.ld_unit_zero (S := S10000x16) hzero1, View.ld_unit_zero (S := S1x16) hzero1]
    exact read_whole_store1 arg8.view f6 _ hzero1 _ _
  isplitl [H7]
  · iexists _; isplitr
    swap; · iexact H7
    ipureintro
    simp only [View.readAt_eq_ld, harg2.read_unread, harg10.read_unread, harg5.read_unread,
      View.ld_unit_zero (S := S1000x10000) hzero1, View.ld_unit_zero (S := S10000x16) hzero1, View.ld_unit_zero (S := S1x16) hzero1]
    exact read_whole_store1 arg9.view f7 _ hzero1 _ _
  iexists _; isplitr; · ipureintro; exact harg10.read_unread _
  iexact HS

/-! ## The rows of z₃ a point of the first pass stores -/

/-- In the first pass a point's column coordinate is its number. -/
theorem coord1_first : ∀ t : Fin cfg1.N, t.val < 10 → ((grid1.coords t) 1).val = t.val := by decide +kernel

/-- Row `1000 t + r` of z₃ is row `r` of the block point `t` of the first pass computes. -/
theorem Z3_rows (c : Dev nD) (t : Fin cfg1.N) (ht : t.val < 10) (y : S10000x16.Idx) (x : S1000x16.Idx)
    (h0 : (y 0).val = 1000 * t.val + (x 0).val) (h1 : (y 1).val = (x 1).val) :
    Z3 V c y = k1_pay2 (adjbin1 V c t) (z2in1 V c t) (b2in1 V c t) (w3in1 V c t) x := by
  have hx0 : (x 0).val < 1000 := (x 0).isLt
  have hk : (⟨(y 0).val / 1000, Nat.div_lt_of_lt_mul (show (y 0).val < 1000 * 10 from (y 0).isLt)⟩ : Fin 10) = ⟨t.val, ht⟩ :=
    Fin.ext (by show (y 0).val / 1000 = t.val; omega)
  have hx : (ValueIdx.ix2 (⟨(y 0).val % 1000, Nat.mod_lt _ (by decide)⟩ : Fin 1000) (y 1) : S1000x16.Idx) = x := by
    funext a; fin_cases a
    · exact Fin.ext (by show (y 0).val % 1000 = (x 0).val; omega)
    · exact Fin.ext h1
  unfold Z3
  rw [hk, hx]
  rfl

/-- The invariant's fact after a point of the first pass: the rows below the point's block were z₃'s already, and the block's
    rows now are. -/
theorem inv_first (c : Dev nD) (t : Fin cfg1.N) (ht : t.val < 10) (ds d' : Vec F S10000x16 .f32)
    (hds : ∀ y : S10000x16.Idx, (y 0).val < 1000 * t.val → ds y = Z3 V c y)
    (hput : RowsPut1 (1000 * t.val) ds d' (k1_pay2 (adjbin1 V c t) (z2in1 V c t) (b2in1 V c t) (w3in1 V c t))) :
    ∀ y : S10000x16.Idx, (y 0).val < 1000 * (min t.val 9 + 1) → d' y = Z3 V c y := by
  intro y hy
  have hm : min t.val 9 = t.val := by omega
  rw [hm] at hy
  by_cases hlt : (y 0).val < 1000 * t.val
  · rw [hput.1 y (Or.inl hlt)]; exact hds y hlt
  · have hx : (y 0).val - 1000 * t.val < 1000 := by omega
    have h0 : (y 0).val = 1000 * t.val + ((ValueIdx.ix2 (⟨(y 0).val - 1000 * t.val, hx⟩ : Fin 1000) (y 1) : S1000x16.Idx) 0).val := by
      show (y 0).val = 1000 * t.val + ((y 0).val - 1000 * t.val); omega
    rw [hput.2 y (ValueIdx.ix2 (⟨(y 0).val - 1000 * t.val, hx⟩ : Fin 1000) (y 1)) h0 rfl]
    exact (Z3_rows V c t ht y _ h0 rfl).symm

theorem PhiS1_pos (c : Dev nD) (n : ℕ) (hz : n ≠ 0) :
    PhiS1 V c n = iprop((∃ d : Vec F S10000x16 .f32, owns (c : Thread nD τ) scM1 fullShare d
        ∗ ⌜∀ y : S10000x16.Idx, (y 0).val < 1000 * (min (n - 1) 9 + 1) → d y = Z3 V c y⌝)
      ∗ Pipeline.scopedRestBut (Ix := Unit) (Name := ℕ) (U := UR sig nD τ) (Lvl := ℕ) (Val := Elt F) spec1 c [cc1_scratch0]
      ∗ ∃ r, prngReg c r) := by
  cases n with
  | zero => exact absurd rfl hz
  | succ n => rfl

/-! ## What the obligation asks of each window's buffer -/

theorem liveAt1_0 (t : Fin cfg1.N) : cfg1.idle 0 (grid1.coords t) = false := rfl
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem liveAt1_1 (t : Fin cfg1.N) : cfg1.idle 1 (grid1.coords t) = false := rfl
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem liveAt1_2 (t : Fin cfg1.N) : cfg1.idle 2 (grid1.coords t) = false := rfl
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem liveAt1_3 (t : Fin cfg1.N) : cfg1.idle 3 (grid1.coords t) = false := rfl
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
theorem liveAt1_4 (t : Fin cfg1.N) : cfg1.idle 4 (grid1.coords t) = false := rfl
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]

theorem noflush1_6 (t : Fin cfg1.N) (h : t.val < 10) : (cfg1.win 6).flush t = false := by
  rw [← Bool.not_eq_true, flush1_6]; omega
theorem noflush1_7 (t : Fin cfg1.N) (h : t.val < 10) : (cfg1.win 7).flush t = false := by
  rw [← Bool.not_eq_true, flush1_7]; omega

theorem leaves1_5_first (c : Dev nD) (t : Fin cfg1.N) (h : t.val < 10) :
    (dat1 V c).leavesExact 5 t = owns (c : Thread nD τ) (st1_5 t) fullShare (out1_5 V c t) := by
  unfold Dat.leavesExact; rw [liveAt1_5 t h, after1_5]
theorem leaves1_6_second (c : Dev nD) (t : Fin cfg1.N) (h : 10 ≤ t.val) :
    (dat1 V c).leavesExact 6 t = owns (c : Thread nD τ) (st1_6 t) fullShare (out1_6 V c t) := by
  unfold Dat.leavesExact; rw [liveAt1_6 t h, after1_6]
theorem leaves1_7_second (c : Dev nD) (t : Fin cfg1.N) (h : 10 ≤ t.val) :
    (dat1 V c).leavesExact 7 t = owns (c : Thread nD τ) (st1_7 t) fullShare (out1_7 V c t) := by
  unfold Dat.leavesExact; rw [liveAt1_7 t h, after1_7]

/-- In the second pass the h₂ window's buffer, left as found, is what the obligation asks: at the last point, which writes the
    block back, because what was found there is the block's rows. -/
theorem leaves1_5_second (c : Dev nD) (t : Fin cfg1.N) (h : 10 ≤ t.val) :
    owns (c : Thread nD τ) (st1_5 t) fullShare (out1_5 V c t) ⊢ (dat1 V c).leavesExact 5 t := by
  cases hf : (cfg1.win 5).flush t
  · rw [Dat.leavesExact_idle (dat1 V c) 5 t (idleAt1_5 t h) hf]
    iintro H; iexists (out1_5 V c t)
    rw [before5_second V c (t.val - 10) t (by omega)]
    iexact H
  · have e : (dat1 V c).leavesExact 5 t = owns (c : Thread nD τ) (st1_5 t) fullShare ((dat1 V c).after 5 t) := by
      unfold Dat.leavesExact; rw [idleAt1_5 t h, hf]
    rw [e, after1_5]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point. The inputs' buffers hold their blocks. In the first pass the first conditional alone is taken: the
    scratch comes in with the rows below the point's block known (nothing at the first point) and goes out with the block's rows
    known too; the h₃ and log-softmax windows are handed back as found. In the second pass the second conditional alone is taken:
    the invariant says the scratch is z₃ whole; the h₂ window is handed back as found, which at the last point is what is written
    back. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) from rfl, PhiS1_succ]
  rw [show (dat1 V c).Φ t.castSucc = PhiS1 V c t.val from rfl]
  rw [leaves1_0, leaves1_1, leaves1_2, leaves1_3, leaves1_4]
  have hN : t.val < 20 := lt_of_lt_of_eq t.isLt (show cfg1.N = 20 from N_1)
  by_cases h : t.val < 10
  · have hc1 : k1_cond1 (grid1.coords t) = 1#1 := (hcond1_1 t).mpr h
    have hc2 : ¬ k1_cond2 (grid1.coords t) = 1#1 := fun e => by have := (hcond1_2 t).mp e; omega
    rw [leaves1_5_first V c t h,
      Dat.leavesExact_idle (dat1 V c) 6 t (idleAt1_6 t h) (noflush1_6 t h),
      Dat.leavesExact_idle (dat1 V c) 7 t (idleAt1_7 t h) (noflush1_7 t h)]
    rw [show out1_5 V c t = k1_pay1 (adjbin1 V c t) (z2in1 V c t) (b2in1 V c t) from by
      unfold out1_5; rw [show q5 t = t from Fin.ext (by show min t.val 9 = t.val; omega)]]
    by_cases hz : t.val = 0
    · rw [show PhiS1 V c t.val = Pipeline.ΦA spec1 c from by rw [hz]; rfl, PhiA1_eq]
      iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have HDS : ∀ y : S10000x16.Idx, (y 0).val < 1000 * t.val → ds y = Z3 V c y := fun y hy => by omega
      iapply (sound_first c Set.univ (grid1.coords t) _ _ _ _ _ _ _ _ _ _ _ _ _ _ _ _ _ _ hc1 hc2 (adjbin1 V c t) (z2in1 V c t) (b2in1 V c t) (b3in1 V c t) (w3in1 V c t) _ _ ds _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      iintro ⟨H0, H1, H2, H3, H4, H5, H6, H7, ⟨%d', HS, %hput⟩⟩
      rw [coord1_first t h] at hput
      isplitl [HS HR Hg]
      · isplitl [HS]
        · iexists d'; isplitl [HS]; · iexact HS
          ipureintro
          exact inv_first V c t h ds d' HDS hput
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS1_pos V c t.val hz]
      iintro ⟨⟨⟨%ds, HS, %hds⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have HDS : ∀ y : S10000x16.Idx, (y 0).val < 1000 * t.val → ds y = Z3 V c y := fun y hy => hds y (by omega)
      iapply (sound_first c Set.univ (grid1.coords t) _ _ _ _ _ _ _ _ _ _ _ _ _ _ _ _ _ _ hc1 hc2 (adjbin1 V c t) (z2in1 V c t) (b2in1 V c t) (b3in1 V c t) (w3in1 V c t) _ _ ds _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      iintro ⟨H0, H1, H2, H3, H4, H5, H6, H7, ⟨%d', HS, %hput⟩⟩
      rw [coord1_first t h] at hput
      isplitl [HS HR Hg]
      · isplitl [HS]
        · iexists d'; isplitl [HS]; · iexact HS
          ipureintro
          exact inv_first V c t h ds d' HDS hput
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have h10 : 10 ≤ t.val := by omega
    have hc1 : ¬ k1_cond1 (grid1.coords t) = 1#1 := fun e => by have := (hcond1_1 t).mp e; omega
    have hc2 : k1_cond2 (grid1.coords t) = 1#1 := (hcond1_2 t).mpr h10
    have hz : t.val ≠ 0 := by omega
    rw [leaves1_6_second V c t h10, leaves1_7_second V c t h10, PhiS1_pos V c t.val hz]
    simp only [before5_second V c (t.val - 10) t (by omega)]
    unfold out1_6 out1_7
    iintro ⟨⟨⟨%ds, HS, %hds⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : ds = Z3 V c := funext fun y => hds y (by have : (y 0).val < 10000 := (y 0).isLt; omega)
    iapply (sound_second c Set.univ (grid1.coords t) _ _ _ _ _ _ _ _ _ _ _ _ _ _ _ _ _ _ hc1 hc2 (adjbin1 V c t) (z2in1 V c t) (b2in1 V c t) (b3in1 V c t) (w3in1 V c t) (out1_5 V c t) (Z3 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS]
      · iexists (Z3 V c); isplitl [HS]; · iexact HS
        ipureintro; intro y _; rfl
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves1_5_second V c t h10); iexact H5
    isplitl [H6]; · iexact H6
    iexact H7

/-! ## The body obligation and the invariant's ends -/

/-- At every point the body, handed the invariant and the windows' current buffers, leaves them as the proof data says. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  show Pipeline.ΦA spec1 c ⊢ PhiS1 V c 0
  exact Idealize.SL.BI.Entails.refl _

/-- After the last point the invariant gives the class's back: the scratch's contents are forgotten. -/
theorem hout1 (c : Dev nD) : (dat1 V c).Φ (Fin.last cfg1.N) ⊢ Pipeline.ΦA spec1 c := by
  have e : (dat1 V c).Φ (Fin.last cfg1.N) = PhiS1 V c (19 + 1) :=
    congrArg (PhiS1 V c) (show (Fin.last cfg1.N).val = 19 + 1 from N_1)
  rw [e, PhiS1_succ, PhiA1_eq]
  iintro ⟨⟨%d, HS, -⟩, HR, Hg⟩
  isplitl [HS HR]
  · isplitl [HS]
    · iexists d; iexact HS
    iexact HR
  iexact Hg

end Cert.Kernel.Hand

end
-- ==== Proof.K.Run.lean ====
/-
  The whole program on one core: a stretch of host operations (the bias row reshaped, W₂ re-laid), the first kernel region, a
  second stretch (two bias rows, W₃ re-laid), the second kernel region. The buffers' contents at each boundary are a fold from
  the launch memory: a stretch applies its operations; a region leaves its arrays at what its write-backs fold to and every
  other buffer as entered. Every weakly fair execution terminates with every unscoped buffer at the last boundary's contents.
-/
import proofs.«137813_g44306882625589_cont_8to1_c_1074_18_alg».proof.Proof.Gen.Kernel.Launch
import proofs.«137813_g44306882625589_cont_8to1_c_1074_18_alg».proof.Proof.Gen.Kernel.Regions
import proofs.«137813_g44306882625589_cont_8to1_c_1074_18_alg».proof.Proof.Gen.Kernel.Skeleton
import proofs.«137813_g44306882625589_cont_8to1_c_1074_18_alg».proof.Proof.Gen.Kernel.Points
import proofs.«137813_g44306882625589_cont_8to1_c_1074_18_alg».proof.Proof.K.R0
import proofs.«137813_g44306882625589_cont_8to1_c_1074_18_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the first host stretch (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

/-! ## What a region's exit hands the next boundary -/

/-- The first region's arrays end at the boundary's contents, and it leaves every other buffer as entered. -/
theorem arr_exit0 (c : Dev nD) (w : Fin cfg0.W) : (dat0 (V1 m) c).arrAt w cfg0.N = V2 m c (Pipeline.arrRef spec0 w) :=
  (W2_arr m c w).symm
theorem rest_exit0 (c : Dev nD) (b : Ref sig .tc) (hb : b ∉ Finset.univ.image (Pipeline.arrRef spec0)) : V2 m c b = V1 m c b :=
  W2_of_ne m c b fun w e => hb (Finset.mem_image.mpr ⟨w, Finset.mem_univ _, e⟩)
/-- The same for the second region. -/
theorem arr_exit1 (c : Dev nD) (w : Fin cfg1.W) : (dat1 (V3 m) c).arrAt w cfg1.N = V4 m c (Pipeline.arrRef spec1 w) :=
  (W4_arr m c w).symm
theorem rest_exit1 (c : Dev nD) (b : Ref sig .tc) (hb : b ∉ Finset.univ.image (Pipeline.arrRef spec1)) : V4 m c b = V3 m c b :=
  W4_of_ne m c b fun w e => hb (Finset.mem_image.mpr ⟨w, Finset.mem_univ _, e⟩)

/-! ## The proof data of the two pipelines and the state a core carries between segments -/

/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-- No core waits on another: no level is assigned anywhere. -/
abbrev noL : GSem nD τ sig → Finset Unit := fun _ => ∅
abbrev noLv : GSem nD τ sig → Unit → ℕ := fun _ _ => 0

/-- The generator register at some state. -/
abbrev Gen_ (c : Dev nD) : sProp 𝕄 := iprop(∃ r, prngReg c r)
/-- The core owes nothing. -/
abbrev Owe0 (c : Dev nD) : sProp 𝕄 := iprop(∃ W, owes (c : Thread nD τ) (0 : CellTallies nD τ sig Unit) W)
/-- Every unscoped buffer of the core whole at the contents `W`. -/
abbrev Held (W : Dev nD → Valuation τ sig (Elt F)) (c : Dev nD) : sProp 𝕄 :=
  StableHlo.held (c : Thread nD τ) (Pipeline.ucRefs τ sig) (W c)

/-- What rides beside the buffers from segment to segment: the generator register at some state, nothing owed. -/
abbrev Side (c : Dev nD) : sProp 𝕄 := iprop(Gen_ (F := F) c ∗ Owe0 (F := F) c)

/-- A stretch of host operations as a segment: from every unscoped buffer at `W` to the same at the stretch applied to `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Side

/-! ## The two regions as segments -/

set_option backward.isDefEq.respectTransparency.types false in
/-- The first kernel region: entered with every unscoped buffer at `W1`, left with them at `W2`. Its arrays are taken out of
    the unscoped buffers and put back at what the pipeline leaves. The generator register and the scoped buffers that stage no
    window make the class's invariant, which entails the region's own before the first point; after the last point the
    region's own entails the class's, which gives both back. -/
def region0 : Pipeline.RegionSeg (pcfgs (F := F)) adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noL noLv 0 fun _ _ => rfl
  pre c := iprop(Held (W1 m) c ∗ Side c)
  post c := iprop(Held (W2 m) c ∗ Side c)
  X c := Gen_ c
  Y c := Gen_ c
  Z c := Pipeline.unscopedRest (Ix := Unit) (Name := ℕ) (U := UR sig nD τ) (Lvl := ℕ) spec0 c (V1 m c)
  hentry c := by
    rw [Pipeline.ownSems0_none]
    have htake := Pipeline.arrays_of_unscopedBufs (p := 0) (pcfgs (F := F)) adm (pdats m) launch0.win launch0.arr_whole c
      ((pdats m 0 c).share_full fun _ => rfl) (V1 m c) fun w => A_eq0 (V1 m) c w
    rw [Pipeline.unscopedBufs_held] at htake
    iintro ⟨⟨Hbufs, Hgen, Howe⟩, -, -⟩
    ihave Hs := htake $$ Hbufs
    icases Hs with ⟨Harr, Hoth⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%S, Howe⟩
      iexists S
      isplitr; · ipureintro; exact fun _ _ => Or.inl trivial
      iexact Howe
    isplitl [Hgen]; · iexact Hgen
    iexact Hoth
  hin c := by
    refine BIBase.Entails.trans ?_ (hin0 (V1 m) c)
    unfold Pipeline.ΦA
    iintro ⟨Hgen, -, Hsc⟩
    isplitl [Hsc]; · iexact Hsc
    iexact Hgen
  hout c := by
    rw [Pipeline.ownSems0_none]
    refine BIBase.Entails.trans (hout0 (V1 m) c) ?_
    unfold Pipeline.ΦA
    iintro ⟨Hsc, Hgen⟩
    isplitl [Hgen]; · iexact Hgen
    isplitr; · iempintro
    iexact Hsc
  hexit c := by
    have hput := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (arr_exit0 m c) (rest_exit0 m c)
    rw [Pipeline.unscopedBufs_held] at hput
    iintro ⟨Harr, Howe, Hgen, Hoth⟩
    imodintro
    isplitl [Harr Hoth]
    · iapply hput; isplitl [Harr] <;> iassumption
    isplitl [Hgen]; · iexact Hgen
    unfold Pipeline.Dat.owesAt Pipeline.owesWithin
    icases Howe with ⟨%S, -, Howe⟩
    iexists S; iexact Howe

set_option backward.isDefEq.respectTransparency.types false in
/-- The second kernel region: entered with every unscoped buffer at `W3`, left with them at `W4`, in the same way. -/
def region1 : Pipeline.RegionSeg (pcfgs (F := F)) adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noL noLv 1 fun _ _ => rfl
  pre c := iprop(Held (W3 m) c ∗ Side c)
  post c := iprop((Held (W4 m) c ∗ Gen_ c) ∗ Owe0 c)
  X c := Gen_ c
  Y c := Gen_ c
  Z c := Pipeline.unscopedRest (Ix := Unit) (Name := ℕ) (U := UR sig nD τ) (Lvl := ℕ) spec1 c (V3 m c)
  hentry c := by
    rw [Pipeline.ownSems0_none]
    have htake := Pipeline.arrays_of_unscopedBufs (p := 1) (pcfgs (F := F)) adm (pdats m) launch1.win launch1.arr_whole c
      ((pdats m 1 c).share_full fun _ => rfl) (V3 m c) fun w => A_eq1 (V3 m) c w
    rw [Pipeline.unscopedBufs_held] at htake
    iintro ⟨⟨Hbufs, Hgen, Howe⟩, -, -⟩
    ihave Hs := htake $$ Hbufs
    icases Hs with ⟨Harr, Hoth⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%S, Howe⟩
      iexists S
      isplitr; · ipureintro; exact fun _ _ => Or.inl trivial
      iexact Howe
    isplitl [Hgen]; · iexact Hgen
    iexact Hoth
  hin c := by
    refine BIBase.Entails.trans ?_ (hin1 (V3 m) c)
    unfold Pipeline.ΦA
    iintro ⟨Hgen, -, Hsc⟩
    isplitl [Hsc]; · iexact Hsc
    iexact Hgen
  hout c := by
    rw [Pipeline.ownSems0_none]
    refine BIBase.Entails.trans (hout1 (V3 m) c) ?_
    unfold Pipeline.ΦA
    iintro ⟨Hsc, Hgen⟩
    isplitl [Hgen]; · iexact Hgen
    isplitr; · iempintro
    iexact Hsc
  hexit c := by
    have hput := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (arr_exit1 m c) (rest_exit1 m c)
    rw [Pipeline.unscopedBufs_held] at hput
    iintro ⟨Harr, Howe, Hgen, Hoth⟩
    imodintro
    isplitr [Howe]
    · isplitl [Harr Hoth]
      · iapply hput; isplitl [Harr] <;> iassumption
      iexact Hgen
    unfold Pipeline.Dat.owesAt Pipeline.owesWithin
    icases Howe with ⟨%S, -, Howe⟩
    iexists S; iexact Howe

/-! ## The run -/

/-- The four segments of @main in order. -/
abbrev segments : List (Pipeline.Seg (pcfgs (F := F)) adm (pdats m) () defs₀ Variants.none noL noLv) :=
  [ .host (stretch hostOps0 hostOps0_sub hostOps0_fresh (W0 m)),
    .region (region0 m),
    .host (stretch hostOps1 hostOps1_sub hostOps1_fresh (W2 m)),
    .region (region1 m) ]

/-- @main is the run of those segments. -/
theorem main_is_segments (c : Dev nD) : main (F := F) c = Pipeline.Seg.run (segments m) :=
  (main_chain c).trans (by chain_rfl)

set_option backward.isDefEq.respectTransparency.types false in
/-- At the compiled mesh, from any memory with zero counters: every weakly fair execution of @main terminates, nothing
    faulting, and every final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ Variants.none noL noLv m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(Held (W0 m) c ∗ Side c)) (Tₙ := fun c => iprop(Held (W4 m) c ∗ Gen_ c))
    (hch := ⟨fun _ => .rfl, fun _ => .rfl, fun _ => .rfl, fun _ => .rfl, fun _ => .rfl⟩)
    (hinit := by
      refine Pipeline.initEach noL noLv fun c => ?_
      rw [show unscopedBufs c (fun b => m ((c : Thread nD τ).loc b)) = Held (W0 m) c
        from Pipeline.unscopedBufs_held c (W0 m c)]
      iintro ⟨⟨Hbufs, -, Howe, -, Hreg, -⟩, -⟩
      imodintro
      isplitl [Hbufs]; · iexact Hbufs
      isplitl [Hreg]; · iexists _; iexact Hreg
      iexists ∅; iexact Howe)
    (QY := fun c s => ∀ b ∈ Pipeline.ucRefs τ sig, s.mem (((c : Thread nD τ)).1, b) = W4 m c b)
    (hfin := fun c s' => by
      iintro ⟨⟨Hbufs, -⟩, HSI⟩
      unfold Held StableHlo.held
      imodintro
      iapply (pointsTo_read_all (Pipeline.ucRefs τ sig) (fun b => (((c : Thread nD τ)).1, b)) (W4 m c) s')
      isplitl [Hbufs] <;> iassumption)
    (hQ := fun s h => h)

end Cert.Kernel.Hand

end
-- ==== Proof.K.Args.lean ====
/-
  No host operation and no region writes an argument array: a host stretch writes only its own results, the first region
  reads the three arguments it stages and leaves the other five alone, the second region stages none. So every argument
  array holds its launch contents at the last boundary, and the run's final memory has the arguments unchanged. Stated at
  any float family.
-/
import proofs.«137813_g44306882625589_cont_8to1_c_1074_18_alg».proof.Proof.Gen.Kernel.Launch
import proofs.«137813_g44306882625589_cont_8to1_c_1074_18_alg».proof.Proof.Gen.Kernel.Skeleton
import proofs.«137813_g44306882625589_cont_8to1_c_1074_18_alg».proof.Proof.Gen.Kernel.Points
import proofs.«137813_g44306882625589_cont_8to1_c_1074_18_alg».proof.Proof.K.Run
import proofs.«137813_g44306882625589_cont_8to1_c_1074_18_alg».proof.Proof.Gen.Kernel.Regions
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer the first stretch does not write holds its launch contents at the first region's entry. -/
theorem W1_keep (c : Dev nD) (r : Ref sig .tc) (h : r ∉ Gen.hostOps0_W) :
    W1 m c (Proc.devRef .tc r) = m ((c.tc : Thread nD τ).loc r) :=
  StableHlo.after_of_writes_sub hostOps0 _ Gen.hostOps0_writes h

theorem V1_arg0 (c : Dev nD) : V1 m c main_arg0 = m ((c.tc : Thread nD τ).loc main_arg0) := W1_keep m c main_arg0 (by decide)
theorem V1_arg1 (c : Dev nD) : V1 m c main_arg1 = m ((c.tc : Thread nD τ).loc main_arg1) := W1_keep m c main_arg1 (by decide)
theorem V1_arg2 (c : Dev nD) : V1 m c main_arg2 = m ((c.tc : Thread nD τ).loc main_arg2) := W1_keep m c main_arg2 (by decide)

/-- Each argument array holds its launch contents at the first region's exit: the region only reads the three it stages,
    and the other five are none of its arrays. -/
theorem W2_arg0 (c : Dev nD) : W2 m c (Proc.devRef .tc main_arg0) = m ((c.tc : Thread nD τ).loc main_arg0) :=
  (W2_arr m c 0).trans (((dat0 (V1 m) c).arrAt_in 0 rfl _).trans ((A_eq0 (V1 m) c 0).trans (V1_arg0 m c)))
theorem W2_arg1 (c : Dev nD) : W2 m c (Proc.devRef .tc main_arg1) = m ((c.tc : Thread nD τ).loc main_arg1) :=
  (W2_arr m c 2).trans (((dat0 (V1 m) c).arrAt_in 2 rfl _).trans ((A_eq0 (V1 m) c 2).trans (V1_arg1 m c)))
theorem W2_arg2 (c : Dev nD) : W2 m c (Proc.devRef .tc main_arg2) = m ((c.tc : Thread nD τ).loc main_arg2) :=
  (W2_arr m c 1).trans (((dat0 (V1 m) c).arrAt_in 1 rfl _).trans ((A_eq0 (V1 m) c 1).trans (V1_arg2 m c)))
theorem W2_arg3 (c : Dev nD) : W2 m c (Proc.devRef .tc main_arg3) = m ((c.tc : Thread nD τ).loc main_arg3) :=
  (W2_of_ne m c main_arg3 (by decide)).trans (W1_keep m c main_arg3 (by decide))
theorem W2_arg4 (c : Dev nD) : W2 m c (Proc.devRef .tc main_arg4) = m ((c.tc : Thread nD τ).loc main_arg4) :=
  (W2_of_ne m c main_arg4 (by decide)).trans (W1_keep m c main_arg4 (by decide))
theorem W2_arg5 (c : Dev nD) : W2 m c (Proc.devRef .tc main_arg5) = m ((c.tc : Thread nD τ).loc main_arg5) :=
  (W2_of_ne m c main_arg5 (by decide)).trans (W1_keep m c main_arg5 (by decide))
theorem W2_arg6 (c : Dev nD) : W2 m c (Proc.devRef .tc main_arg6) = m ((c.tc : Thread nD τ).loc main_arg6) :=
  (W2_of_ne m c main_arg6 (by decide)).trans (W1_keep m c main_arg6 (by decide))
theorem W2_arg7 (c : Dev nD) : W2 m c (Proc.devRef .tc main_arg7) = m ((c.tc : Thread nD τ).loc main_arg7) :=
  (W2_of_ne m c main_arg7 (by decide)).trans (W1_keep m c main_arg7 (by decide))

/-- A buffer the second stretch does not write is as the first region left it. -/
theorem W3_keep (c : Dev nD) (r : Ref sig .tc) (h : r ∉ Gen.hostOps1_W) :
    W3 m c (Proc.devRef .tc r) = W2 m c (Proc.devRef .tc r) :=
  StableHlo.after_of_writes_sub hostOps1 _ Gen.hostOps1_writes h

/-- An argument array is none of the second region's arrays and no result of the second stretch. -/
theorem res_arg (c : Dev nD) (r : Ref sig .tc) (h4 : ∀ w, Pipeline.arrRef spec1 w ≠ r) (h3 : r ∉ Gen.hostOps1_W)
    (h2 : W2 m c (Proc.devRef .tc r) = m ((c.tc : Thread nD τ).loc r)) :
    W4 m c (Proc.devRef .tc r) = m ((c.tc : Thread nD τ).loc r) :=
  (W4_of_ne m c r h4).trans ((W3_keep m c r h3).trans h2)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution terminates with the eight argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (res_arg m c main_arg0 (by decide) (by decide) (W2_arg0 m c)),
     (h c _ (mem_uc main_arg1 (by decide))).trans (res_arg m c main_arg1 (by decide) (by decide) (W2_arg1 m c)),
     (h c _ (mem_uc main_arg2 (by decide))).trans (res_arg m c main_arg2 (by decide) (by decide) (W2_arg2 m c)),
     (h c _ (mem_uc main_arg3 (by decide))).trans (res_arg m c main_arg3 (by decide) (by decide) (W2_arg3 m c)),
     (h c _ (mem_uc main_arg4 (by decide))).trans (res_arg m c main_arg4 (by decide) (by decide) (W2_arg4 m c)),
     (h c _ (mem_uc main_arg5 (by decide))).trans (res_arg m c main_arg5 (by decide) (by decide) (W2_arg5 m c)),
     (h c _ (mem_uc main_arg6 (by decide))).trans (res_arg m c main_arg6 (by decide) (by decide) (W2_arg6 m c)),
     (h c _ (mem_uc main_arg7 (by decide))).trans (res_arg m c main_arg7 (by decide) (by decide) (W2_arg7 m c))⟩)
    (run_all m ρ)

end Cert.Kernel.Hand

end
-- ==== Proof.KI.R0.lean ====
/-
  The first pallas_call, over row blocks of 400: at the first grid point it forms z₁ = x·W₁ in a scratch buffer kept
  across points; at every point it re-lays the adjacency block, forms h₁ = adj·z₁ + b₁ on the block's rows and the next
  layer's projection z₂ = relu(h₁)·W₂. Stated at any float family and at any contents `V` of the core's buffers when
  the region is entered.
-/
import proofs.«137813_g44306882625589_cont_8to1_c_1074_18_alg».proof.Proof.Gen.KernelIdeal.Launch
import proofs.«137813_g44306882625589_cont_8to1_c_1074_18_alg».proof.Proof.Gen.KernelIdeal.Skeleton
import proofs.«137813_g44306882625589_cont_8to1_c_1074_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev first0 : Fin cfg0.N := ⟨0, by decide⟩

/-- The five input blocks at a point, at their literal types: the features (whole), W₁ (whole), the adjacency's row
    block, the bias row, W₂. -/
abbrev xin0 (c : Dev nD) (t : Fin cfg0.N) : Vec F S10000x128 .f32 := iblk0 V c 0 t
abbrev w1in0 (c : Dev nD) (t : Fin cfg0.N) : Vec F S128x64 .f32 := iblk0 V c 1 t
abbrev adjin0 (c : Dev nD) (t : Fin cfg0.N) : Vec F S400x10000 .f32 := iblk0 V c 2 t
abbrev b1in0 (c : Dev nD) (t : Fin cfg0.N) : Vec F S1x64 .f32 := iblk0 V c 3 t
abbrev w2in0 (c : Dev nD) (t : Fin cfg0.N) : Vec F S64x64 .bf16 := iblk0 V c 4 t

/-! ## What the body computes -/

/-- z₁ = x·W₁: what the scratch buffer holds from the end of the first point on. -/
def Z1 (c : Dev nD) : Vec F S10000x64 .bf16 := k0_pay1 (xin0 V c first0) (w1in0 V c first0)

/-- The rows of h₁ the point writes. -/
def out0_5 (c : Dev nD) (t : Fin cfg0.N) : Vec F S400x64 .f32 := k0_pay3 (adjin0 V c t) (Z1 V c) (b1in0 V c t)
/-- The adjacency block re-laid. -/
def out0_6 (c : Dev nD) (t : Fin cfg0.N) : Vec F S400x10000 .bf16 := k0_pay2 (adjin0 V c t)
/-- The rows of z₂ the point writes. -/
def out0_7 (c : Dev nD) (t : Fin cfg0.N) : Vec F S400x64 .bf16 := k0_pay4 (adjin0 V c t) (Z1 V c) (b1in0 V c t) (w2in0 V c t)

/-! ## The region's invariant and proof data -/

/-- The scratch buffer as a memref. -/
abbrev scM0 : Memref sig .tc .vmem S10000x64 .bf16 := Memref.whole cc0_scratch0

/-- Between points: before the first, the class's invariant (every scoped buffer that is no staging buffer at some contents,
    the generator register at some state); afterwards the same with the scratch named: it holds z₁. -/
def PhiS0 (c : Dev nD) : ℕ → sProp 𝕄
  | 0 => Pipeline.ΦA spec0 c
  | _ + 1 => iprop(owns (c : Thread nD τ) scM0 fullShare (Z1 V c)
      ∗ Pipeline.scopedRestBut (Ix := Unit) (Name := ℕ) (U := UR sig nD τ) (Lvl := ℕ) (Val := Elt F) spec0 c [cc0_scratch0]
      ∗ ∃ r, prngReg c r)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 V c t
    | ⟨6, _⟩ => out0_6 V c t
    | ⟨7, _⟩ => out0_7 V c t
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 V c t := by dsimp only [dat0]
theorem after0_6 (c : Dev nD) (t : Fin cfg0.N) : (dat0 V c).after 6 t = out0_6 V c t := by dsimp only [dat0]
theorem after0_7 (c : Dev nD) (t : Fin cfg0.N) : (dat0 V c).after 7 t = out0_7 V c t := by dsimp only [dat0]

/-! ## The inputs' buffers hold their blocks -/

/-- Each input window's current buffer holds its block at every point, fetched there or not: the body leaves the block in
    place, and where the pipeline does not fetch, the block index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The body's branch condition -/

/-- The condition of the body's conditional, from the grid coordinates: the point is the first. -/
abbrev cond0 (i : grid0.Coords) : Prop := (Scalar.cmpi .ne (Scalar.extui (Scalar.cmpi .eq (BitVec.ofNat 32 (i 0).val) 0#32)) 0#32) = 1#1
/-- It holds at point 0 only. -/
theorem hcond0 : ∀ t : Fin cfg0.N, cond0 (grid0.coords t) ↔ t.val = 0 :=
  (by decide +kernel : ∀ t : Fin grid0.N, cond0 (grid0.coords t) ↔ t.val = 0)

/-! ## Whole-buffer loads and stores -/

theorem hz2 : (![0, 0] : Fin 2 → Nat) = fun _ => 0 := funext fun a => by fin_cases a <;> rfl

/-- One store through the whole-buffer rectangle at zero offsets leaves its payload, whatever the buffer held. -/
theorem read_store_whole {sp : Space} {S : Shape} {e : EltTy} (m : Memref sig .tc sp S e) (f : m.view.ty.Contents (Elt F))
    {off : Fin S.rank → Nat} (h : off = fun _ => 0) (inb : ∀ a, off a + S.size a ≤ S.size a) (w : S.Idx → Elt F e) :
    m.view.read (Elt F) (m.view.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

/-! ## The class's invariant with the scratch buffer named -/

/-- The class's invariant with the scratch as a memref owned at some contents, the other scoped buffers unopened. -/
theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide)]
  simp only [bigSepL_singleton, scM0, owns_whole]
  rfl

theorem PhiS0_zero (c : Dev nD) : PhiS0 V c 0 = Pipeline.ΦA spec0 c := rfl

theorem PhiS0_succ (c : Dev nD) (n : ℕ) : PhiS0 V c (n + 1) = iprop(owns (c : Thread nD τ) scM0 fullShare (Z1 V c)
      ∗ Pipeline.scopedRestBut (Ix := Unit) (Name := ℕ) (U := UR sig nD τ) (Lvl := ℕ) (Val := Elt F) spec0 c [cc0_scratch0]
      ∗ ∃ r, prngReg c r) := rfl

theorem PhiS0_pos (c : Dev nD) (n : ℕ) (hn : n ≠ 0) : PhiS0 V c n = iprop(owns (c : Thread nD τ) scM0 fullShare (Z1 V c)
      ∗ Pipeline.scopedRestBut (Ix := Unit) (Name := ℕ) (U := UR sig nD τ) (Lvl := ℕ) (Val := Elt F) spec0 c [cc0_scratch0]
      ∗ ∃ r, prngReg c r) := by
  cases n with
  | zero => exact absurd rfl hn
  | succ n => rfl

set_option maxHeartbeats 1000000 in
/-- The body at the first point, on whole memrefs: the inputs at their contents, the outputs and the scratch at anything.
    It forms z₁ from the features and W₁ in the scratch, then the three output blocks from the adjacency block,
    that z₁, the bias row and W₂; the inputs are handed back as they were. -/
theorem sound_kernel0_first (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : cond0 i)
    (x0 : Vec F S10000x128 .f32) (x1 : Vec F S128x64 .f32) (x2 : Vec F S400x10000 .f32) (x3 : Vec F S1x64 .f32) (x4 : Vec F S64x64 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay3 x2 (k0_pay1 x0 x1) x3)
            ∗ owns (c : Thread nD τ) arg7 fullShare (k0_pay2 x2)
            ∗ owns (c : Thread nD τ) arg8 fullShare (k0_pay4 x2 (k0_pay1 x0 x1) x3 x4)
            ∗ owns (c : Thread nD τ) arg9 fullShare (k0_pay1 x0 x1)) -∗ K ⟨⟩))
      ⊢ wp frame (wpE (defs₀ (F := F)) Variants.none c none) E (cc0__a_body i arg1 harg1 arg2 harg2 arg3 harg3 arg4 harg4 arg5 harg5 arg6 harg6 arg7 harg7 arg8 harg8 arg9 harg9) K := by
  simp only [cc0__a_body_eq_skeleton]; unfold cc0__a_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_words
    refine (read_store_whole arg6 _ hz2 _ _).trans ?_
    simp only [View.readAt_eq_ld, harg1.read_unread, harg2.read_unread, harg3.read_unread, harg4.read_unread, harg5.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]
  isplitl [H7]
  · iexists _; isplitr
    swap; · iexact H7
    ipureintro
    refine (read_store_whole arg7 _ hz2 _ _).trans ?_
    simp only [View.readAt_eq_ld, harg1.read_unread, harg2.read_unread, harg3.read_unread, harg4.read_unread, harg5.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]
  isplitl [H8]
  · iexists _; isplitr
    swap; · iexact H8
    ipureintro
    sl_unfold_words
    refine (read_store_whole arg8 _ hz2 _ _).trans ?_
    simp only [View.readAt_eq_ld, harg1.read_unread, harg2.read_unread, harg3.read_unread, harg4.read_unread, harg5.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]
  iexists _; isplitr
  swap; · iexact H9
  ipureintro
  sl_unfold_words
  refine (read_store_whole arg9 _ hz2 _ _).trans ?_
  simp only [View.readAt_eq_ld, harg1.read_unread, harg2.read_unread, harg3.read_unread, harg4.read_unread, harg5.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]

set_option maxHeartbeats 1000000 in
/-- The body at a later point, on whole memrefs: the scratch comes in at contents `xs` and goes out unchanged; the three
    output blocks are formed from the adjacency block, `xs`, the bias row and W₂; the inputs are handed back as they were. -/
theorem sound_kernel0_later (c : Dev nD) (E : Set ℕ) (i : grid0.Coords) (arg1 : Memref sig .tc .vmem S10000x128 .f32) (harg1 : arg1.IsWhole) (arg2 : Memref sig .tc .vmem S128x64 .f32) (harg2 : arg2.IsWhole) (arg3 : Memref sig .tc .vmem S400x10000 .f32) (harg3 : arg3.IsWhole) (arg4 : Memref sig .tc .vmem S1x64 .f32) (harg4 : arg4.IsWhole) (arg5 : Memref sig .tc .vmem S64x64 .bf16) (harg5 : arg5.IsWhole) (arg6 : Memref sig .tc .vmem S400x64 .f32) (harg6 : arg6.IsWhole) (arg7 : Memref sig .tc .vmem S400x10000 .bf16) (harg7 : arg7.IsWhole) (arg8 : Memref sig .tc .vmem S400x64 .bf16) (harg8 : arg8.IsWhole) (arg9 : Memref sig .tc .vmem S10000x64 .bf16) (harg9 : arg9.IsWhole) (hc : ¬cond0 i)
    (x0 : Vec F S10000x128 .f32) (x1 : Vec F S128x64 .f32) (x2 : Vec F S400x10000 .f32) (x3 : Vec F S1x64 .f32) (x4 : Vec F S64x64 .bf16)
    (xs : Vec F S10000x64 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay3 x2 xs x3)
            ∗ owns (c : Thread nD τ) arg7 fullShare (k0_pay2 x2)
            ∗ owns (c : Thread nD τ) arg8 fullShare (k0_pay4 x2 xs x3 x4)
            ∗ owns (c : Thread nD τ) arg9 fullShare xs) -∗ K ⟨⟩))
      ⊢ wp frame (wpE (defs₀ (F := F)) Variants.none c none) E (cc0__a_body i arg1 harg1 arg2 harg2 arg3 harg3 arg4 harg4 arg5 harg5 arg6 harg6 arg7 harg7 arg8 harg8 arg9 harg9) K := by
  simp only [cc0__a_body_eq_skeleton]; unfold cc0__a_body_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg1.eq_unread hf1; obtain rfl := harg2.eq_unread hf2; obtain rfl := harg3.eq_unread hf3
  obtain rfl := harg4.eq_unread hf4; obtain rfl := harg5.eq_unread hf5; obtain rfl := harg9.eq_unread hf9
  sl_exec (disch := first | exact hc)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_store_whole arg6 _ hz2 _ _).trans ?_
    simp only [View.readAt_eq_ld, harg1.read_unread, harg2.read_unread, harg3.read_unread, harg4.read_unread, harg5.read_unread, harg9.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]
  isplitl [H7]
  · iexists _; isplitr
    swap; · iexact H7
    ipureintro
    refine (read_store_whole arg7 _ hz2 _ _).trans ?_
    simp only [View.readAt_eq_ld, harg1.read_unread, harg2.read_unread, harg3.read_unread, harg4.read_unread, harg5.read_unread, harg9.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]
  isplitl [H8]
  · iexists _; isplitr
    swap; · iexact H8
    ipureintro
    refine (read_store_whole arg8 _ hz2 _ _).trans ?_
    simp only [View.readAt_eq_ld, harg1.read_unread, harg2.read_unread, harg3.read_unread, harg4.read_unread, harg5.read_unread, harg9.read_unread,
      View.ld_unit_zero (S := S10000x128) hz2, View.ld_unit_zero (S := S128x64) hz2, View.ld_unit_zero (S := S400x10000) hz2,
      View.ld_unit_zero (S := S1x64) hz2, View.ld_unit_zero (S := S64x64) hz2, View.ld_unit_zero (S := S10000x64) hz2,
      View.readCov_unit_zero (S := S10000x64) _ hz2]
  iexists _; isplitr; · ipureintro; exact harg9.read_unread _
  iexact H9

/-! ## The body obligation, at a generic point -/

theorem PhiS0_castSucc (c : Dev nD) (t : Fin cfg0.N) : (dat0 V c).Φ t.castSucc = PhiS0 V c t.val := by
  dsimp only [dat0]; simp only [Fin.coe_castSucc]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 2000000 in
/-- The body at any point. The inputs' memrefs hold their blocks. At the first point the invariant hands over the scratch at
    anything and takes it back at z₁ of that point's features and W₁, which are the first point's; at a later point it
    hands the scratch over at z₁ and takes it back unchanged. The other scoped buffers, the generator register and the core's
    tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = PhiS0 V c (t.val + 1) from rfl, PhiS0_succ, PhiS0_castSucc,
    after0_0, after0_1, after0_2, after0_3, after0_4, after0_5, after0_6, after0_7]
  unfold out0_5 out0_6 out0_7
  by_cases h0 : t.val = 0
  · obtain rfl : t = first0 := Fin.ext h0
    rw [show PhiS0 V c (first0 : Fin cfg0.N).val = Pipeline.ΦA spec0 c from rfl, PhiA0_eq]
    unfold Z1
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_first c Set.univ (grid0.coords first0) _ _ _ _ _ _ _ _ _ _ _ _ _ _ _ _ _ _ ((hcond0 first0).mpr rfl)
      (xin0 V c first0) (w1in0 V c first0) (adjin0 V c first0) (b1in0 V c first0) (w2in0 V c first0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS0_pos V c _ h0]
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel0_later c Set.univ (grid0.coords t) _ _ _ _ _ _ _ _ _ _ _ _ _ _ _ _ _ _ (fun h => h0 ((hcond0 t).mp h))
      (xin0 V c t) (w1in0 V c t) (adjin0 V c t) (b1in0 V c t) (w2in0 V c t) (Z1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- At every point the body, handed the invariant and the windows' current buffers, leaves them as the proof data says. -/
theorem body_obligation0 (c : Dev nD) : BodyObligation (dat0 (F := F) V c) (defs₀ (F := F)) Variants.none () Set.univ := fun t => by
  rw [bigSep_W0, bigSep_W0]
  exact sound_body0 V c t

/-! ## The invariant's ends -/

/-- What the launch hands the region is the invariant before the first point. -/
theorem hin0 (c : Dev nD) : Pipeline.ΦA spec0 c ⊢ (dat0 V c).Φ 0 := by
  rw [show (dat0 V c).Φ 0 = PhiS0 V c 0 from rfl, PhiS0_zero]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val from rfl,
    PhiS0_pos V c _ (by rw [Fin.val_last]; have : cfg0.N = 25 := N_0; omega), PhiA0_eq]
  iintro ⟨HS, HR, Hg⟩
  isplitl [HS HR]
  · isplitl [HS]
    · iexists _; iexact HS
    iexact HR
  iexact Hg

end Cert.KernelIdeal.Hand

end
-- ==== Proof.KI.R1.lean ====
/-
  The second pallas_call, over a grid (2, 10) of row blocks of 1000. In its first pass (l = 0) point k forms the rows of
  h₂ = adj·z₂ + b₂ on block k and stores the rows of z₃ = relu(h₂)·W₃ into a scratch buffer kept across points; in its second
  pass (l = 1) point k forms the rows of h₃ = adj·z₃ + b₃ from the whole scratch and their log-softmax. The h₂ window rests on
  its last block during the second pass and the h₃ and log-softmax windows rest on their first block during the first: where a
  window is not stored into, its buffer is handed back as found. Stated at any float family and at any contents `V` of the
  core's buffers when the region is entered.
-/
import proofs.«137813_g44306882625589_cont_8to1_c_1074_18_alg».proof.Proof.Gen.KernelIdeal.Launch
import proofs.«137813_g44306882625589_cont_8to1_c_1074_18_alg».proof.Proof.Gen.KernelIdeal.Skeleton
import proofs.«137813_g44306882625589_cont_8to1_c_1074_18_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The five input blocks at a point, at their literal types: the re-laid adjacency's row block, z₂ (whole), the two bias
    rows, W₃. -/
abbrev adjbin1 (c : Dev nD) (t : Fin cfg1.N) : Vec F S1000x10000 .bf16 := iblk1 V c 0 t
abbrev z2in1 (c : Dev nD) (t : Fin cfg1.N) : Vec F S10000x64 .bf16 := iblk1 V c 1 t
abbrev b2in1 (c : Dev nD) (t : Fin cfg1.N) : Vec F S1x64 .f32 := iblk1 V c 2 t
abbrev b3in1 (c : Dev nD) (t : Fin cfg1.N) : Vec F S1x16 .f32 := iblk1 V c 3 t
abbrev w3in1 (c : Dev nD) (t : Fin cfg1.N) : Vec F S64x16 .bf16 := iblk1 V c 4 t

/-- The point (0, k) of the first pass: the grid is walked row-major, so it is point number k. -/
abbrev ptA (k : Fin 10) : Fin cfg1.N := ⟨k.val, Nat.lt_of_lt_of_le k.isLt (by decide)⟩

/-- The point of the first pass whose h₂ block a point's h₂ window holds: itself in the first pass, the last one (0, 9)
    throughout the second. -/
abbrev q5 (t : Fin cfg1.N) : Fin cfg1.N := ⟨min t.val 9, Nat.lt_of_le_of_lt (Nat.min_le_right _ _) (by decide)⟩

/-! ## What the body computes -/

/-- Rows 1000k … 1000k + 999 of z₃, as point (0, k) stores them into the scratch. -/
def z3blk (c : Dev nD) (k : Fin 10) : Vec F S1000x16 .f32 :=
  k1_pay2 (adjbin1 V c (ptA k)) (z2in1 V c (ptA k)) (b2in1 V c (ptA k)) (w3in1 V c (ptA k))

/-- z₃ whole: what the scratch buffer holds once the first pass is over. Row r is row r mod 1000 of block r / 1000. -/
def Z3 (c : Dev nD) : Vec F S10000x16 .f32 := fun y =>
  z3blk V c ⟨(y 0).val / 1000, Nat.div_lt_of_lt_mul (show (y 0).val < 1000 * 10 from (y 0).isLt)⟩
    (ValueIdx.ix2 ⟨(y 0).val % 1000, Nat.mod_lt _ (by decide)⟩ (y 1))

/-- The rows of h₂ a point's h₂ window holds after the body. -/
def out1_5 (c : Dev nD) (t : Fin cfg1.N) : Vec F S1000x64 .f32 :=
  k1_pay1 (adjbin1 V c (q5 t)) (z2in1 V c (q5 t)) (b2in1 V c (q5 t))
/-- The rows of h₃ a point of the second pass writes. -/
def out1_6 (c : Dev nD) (t : Fin cfg1.N) : Vec F S1000x16 .f32 := k1_pay3 (adjbin1 V c t) (Z3 V c) (b3in1 V c t)
/-- The rows of the log-softmax a point of the second pass writes. -/
def out1_7 (c : Dev nD) (t : Fin cfg1.N) : Vec F S1000x16 .f32 := k1_pay4 (adjbin1 V c t) (Z3 V c) (b3in1 V c t)

/-! ## The region's invariant and proof data -/

/-- The scratch buffer as a memref. -/
abbrev scM1 : Memref sig .tc .vmem S10000x16 .f32 := Memref.whole cc1_scratch0

/-- Between points: before the first, the class's invariant; before point n + 1, the same with the scratch named on the row
    blocks the first pass has stored so far: blocks 0 … min n 9 hold their rows of z₃. -/
def PhiS1 (c : Dev nD) : ℕ → sProp 𝕄
  | 0 => Pipeline.ΦA spec1 c
  | n + 1 => iprop((∃ d : Vec F S10000x16 .f32, owns (c : Thread nD τ) scM1 fullShare d
        ∗ ⌜∀ y : S10000x16.Idx, (y 0).val < 1000 * (min n 9 + 1) → d y = Z3 V c y⌝)
      ∗ Pipeline.scopedRestBut (Ix := Unit) (Name := ℕ) (U := UR sig nD τ) (Lvl := ℕ) (Val := Elt F) spec1 c [cc1_scratch0]
      ∗ ∃ r, prngReg c r)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
    | ⟨6, _⟩ => out1_6 V c t
    | ⟨7, _⟩ => out1_7 V c t
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]
theorem after1_6 (c : Dev nD) (t : Fin cfg1.N) : (dat1 V c).after 6 t = out1_6 V c t := by dsimp only [dat1]
theorem after1_7 (c : Dev nD) (t : Fin cfg1.N) : (dat1 V c).after 7 t = out1_7 V c t := by dsimp only [dat1]

/-! ## The branch conditions and the windows' rest, in closed form -/

/-- The first conditional is taken exactly in the first pass. -/
theorem hcond1_1 : ∀ t : Fin cfg1.N, k1_cond1 (grid1.coords t) = 1#1 ↔ t.val < 10 :=
  (by decide +kernel : ∀ t : Fin grid1.N, k1_cond1 (grid1.coords t) = 1#1 ↔ t.val < 10)
/-- The second conditional is taken exactly in the second pass. -/
theorem hcond1_2 : ∀ t : Fin cfg1.N, k1_cond2 (grid1.coords t) = 1#1 ↔ 10 ≤ t.val :=
  (by decide +kernel : ∀ t : Fin grid1.N, k1_cond2 (grid1.coords t) = 1#1 ↔ 10 ≤ t.val)

theorem liveAt1_5 : ∀ t : Fin cfg1.N, t.val < 10 → cfg1.idle 5 (grid1.coords t) = false := by decide +kernel
theorem idleAt1_5 : ∀ t : Fin cfg1.N, 10 ≤ t.val → cfg1.idle 5 (grid1.coords t) = true := by decide +kernel
theorem liveAt1_6 : ∀ t : Fin cfg1.N, 10 ≤ t.val → cfg1.idle 6 (grid1.coords t) = false := by decide +kernel
theorem idleAt1_6 : ∀ t : Fin cfg1.N, t.val < 10 → cfg1.idle 6 (grid1.coords t) = true := by decide +kernel
theorem liveAt1_7 : ∀ t : Fin cfg1.N, 10 ≤ t.val → cfg1.idle 7 (grid1.coords t) = false := by decide +kernel
theorem idleAt1_7 : ∀ t : Fin cfg1.N, t.val < 10 → cfg1.idle 7 (grid1.coords t) = true := by decide +kernel

theorem flush1_5 : ∀ t : Fin cfg1.N, (cfg1.win 5).flush t = true ↔ (t.val < 9 ∨ t.val = 19) :=
  (by decide +kernel : ∀ t : Fin grid1.N, win1_5.flush t = true ↔ (t.val < 9 ∨ t.val = 19))
theorem flush1_6 : ∀ t : Fin cfg1.N, (cfg1.win 6).flush t = true ↔ 10 ≤ t.val :=
  (by decide +kernel : ∀ t : Fin grid1.N, win1_6.flush t = true ↔ 10 ≤ t.val)
theorem flush1_7 : ∀ t : Fin cfg1.N, (cfg1.win 7).flush t = true ↔ 10 ≤ t.val :=
  (by decide +kernel : ∀ t : Fin grid1.N, win1_7.flush t = true ↔ 10 ≤ t.val)
theorem nofetch1_5 : ∀ t : Fin cfg1.N, (cfg1.win 5).fetch t = false :=
  (by decide +kernel : ∀ t : Fin grid1.N, win1_5.fetch t = false)

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The invariant's two forms -/

theorem PhiS1_zero (c : Dev nD) : PhiS1 V c 0 = Pipeline.ΦA spec1 c := rfl

theorem PhiS1_succ (c : Dev nD) (n : ℕ) :
    PhiS1 V c (n + 1) = iprop((∃ d : Vec F S10000x16 .f32, owns (c : Thread nD τ) scM1 fullShare d
        ∗ ⌜∀ y : S10000x16.Idx, (y 0).val < 1000 * (min n 9 + 1) → d y = Z3 V c y⌝)
      ∗ Pipeline.scopedRestBut (Ix := Unit) (Name := ℕ) (U := UR sig nD τ) (Lvl := ℕ) (Val := Elt F) spec1 c [cc1_scratch0]
      ∗ ∃ r, prngReg c r) := rfl

/-- The class's invariant with the scratch buffer taken out of the scoped rest and owned as a memref at some contents. -/
theorem PhiA1_eq (c : Dev nD) :
    (Pipeline.ΦA spec1 c : sProp 𝕄)
      = iprop(((∃ d : Vec F S10000x16 .f32, owns (c : Thread nD τ) scM1 fullShare d)
          ∗ Pipeline.scopedRestBut (Ix := Unit) (Name := ℕ) (U := UR sig nD τ) (Lvl := ℕ) (Val := Elt F) spec1 c [cc1_scratch0])
        ∗ ∃ r, prngReg c r) := by
  unfold Pipeline.ΦA
  rw [Pipeline.scopedRest_split_of_list spec1 c [cc1_scratch0] (by decide) (by decide)]
  simp only [scM1, owns_whole, Idealize.SL.BI.bigSepL_singleton]
  try rfl

/-! ## The h₂ window through the second pass -/

theorem out1_5_congr (c : Dev nD) {t t' : Fin cfg1.N} (h : q5 t = q5 t') : out1_5 V c t = out1_5 V c t' := by
  unfold out1_5; rw [h]

/-- The h₂ window is never cut: what the body leaves in its buffer is kept whole. -/
theorem kept1_5 (c : Dev nD) (t : Fin cfg1.N) (d) : (dat1 V c).kept 5 t d = out1_5 V c t := by
  unfold Dat.kept
  rw [Pipeline.fill_of_clip_none (cfg := cfg1) 5 _ (fun _ => rfl) d ((dat1 V c).after 5 t), Window.fill_cut, after1_5]

/-- One step back from a point after the first, for the h₂ window (never fetched). -/
theorem before1_5_step (c : Dev nD) (t t' : Fin cfg1.N) (h : t.val = t'.val + 1) (d) :
    (dat1 V c).before 5 t d = if (cfg1.win 5).flush t' then d else (dat1 V c).left 5 t' d := by
  have e : t' = ⟨t.val - 1, Nat.lt_of_le_of_lt (Nat.sub_le _ _) t.isLt⟩ := Fin.ext (by show t'.val = t.val - 1; omega)
  subst e
  exact (dat1 V c).before_of_pos 5 t (by omega) (nofetch1_5 t) d

/-- Throughout the second pass the h₂ window's buffer still holds the rows the last point of the first pass left:
    no point in between stores into it, fetches it or writes it back. -/
theorem before5_second (c : Dev nD) : ∀ (k : ℕ) (t : Fin cfg1.N), t.val = 10 + k → ∀ d, (dat1 V c).before 5 t d = out1_5 V c t := by
  intro k
  induction k with
  | zero =>
    intro t ht d
    have hN : (9 : ℕ) < cfg1.N := by rw [show cfg1.N = 20 from N_1]; omega
    rw [before1_5_step V c t ⟨9, hN⟩ (by show t.val = 9 + 1; omega) d]
    have hfl : (cfg1.win 5).flush ⟨9, hN⟩ = false := by
      rw [← Bool.not_eq_true]; intro h
      have := (flush1_5 ⟨9, hN⟩).mp h
      change (9 < 9 ∨ 9 = 19) at this; omega
    rw [hfl, if_neg Bool.false_ne_true]
    unfold Dat.left
    rw [liveAt1_5 ⟨9, hN⟩ (by show 9 < 10; omega)]
    show (dat1 V c).kept 5 ⟨9, hN⟩ d = _
    rw [kept1_5]
    exact out1_5_congr V c (Fin.ext (by show min 9 9 = min t.val 9; omega))
  | succ k ih =>
    intro t ht d
    have hlt : t.val < cfg1.N := t.isLt
    have e20 : cfg1.N = 20 := N_1
    have hN : 10 + k < cfg1.N := by omega
    rw [before1_5_step V c t ⟨10 + k, hN⟩ (by show t.val = 10 + k + 1; omega) d]
    have hfl : (cfg1.win 5).flush ⟨10 + k, hN⟩ = false := by
      rw [← Bool.not_eq_true]; intro h
      have := (flush1_5 ⟨10 + k, hN⟩).mp h
      change (10 + k < 9 ∨ 10 + k = 19) at this; omega
    rw [hfl, if_neg Bool.false_ne_true]
    unfold Dat.left
    rw [idleAt1_5 ⟨10 + k, hN⟩ (by show 10 ≤ 10 + k; omega)]
    show (dat1 V c).before 5 ⟨10 + k, hN⟩ d = _
    rw [ih ⟨10 + k, hN⟩ rfl d]
    exact out1_5_congr V c (Fin.ext (by show min (10 + k) 9 = min t.val 9; omega))

/-! ## Loads and stores through whole buffers, and rows stored into the scratch -/

/-- The zero offsets of a whole-buffer access. -/
theorem hzero1 : (![0, 0] : Fin 2 → Nat) = fun _ => 0 := funext fun a => by fin_cases a <;> rfl

/-- One store through the whole buffer's rectangle leaves its payload, whatever the buffer held. -/
theorem read_whole_store1 {κ : Kind} {sp : Space} {S : Shape} {e : EltTy} (v : View sig κ sp S e) (f : v.ty.Contents (Elt F))
    (off : Fin S.rank → ℕ) (h0 : off = fun _ => 0) (inb : ∀ a, off a + S.size a ≤ S.size a) (p : S.Idx → Elt F e) :
    v.read (Elt F) (v.writes (Elt F) f [⟨Rect.unit off S.size inb, p⟩]) = p :=
  (View.read_writes_eq_canon v f _ (fun y => ⟨_, List.mem_singleton_self _, View.mem_set_unit_zero h0 inb y⟩)).trans
    (View.canon_unit_zero h0 inb p)

/-- `d'` is `d` with its 1000 rows from row `o` on replaced by the rows of `p`. -/
def RowsPut1 (o : ℕ) (d d' : Vec F S10000x16 .f32) (p : Vec F S1000x16 .f32) : Prop :=
  (∀ y : S10000x16.Idx, ((y 0).val < o ∨ o + 1000 ≤ (y 0).val) → d' y = d y) ∧
  (∀ (y : S10000x16.Idx) (x : S1000x16.Idx), (y 0).val = o + (x 0).val → (y 1).val = (x 1).val → d' y = p x)

/-- A whole scratch buffer holding `d`, after a store of the rows `p` at row `o`, reads as `d` with those rows replaced. -/
theorem rowsPut_store1 {κ : Kind} {sp : Space} (m : Memref sig κ sp S10000x16 .f32) (hm : m.IsWhole) (d : Vec F S10000x16 .f32)
    (p : Vec F S1000x16 .f32) (off : Fin 2 → ℕ) (o : ℕ) (hoff : off = ![o, 0]) (inb : ∀ a : Fin 2, off a + S1000x16.size a ≤ S10000x16.size a) :
    RowsPut1 o d (m.view.read (Elt F) (m.view.writes (Elt F) (hm.unread d) [⟨Rect.unit (s := S10000x16) off S1000x16.size inb, p⟩])) p := by
  constructor
  · intro y hy
    rw [View.read_writes_cons_rows_of_not_mem m.view (hm.unread d) inb p [] y hoff rfl hy, View.writes_nil]
    exact congrFun (hm.read_unread d) y
  · intro y x h0 h1
    exact View.read_writes_cons_rows_of_mem m.view (hm.unread d) inb p [] y x hoff h0 h1
/-! ## The body in the first pass -/

set_option maxHeartbeats 2000000 in
/-- In the first pass (first conditional taken, second not) the body, on whole buffers, the inputs' at contents `x·`, the h₂
    window's at anything, the h₃ and log-softmax windows' at contents handed back untouched, the scratch at `ds`, runs to the
    continuation holding the h₂ window at h₂'s rows of the inputs and the scratch at `ds` with block `k`'s rows replaced by
    the rows of z₃ computed from the inputs. -/
theorem sound_first (c : Dev nD) (E : Set ℕ) (i : grid1.Coords) (arg2 : Memref sig .tc .vmem S1000x10000 .bf16) (harg2 : arg2.IsWhole) (arg3 : Memref sig .tc .vmem S10000x64 .bf16) (harg3 : arg3.IsWhole) (arg4 : Memref sig .tc .vmem S1x64 .f32) (harg4 : arg4.IsWhole) (arg5 : Memref sig .tc .vmem S1x16 .f32) (harg5 : arg5.IsWhole) (arg6 : Memref sig .tc .vmem S64x16 .bf16) (harg6 : arg6.IsWhole) (arg7 : Memref sig .tc .vmem S1000x64 .f32) (harg7 : arg7.IsWhole) (arg8 : Memref sig .tc .vmem S1000x16 .f32) (harg8 : arg8.IsWhole) (arg9 : Memref sig .tc .vmem S1000x16 .f32) (harg9 : arg9.IsWhole) (arg10 : Memref sig .tc .vmem S10000x16 .f32) (harg10 : arg10.IsWhole)
    (hc1 : k1_cond1 i = 1#1) (hc2 : ¬ k1_cond2 i = 1#1) (x0 : Vec F S1000x10000 .bf16) (x1 : Vec F S10000x64 .bf16) (x2 : Vec F S1x64 .f32) (x3 : Vec F S1x16 .f32) (x4 : Vec F S64x16 .bf16)
    (xi6 xi7 : Vec F S1000x16 .f32) (ds : Vec F S10000x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xi6 ∗ owns (c : Thread nD τ) arg9 fullShare xi7
        ∗ owns (c : Thread nD τ) arg10 fullShare ds
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k1_pay1 x0 x1 x2) ∗ owns (c : Thread nD τ) arg8 fullShare xi6 ∗ owns (c : Thread nD τ) arg9 fullShare xi7
            ∗ (∃ d', owns (c : Thread nD τ) arg10 fullShare d' ∗ ⌜RowsPut1 (1000 * (i 1).val) ds d' (k1_pay2 x0 x1 x2 x4)⌝)) -∗ K ⟨⟩))
      ⊢ wp frame (wpE (defs₀ (F := F)) Variants.none c none) E (cc1__b_body i arg2 harg2 arg3 harg3 arg4 harg4 arg5 harg5 arg6 harg6 arg7 harg7 arg8 harg8 arg9 harg9 arg10 harg10) K := by
  simp only [cc1__b_body_eq_skeleton]; unfold cc1__b_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hf6; obtain rfl := harg9.eq_unread hf7; obtain rfl := harg10.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    simp only [View.readAt_eq_ld, harg2.read_unread, harg3.read_unread, harg4.read_unread,
      View.ld_unit_zero (S := S1000x10000) hzero1, View.ld_unit_zero (S := S10000x64) hzero1, View.ld_unit_zero (S := S1x64) hzero1]
    exact read_whole_store1 arg7.view f5 _ hzero1 _ _
  isplitl [H6]
  · iexists _; isplitr; · ipureintro; exact harg8.read_unread _
    iexact H6
  isplitl [H7]
  · iexists _; isplitr; · ipureintro; exact harg9.read_unread _
    iexact H7
  iexists _
  isplitl [HS]
  · iexists _; isplitr
    swap; · iexact HS
    ipureintro; rfl
  ipureintro
  simp only [View.readAt_eq_ld, harg2.read_unread, harg3.read_unread, harg4.read_unread, harg6.read_unread,
    View.ld_unit_zero (S := S1000x10000) hzero1, View.ld_unit_zero (S := S10000x64) hzero1, View.ld_unit_zero (S := S1x64) hzero1,
    View.ld_unit_zero (S := S64x16) hzero1]
  exact rowsPut_store1 arg10 harg10 ds (k1_pay2 x0 x1 x2 x4) (k1_off1 i) (1000 * (i 1).val) (k1_off1_eq i) _

/-! ## The body in the second pass -/

set_option maxHeartbeats 2000000 in
/-- In the second pass (first conditional not taken, second taken) the body, on whole buffers, the inputs' at contents `x·`,
    the scratch at `ds`, the h₂ window's at contents handed back untouched, the h₃ and log-softmax windows' at anything, runs to
    the continuation holding the h₃ window at h₃'s rows and the log-softmax window at its rows, both computed from the adjacency
    block, the whole scratch and the bias row; the scratch is left as found. -/
theorem sound_second (c : Dev nD) (E : Set ℕ) (i : grid1.Coords) (arg2 : Memref sig .tc .vmem S1000x10000 .bf16) (harg2 : arg2.IsWhole) (arg3 : Memref sig .tc .vmem S10000x64 .bf16) (harg3 : arg3.IsWhole) (arg4 : Memref sig .tc .vmem S1x64 .f32) (harg4 : arg4.IsWhole) (arg5 : Memref sig .tc .vmem S1x16 .f32) (harg5 : arg5.IsWhole) (arg6 : Memref sig .tc .vmem S64x16 .bf16) (harg6 : arg6.IsWhole) (arg7 : Memref sig .tc .vmem S1000x64 .f32) (harg7 : arg7.IsWhole) (arg8 : Memref sig .tc .vmem S1000x16 .f32) (harg8 : arg8.IsWhole) (arg9 : Memref sig .tc .vmem S1000x16 .f32) (harg9 : arg9.IsWhole) (arg10 : Memref sig .tc .vmem S10000x16 .f32) (harg10 : arg10.IsWhole)
    (hc1 : ¬ k1_cond1 i = 1#1) (hc2 : k1_cond2 i = 1#1) (x0 : Vec F S1000x10000 .bf16) (x1 : Vec F S10000x64 .bf16) (x2 : Vec F S1x64 .f32) (x3 : Vec F S1x16 .f32) (x4 : Vec F S64x16 .bf16)
    (xi5 : Vec F S1000x64 .f32) (ds : Vec F S10000x16 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xi5 ∗ (∃ d, owns (c : Thread nD τ) arg8 fullShare d) ∗ (∃ d, owns (c : Thread nD τ) arg9 fullShare d)
        ∗ owns (c : Thread nD τ) arg10 fullShare ds
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare xi5 ∗ owns (c : Thread nD τ) arg8 fullShare (k1_pay3 x0 ds x3) ∗ owns (c : Thread nD τ) arg9 fullShare (k1_pay4 x0 ds x3)
            ∗ owns (c : Thread nD τ) arg10 fullShare ds) -∗ K ⟨⟩))
      ⊢ wp frame (wpE (defs₀ (F := F)) Variants.none c none) E (cc1__b_body i arg2 harg2 arg3 harg3 arg4 harg4 arg5 harg5 arg6 harg6 arg7 harg7 arg8 harg8 arg9 harg9 arg10 harg10) K := by
  simp only [cc1__b_body_eq_skeleton]; unfold cc1__b_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hf5; obtain rfl := harg10.eq_unread hfs
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    simp only [View.readAt_eq_ld, harg2.read_unread, harg10.read_unread, harg5.read_unread,
      View.ld_unit_zero (S := S1000x10000) hzero1, View.ld_unit_zero (S := S10000x16) hzero1, View.ld_unit_zero (S := S1x16) hzero1]
    exact read_whole_store1 arg8.view f6 _ hzero1 _ _
  isplitl [H7]
  · iexists _; isplitr
    swap; · iexact H7
    ipureintro
    simp only [View.readAt_eq_ld, harg2.read_unread, harg10.read_unread, harg5.read_unread,
      View.ld_unit_zero (S := S1000x10000) hzero1, View.ld_unit_zero (S := S10000x16) hzero1, View.ld_unit_zero (S := S1x16) hzero1]
    exact read_whole_store1 arg9.view f7 _ hzero1 _ _
  iexists _; isplitr; · ipureintro; exact harg10.read_unread _
  iexact HS

/-! ## The rows of z₃ a point of the first pass stores -/

/-- In the first pass a point's column coordinate is its number. -/
theorem coord1_first : ∀ t : Fin cfg1.N, t.val < 10 → ((grid1.coords t) 1).val = t.val := by decide +kernel

/-- Row `1000 t + r` of z₃ is row `r` of the block point `t` of the first pass computes. -/
theorem Z3_rows (c : Dev nD) (t : Fin cfg1.N) (ht : t.val < 10) (y : S10000x16.Idx) (x : S1000x16.Idx)
    (h0 : (y 0).val = 1000 * t.val + (x 0).val) (h1 : (y 1).val = (x 1).val) :
    Z3 V c y = k1_pay2 (adjbin1 V c t) (z2in1 V c t) (b2in1 V c t) (w3in1 V c t) x := by
  have hx0 : (x 0).val < 1000 := (x 0).isLt
  have hk : (⟨(y 0).val / 1000, Nat.div_lt_of_lt_mul (show (y 0).val < 1000 * 10 from (y 0).isLt)⟩ : Fin 10) = ⟨t.val, ht⟩ :=
    Fin.ext (by show (y 0).val / 1000 = t.val; omega)
  have hx : (ValueIdx.ix2 (⟨(y 0).val % 1000, Nat.mod_lt _ (by decide)⟩ : Fin 1000) (y 1) : S1000x16.Idx) = x := by
    funext a; fin_cases a
    · exact Fin.ext (by show (y 0).val % 1000 = (x 0).val; omega)
    · exact Fin.ext h1
  unfold Z3
  rw [hk, hx]
  rfl

/-- The invariant's fact after a point of the first pass: the rows below the point's block were z₃'s already, and the block's
    rows now are. -/
theorem inv_first (c : Dev nD) (t : Fin cfg1.N) (ht : t.val < 10) (ds d' : Vec F S10000x16 .f32)
    (hds : ∀ y : S10000x16.Idx, (y 0).val < 1000 * t.val → ds y = Z3 V c y)
    (hput : RowsPut1 (1000 * t.val) ds d' (k1_pay2 (adjbin1 V c t) (z2in1 V c t) (b2in1 V c t) (w3in1 V c t))) :
    ∀ y : S10000x16.Idx, (y 0).val < 1000 * (min t.val 9 + 1) → d' y = Z3 V c y := by
  intro y hy
  have hm : min t.val 9 = t.val := by omega
  rw [hm] at hy
  by_cases hlt : (y 0).val < 1000 * t.val
  · rw [hput.1 y (Or.inl hlt)]; exact hds y hlt
  · have hx : (y 0).val - 1000 * t.val < 1000 := by omega
    have h0 : (y 0).val = 1000 * t.val + ((ValueIdx.ix2 (⟨(y 0).val - 1000 * t.val, hx⟩ : Fin 1000) (y 1) : S1000x16.Idx) 0).val := by
      show (y 0).val = 1000 * t.val + ((y 0).val - 1000 * t.val); omega
    rw [hput.2 y (ValueIdx.ix2 (⟨(y 0).val - 1000 * t.val, hx⟩ : Fin 1000) (y 1)) h0 rfl]
    exact (Z3_rows V c t ht y _ h0 rfl).symm

theorem PhiS1_pos (c : Dev nD) (n : ℕ) (hz : n ≠ 0) :
    PhiS1 V c n = iprop((∃ d : Vec F S10000x16 .f32, owns (c : Thread nD τ) scM1 fullShare d
        ∗ ⌜∀ y : S10000x16.Idx, (y 0).val < 1000 * (min (n - 1) 9 + 1) → d y = Z3 V c y⌝)
      ∗ Pipeline.scopedRestBut (Ix := Unit) (Name := ℕ) (U := UR sig nD τ) (Lvl := ℕ) (Val := Elt F) spec1 c [cc1_scratch0]
      ∗ ∃ r, prngReg c r) := by
  cases n with
  | zero => exact absurd rfl hz
  | succ n => rfl

/-! ## What the obligation asks of each window's buffer -/

theorem liveAt1_0 (t : Fin cfg1.N) : cfg1.idle 0 (grid1.coords t) = false := rfl
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem liveAt1_1 (t : Fin cfg1.N) : cfg1.idle 1 (grid1.coords t) = false := rfl
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem liveAt1_2 (t : Fin cfg1.N) : cfg1.idle 2 (grid1.coords t) = false := rfl
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem liveAt1_3 (t : Fin cfg1.N) : cfg1.idle 3 (grid1.coords t) = false := rfl
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
theorem liveAt1_4 (t : Fin cfg1.N) : cfg1.idle 4 (grid1.coords t) = false := rfl
theorem leaves1_4 (c : Dev nD) (t : Fin cfg1.N) :
    (dat1 V c).leavesExact 4 t = owns (c : Thread nD τ) (st1_4 t) fullShare (iblk1 V c 4 t) := by
  unfold Dat.leavesExact; rw [liveAt1_4 t, after1_4]

theorem noflush1_6 (t : Fin cfg1.N) (h : t.val < 10) : (cfg1.win 6).flush t = false := by
  rw [← Bool.not_eq_true, flush1_6]; omega
theorem noflush1_7 (t : Fin cfg1.N) (h : t.val < 10) : (cfg1.win 7).flush t = false := by
  rw [← Bool.not_eq_true, flush1_7]; omega

theorem leaves1_5_first (c : Dev nD) (t : Fin cfg1.N) (h : t.val < 10) :
    (dat1 V c).leavesExact 5 t = owns (c : Thread nD τ) (st1_5 t) fullShare (out1_5 V c t) := by
  unfold Dat.leavesExact; rw [liveAt1_5 t h, after1_5]
theorem leaves1_6_second (c : Dev nD) (t : Fin cfg1.N) (h : 10 ≤ t.val) :
    (dat1 V c).leavesExact 6 t = owns (c : Thread nD τ) (st1_6 t) fullShare (out1_6 V c t) := by
  unfold Dat.leavesExact; rw [liveAt1_6 t h, after1_6]
theorem leaves1_7_second (c : Dev nD) (t : Fin cfg1.N) (h : 10 ≤ t.val) :
    (dat1 V c).leavesExact 7 t = owns (c : Thread nD τ) (st1_7 t) fullShare (out1_7 V c t) := by
  unfold Dat.leavesExact; rw [liveAt1_7 t h, after1_7]

/-- In the second pass the h₂ window's buffer, left as found, is what the obligation asks: at the last point, which writes the
    block back, because what was found there is the block's rows. -/
theorem leaves1_5_second (c : Dev nD) (t : Fin cfg1.N) (h : 10 ≤ t.val) :
    owns (c : Thread nD τ) (st1_5 t) fullShare (out1_5 V c t) ⊢ (dat1 V c).leavesExact 5 t := by
  cases hf : (cfg1.win 5).flush t
  · rw [Dat.leavesExact_idle (dat1 V c) 5 t (idleAt1_5 t h) hf]
    iintro H; iexists (out1_5 V c t)
    rw [before5_second V c (t.val - 10) t (by omega)]
    iexact H
  · have e : (dat1 V c).leavesExact 5 t = owns (c : Thread nD τ) (st1_5 t) fullShare ((dat1 V c).after 5 t) := by
      unfold Dat.leavesExact; rw [idleAt1_5 t h, hf]
    rw [e, after1_5]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point. The inputs' buffers hold their blocks. In the first pass the first conditional alone is taken: the
    scratch comes in with the rows below the point's block known (nothing at the first point) and goes out with the block's rows
    known too; the h₃ and log-softmax windows are handed back as found. In the second pass the second conditional alone is taken:
    the invariant says the scratch is z₃ whole; the h₂ window is handed back as found, which at the last point is what is written
    back. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) from rfl, PhiS1_succ]
  rw [show (dat1 V c).Φ t.castSucc = PhiS1 V c t.val from rfl]
  rw [leaves1_0, leaves1_1, leaves1_2, leaves1_3, leaves1_4]
  have hN : t.val < 20 := lt_of_lt_of_eq t.isLt (show cfg1.N = 20 from N_1)
  by_cases h : t.val < 10
  · have hc1 : k1_cond1 (grid1.coords t) = 1#1 := (hcond1_1 t).mpr h
    have hc2 : ¬ k1_cond2 (grid1.coords t) = 1#1 := fun e => by have := (hcond1_2 t).mp e; omega
    rw [leaves1_5_first V c t h,
      Dat.leavesExact_idle (dat1 V c) 6 t (idleAt1_6 t h) (noflush1_6 t h),
      Dat.leavesExact_idle (dat1 V c) 7 t (idleAt1_7 t h) (noflush1_7 t h)]
    rw [show out1_5 V c t = k1_pay1 (adjbin1 V c t) (z2in1 V c t) (b2in1 V c t) from by
      unfold out1_5; rw [show q5 t = t from Fin.ext (by show min t.val 9 = t.val; omega)]]
    by_cases hz : t.val = 0
    · rw [show PhiS1 V c t.val = Pipeline.ΦA spec1 c from by rw [hz]; rfl, PhiA1_eq]
      iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have HDS : ∀ y : S10000x16.Idx, (y 0).val < 1000 * t.val → ds y = Z3 V c y := fun y hy => by omega
      iapply (sound_first c Set.univ (grid1.coords t) _ _ _ _ _ _ _ _ _ _ _ _ _ _ _ _ _ _ hc1 hc2 (adjbin1 V c t) (z2in1 V c t) (b2in1 V c t) (b3in1 V c t) (w3in1 V c t) _ _ ds _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      iintro ⟨H0, H1, H2, H3, H4, H5, H6, H7, ⟨%d', HS, %hput⟩⟩
      rw [coord1_first t h] at hput
      isplitl [HS HR Hg]
      · isplitl [HS]
        · iexists d'; isplitl [HS]; · iexact HS
          ipureintro
          exact inv_first V c t h ds d' HDS hput
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS1_pos V c t.val hz]
      iintro ⟨⟨⟨%ds, HS, %hds⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      have HDS : ∀ y : S10000x16.Idx, (y 0).val < 1000 * t.val → ds y = Z3 V c y := fun y hy => hds y (by omega)
      iapply (sound_first c Set.univ (grid1.coords t) _ _ _ _ _ _ _ _ _ _ _ _ _ _ _ _ _ _ hc1 hc2 (adjbin1 V c t) (z2in1 V c t) (b2in1 V c t) (b3in1 V c t) (w3in1 V c t) _ _ ds _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS]; · iexact HS
      iintro ⟨H0, H1, H2, H3, H4, H5, H6, H7, ⟨%d', HS, %hput⟩⟩
      rw [coord1_first t h] at hput
      isplitl [HS HR Hg]
      · isplitl [HS]
        · iexists d'; isplitl [HS]; · iexact HS
          ipureintro
          exact inv_first V c t h ds d' HDS hput
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have h10 : 10 ≤ t.val := by omega
    have hc1 : ¬ k1_cond1 (grid1.coords t) = 1#1 := fun e => by have := (hcond1_1 t).mp e; omega
    have hc2 : k1_cond2 (grid1.coords t) = 1#1 := (hcond1_2 t).mpr h10
    have hz : t.val ≠ 0 := by omega
    rw [leaves1_6_second V c t h10, leaves1_7_second V c t h10, PhiS1_pos V c t.val hz]
    simp only [before5_second V c (t.val - 10) t (by omega)]
    unfold out1_6 out1_7
    iintro ⟨⟨⟨%ds, HS, %hds⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl : ds = Z3 V c := funext fun y => hds y (by have : (y 0).val < 10000 := (y 0).isLt; omega)
    iapply (sound_second c Set.univ (grid1.coords t) _ _ _ _ _ _ _ _ _ _ _ _ _ _ _ _ _ _ hc1 hc2 (adjbin1 V c t) (z2in1 V c t) (b2in1 V c t) (b3in1 V c t) (w3in1 V c t) (out1_5 V c t) (Z3 V c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS HR Hg]
    · isplitl [HS]
      · iexists (Z3 V c); isplitl [HS]; · iexact HS
        ipureintro; intro y _; rfl
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves1_5_second V c t h10); iexact H5
    isplitl [H6]; · iexact H6
    iexact H7

/-! ## The body obligation and the invariant's ends -/

/-- At every point the body, handed the invariant and the windows' current buffers, leaves them as the proof data says. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  show Pipeline.ΦA spec1 c ⊢ PhiS1 V c 0
  exact Idealize.SL.BI.Entails.refl _

/-- After the last point the invariant gives the class's back: the scratch's contents are forgotten. -/
theorem hout1 (c : Dev nD) : (dat1 V c).Φ (Fin.last cfg1.N) ⊢ Pipeline.ΦA spec1 c := by
  have e : (dat1 V c).Φ (Fin.last cfg1.N) = PhiS1 V c (19 + 1) :=
    congrArg (PhiS1 V c) (show (Fin.last cfg1.N).val = 19 + 1 from N_1)
  rw [e, PhiS1_succ, PhiA1_eq]
  iintro ⟨⟨%d, HS, -⟩, HR, Hg⟩
  isplitl [HS HR]
  · isplitl [HS]
    · iexists d; iexact HS
    iexact HR
  iexact Hg

end Cert.KernelIdeal.Hand

end
-- ==== Proof.KI.Run.lean ====
/-
  The whole program on one core: a stretch of host operations (the bias row reshaped, W₂ re-laid), the first kernel region, a
  second stretch (two bias rows, W₃ re-laid), the second kernel region. The buffers' contents at each boundary are a fold from
  the launch memory: a stretch applies its operations; a region leaves its arrays at what its write-backs fold to and every
  other buffer as entered. Every weakly fair execution terminates with every unscoped buffer at the last boundary's contents.
-/
import proofs.«137813_g44306882625589_cont_8to1_c_1074_18_alg».proof.Proof.Gen.KernelIdeal.Launch
import proofs.«137813_g44306882625589_cont_8to1_c_1074_18_alg».proof.Proof.Gen.KernelIdeal.Regions
import proofs.«137813_g44306882625589_cont_8to1_c_1074_18_alg».proof.Proof.Gen.KernelIdeal.Skeleton
import proofs.«137813_g44306882625589_cont_8to1_c_1074_18_alg».proof.Proof.Gen.KernelIdeal.Points
import proofs.«137813_g44306882625589_cont_8to1_c_1074_18_alg».proof.Proof.KI.R0
import proofs.«137813_g44306882625589_cont_8to1_c_1074_18_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m ((c : Dev nD), b)
/-- After the first host stretch (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b

/-! ## What a region's exit hands the next boundary -/

/-- The first region's arrays end at the boundary's contents, and it leaves every other buffer as entered. -/
theorem arr_exit0 (c : Dev nD) (w : Fin cfg0.W) : (dat0 (V1 m) c).arrAt w cfg0.N = V2 m c (Pipeline.arrRef spec0 w) :=
  (W2_arr m c w).symm
theorem rest_exit0 (c : Dev nD) (b : Ref sig .tc) (hb : b ∉ Finset.univ.image (Pipeline.arrRef spec0)) : V2 m c b = V1 m c b :=
  W2_of_ne m c b fun w e => hb (Finset.mem_image.mpr ⟨w, Finset.mem_univ _, e⟩)
/-- The same for the second region. -/
theorem arr_exit1 (c : Dev nD) (w : Fin cfg1.W) : (dat1 (V3 m) c).arrAt w cfg1.N = V4 m c (Pipeline.arrRef spec1 w) :=
  (W4_arr m c w).symm
theorem rest_exit1 (c : Dev nD) (b : Ref sig .tc) (hb : b ∉ Finset.univ.image (Pipeline.arrRef spec1)) : V4 m c b = V3 m c b :=
  W4_of_ne m c b fun w e => hb (Finset.mem_image.mpr ⟨w, Finset.mem_univ _, e⟩)

/-! ## The proof data of the two pipelines and the state a core carries between segments -/

/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

/-- No core waits on another: no level is assigned anywhere. -/
abbrev noL : GSem nD τ sig → Finset Unit := fun _ => ∅
abbrev noLv : GSem nD τ sig → Unit → ℕ := fun _ _ => 0

/-- The generator register at some state. -/
abbrev Gen_ (c : Dev nD) : sProp 𝕄 := iprop(∃ r, prngReg c r)
/-- The core owes nothing. -/
abbrev Owe0 (c : Dev nD) : sProp 𝕄 := iprop(∃ W, owes (c : Thread nD τ) (0 : CellTallies nD τ sig Unit) W)
/-- Every unscoped buffer of the core whole at the contents `W`. -/
abbrev Held (W : Dev nD → Valuation τ sig (Elt F)) (c : Dev nD) : sProp 𝕄 :=
  StableHlo.held (c : Thread nD τ) (Pipeline.ucRefs τ sig) (W c)

/-- What rides beside the buffers from segment to segment: the generator register at some state, nothing owed. -/
abbrev Side (c : Dev nD) : sProp 𝕄 := iprop(Gen_ (F := F) c ∗ Owe0 (F := F) c)

/-- A stretch of host operations as a segment: from every unscoped buffer at `W` to the same at the stretch applied to `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noL noLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Side

/-! ## The two regions as segments -/

set_option backward.isDefEq.respectTransparency.types false in
/-- The first kernel region: entered with every unscoped buffer at `W1`, left with them at `W2`. Its arrays are taken out of
    the unscoped buffers and put back at what the pipeline leaves. The generator register and the scoped buffers that stage no
    window make the class's invariant, which entails the region's own before the first point; after the last point the
    region's own entails the class's, which gives both back. -/
def region0 : Pipeline.RegionSeg (pcfgs (F := F)) adm (pdats m) () defs₀ Variants.none noL noLv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ noL noLv 0 fun _ _ => rfl
  pre c := iprop(Held (W1 m) c ∗ Side c)
  post c := iprop(Held (W2 m) c ∗ Side c)
  X c := Gen_ c
  Y c := Gen_ c
  Z c := Pipeline.unscopedRest (Ix := Unit) (Name := ℕ) (U := UR sig nD τ) (Lvl := ℕ) spec0 c (V1 m c)
  hentry c := by
    rw [Pipeline.ownSems0_none]
    have htake := Pipeline.arrays_of_unscopedBufs (p := 0) (pcfgs (F := F)) adm (pdats m) launch0.win launch0.arr_whole c
      ((pdats m 0 c).share_full fun _ => rfl) (V1 m c) fun w => A_eq0 (V1 m) c w
    rw [Pipeline.unscopedBufs_held] at htake
    iintro ⟨⟨Hbufs, Hgen, Howe⟩, -, -⟩
    ihave Hs := htake $$ Hbufs
    icases Hs with ⟨Harr, Hoth⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%S, Howe⟩
      iexists S
      isplitr; · ipureintro; exact fun _ _ => Or.inl trivial
      iexact Howe
    isplitl [Hgen]; · iexact Hgen
    iexact Hoth
  hin c := by
    refine BIBase.Entails.trans ?_ (hin0 (V1 m) c)
    unfold Pipeline.ΦA
    iintro ⟨Hgen, -, Hsc⟩
    isplitl [Hsc]; · iexact Hsc
    iexact Hgen
  hout c := by
    rw [Pipeline.ownSems0_none]
    refine BIBase.Entails.trans (hout0 (V1 m) c) ?_
    unfold Pipeline.ΦA
    iintro ⟨Hsc, Hgen⟩
    isplitl [Hgen]; · iexact Hgen
    isplitr; · iempintro
    iexact Hsc
  hexit c := by
    have hput := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (arr_exit0 m c) (rest_exit0 m c)
    rw [Pipeline.unscopedBufs_held] at hput
    iintro ⟨Harr, Howe, Hgen, Hoth⟩
    imodintro
    isplitl [Harr Hoth]
    · iapply hput; isplitl [Harr] <;> iassumption
    isplitl [Hgen]; · iexact Hgen
    unfold Pipeline.Dat.owesAt Pipeline.owesWithin
    icases Howe with ⟨%S, -, Howe⟩
    iexists S; iexact Howe

set_option backward.isDefEq.respectTransparency.types false in
/-- The second kernel region: entered with every unscoped buffer at `W3`, left with them at `W4`, in the same way. -/
def region1 : Pipeline.RegionSeg (pcfgs (F := F)) adm (pdats m) () defs₀ Variants.none noL noLv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ noL noLv 1 fun _ _ => rfl
  pre c := iprop(Held (W3 m) c ∗ Side c)
  post c := iprop((Held (W4 m) c ∗ Gen_ c) ∗ Owe0 c)
  X c := Gen_ c
  Y c := Gen_ c
  Z c := Pipeline.unscopedRest (Ix := Unit) (Name := ℕ) (U := UR sig nD τ) (Lvl := ℕ) spec1 c (V3 m c)
  hentry c := by
    rw [Pipeline.ownSems0_none]
    have htake := Pipeline.arrays_of_unscopedBufs (p := 1) (pcfgs (F := F)) adm (pdats m) launch1.win launch1.arr_whole c
      ((pdats m 1 c).share_full fun _ => rfl) (V3 m c) fun w => A_eq1 (V3 m) c w
    rw [Pipeline.unscopedBufs_held] at htake
    iintro ⟨⟨Hbufs, Hgen, Howe⟩, -, -⟩
    ihave Hs := htake $$ Hbufs
    icases Hs with ⟨Harr, Hoth⟩
    imodintro
    isplitl [Harr]; · iexact Harr
    isplitr
    · unfold Pipeline.prefHeld; rw [show (Finset.univ : Finset (Fin 0)) = ∅ from rfl, BI.bigSep_empty]; iempintro
    isplitl [Howe]
    · unfold Pipeline.Dat.owesAt Pipeline.owesWithin
      icases Howe with ⟨%S, Howe⟩
      iexists S
      isplitr; · ipureintro; exact fun _ _ => Or.inl trivial
      iexact Howe
    isplitl [Hgen]; · iexact Hgen
    iexact Hoth
  hin c := by
    refine BIBase.Entails.trans ?_ (hin1 (V3 m) c)
    unfold Pipeline.ΦA
    iintro ⟨Hgen, -, Hsc⟩
    isplitl [Hsc]; · iexact Hsc
    iexact Hgen
  hout c := by
    rw [Pipeline.ownSems0_none]
    refine BIBase.Entails.trans (hout1 (V3 m) c) ?_
    unfold Pipeline.ΦA
    iintro ⟨Hsc, Hgen⟩
    isplitl [Hgen]; · iexact Hgen
    isplitr; · iempintro
    iexact Hsc
  hexit c := by
    have hput := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (arr_exit1 m c) (rest_exit1 m c)
    rw [Pipeline.unscopedBufs_held] at hput
    iintro ⟨Harr, Howe, Hgen, Hoth⟩
    imodintro
    isplitr [Howe]
    · isplitl [Harr Hoth]
      · iapply hput; isplitl [Harr] <;> iassumption
      iexact Hgen
    unfold Pipeline.Dat.owesAt Pipeline.owesWithin
    icases Howe with ⟨%S, -, Howe⟩
    iexists S; iexact Howe

/-! ## The run -/

/-- The four segments of @main in order. -/
abbrev segments : List (Pipeline.Seg (pcfgs (F := F)) adm (pdats m) () defs₀ Variants.none noL noLv) :=
  [ .host (stretch hostOps0 hostOps0_sub hostOps0_fresh (W0 m)),
    .region (region0 m),
    .host (stretch hostOps1 hostOps1_sub hostOps1_fresh (W2 m)),
    .region (region1 m) ]

/-- @main is the run of those segments. -/
theorem main_is_segments (c : Dev nD) : main (F := F) c = Pipeline.Seg.run (segments m) :=
  (main_chain c).trans (by chain_rfl)

set_option backward.isDefEq.respectTransparency.types false in
/-- At the compiled mesh, from any memory with zero counters: every weakly fair execution of @main terminates, nothing
    faulting, and every final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ Variants.none noL noLv m ρ main (segments m)
    (fun c Q => by rw [main_is_segments m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(Held (W0 m) c ∗ Side c)) (Tₙ := fun c => iprop(Held (W4 m) c ∗ Gen_ c))
    (hch := ⟨fun _ => .rfl, fun _ => .rfl, fun _ => .rfl, fun _ => .rfl, fun _ => .rfl⟩)
    (hinit := by
      refine Pipeline.initEach noL noLv fun c => ?_
      rw [show unscopedBufs c (fun b => m ((c : Thread nD τ).loc b)) = Held (W0 m) c
        from Pipeline.unscopedBufs_held c (W0 m c)]
      iintro ⟨⟨Hbufs, -, Howe, -, Hreg, -⟩, -⟩
      imodintro
      isplitl [Hbufs]; · iexact Hbufs
      isplitl [Hreg]; · iexists _; iexact Hreg
      iexists ∅; iexact Howe)
    (QY := fun c s => ∀ b ∈ Pipeline.ucRefs τ sig, s.mem (((c : Thread nD τ)).1, b) = W4 m c b)
    (hfin := fun c s' => by
      iintro ⟨⟨Hbufs, -⟩, HSI⟩
      unfold Held StableHlo.held
      imodintro
      iapply (pointsTo_read_all (Pipeline.ucRefs τ sig) (fun b => (((c : Thread nD τ)).1, b)) (W4 m c) s')
      isplitl [Hbufs] <;> iassumption)
    (hQ := fun s h => h)

end Cert.KernelIdeal.Hand

end
-- ==== Proof.KI.Args.lean ====
/-
  No host operation and no region writes an argument array: a host stretch writes only its own results, the first region
  reads the three arguments it stages and leaves the other five alone, the second region stages none. So every argument
  array holds its launch contents at the last boundary, and the run's final memory has the arguments unchanged. Stated at
  any float family.
-/
import proofs.«137813_g44306882625589_cont_8to1_c_1074_18_alg».proof.Proof.Gen.KernelIdeal.Launch
import proofs.«137813_g44306882625589_cont_8to1_c_1074_18_alg».proof.Proof.Gen.KernelIdeal.Skeleton
import proofs.«137813_g44306882625589_cont_8to1_c_1074_18_alg».proof.Proof.Gen.KernelIdeal.Points
import proofs.«137813_g44306882625589_cont_8to1_c_1074_18_alg».proof.Proof.KI.Run
import proofs.«137813_g44306882625589_cont_8to1_c_1074_18_alg».proof.Proof.Gen.KernelIdeal.Regions
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer the first stretch does not write holds its launch contents at the first region's entry. -/
theorem W1_keep (c : Dev nD) (r : Ref sig .tc) (h : r ∉ Gen.hostOps0_W) :
    W1 m c (Proc.devRef .tc r) = m ((c.tc : Thread nD τ).loc r) :=
  StableHlo.after_of_writes_sub hostOps0 _ Gen.hostOps0_writes h

theorem V1_arg0 (c : Dev nD) : V1 m c main_arg0 = m ((c.tc : Thread nD τ).loc main_arg0) := W1_keep m c main_arg0 (by decide)
theorem V1_arg1 (c : Dev nD) : V1 m c main_arg1 = m ((c.tc : Thread nD τ).loc main_arg1) := W1_keep m c main_arg1 (by decide)
theorem V1_arg2 (c : Dev nD) : V1 m c main_arg2 = m ((c.tc : Thread nD τ).loc main_arg2) := W1_keep m c main_arg2 (by decide)

/-- Each argument array holds its launch contents at the first region's exit: the region only reads the three it stages,
    and the other five are none of its arrays. -/
theorem W2_arg0 (c : Dev nD) : W2 m c (Proc.devRef .tc main_arg0) = m ((c.tc : Thread nD τ).loc main_arg0) :=
  (W2_arr m c 0).trans (((dat0 (V1 m) c).arrAt_in 0 rfl _).trans ((A_eq0 (V1 m) c 0).trans (V1_arg0 m c)))
theorem W2_arg1 (c : Dev nD) : W2 m c (Proc.devRef .tc main_arg1) = m ((c.tc : Thread nD τ).loc main_arg1) :=
  (W2_arr m c 2).trans (((dat0 (V1 m) c).arrAt_in 2 rfl _).trans ((A_eq0 (V1 m) c 2).trans (V1_arg1 m c)))
theorem W2_arg2 (c : Dev nD) : W2 m c (Proc.devRef .tc main_arg2) = m ((c.tc : Thread nD τ).loc main_arg2) :=
  (W2_arr m c 1).trans (((dat0 (V1 m) c).arrAt_in 1 rfl _).trans ((A_eq0 (V1 m) c 1).trans (V1_arg2 m c)))
theorem W2_arg3 (c : Dev nD) : W2 m c (Proc.devRef .tc main_arg3) = m ((c.tc : Thread nD τ).loc main_arg3) :=
  (W2_of_ne m c main_arg3 (by decide)).trans (W1_keep m c main_arg3 (by decide))
theorem W2_arg4 (c : Dev nD) : W2 m c (Proc.devRef .tc main_arg4) = m ((c.tc : Thread nD τ).loc main_arg4) :=
  (W2_of_ne m c main_arg4 (by decide)).trans (W1_keep m c main_arg4 (by decide))
theorem W2_arg5 (c : Dev nD) : W2 m c (Proc.devRef .tc main_arg5) = m ((c.tc : Thread nD τ).loc main_arg5) :=
  (W2_of_ne m c main_arg5 (by decide)).trans (W1_keep m c main_arg5 (by decide))
theorem W2_arg6 (c : Dev nD) : W2 m c (Proc.devRef .tc main_arg6) = m ((c.tc : Thread nD τ).loc main_arg6) :=
  (W2_of_ne m c main_arg6 (by decide)).trans (W1_keep m c main_arg6 (by decide))
theorem W2_arg7 (c : Dev nD) : W2 m c (Proc.devRef .tc main_arg7) = m ((c.tc : Thread nD τ).loc main_arg7) :=
  (W2_of_ne m c main_arg7 (by decide)).trans (W1_keep m c main_arg7 (by decide))

/-- A buffer the second stretch does not write is as the first region left it. -/
theorem W3_keep (c : Dev nD) (r : Ref sig .tc) (h : r ∉ Gen.hostOps1_W) :
    W3 m c (Proc.devRef .tc r) = W2 m c (Proc.devRef .tc r) :=
  StableHlo.after_of_writes_sub hostOps1 _ Gen.hostOps1_writes h

/-- An argument array is none of the second region's arrays and no result of the second stretch. -/
theorem res_arg (c : Dev nD) (r : Ref sig .tc) (h4 : ∀ w, Pipeline.arrRef spec1 w ≠ r) (h3 : r ∉ Gen.hostOps1_W)
    (h2 : W2 m c (Proc.devRef .tc r) = m ((c.tc : Thread nD τ).loc r)) :
    W4 m c (Proc.devRef .tc r) = m ((c.tc : Thread nD τ).loc r) :=
  (W4_of_ne m c r h4).trans ((W3_keep m c r h3).trans h2)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution terminates with the eight argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (res_arg m c main_arg0 (by decide) (by decide) (W2_arg0 m c)),
     (h c _ (mem_uc main_arg1 (by decide))).trans (res_arg m c main_arg1 (by decide) (by decide) (W2_arg1 m c)),
     (h c _ (mem_uc main_arg2 (by decide))).trans (res_arg m c main_arg2 (by decide) (by decide) (W2_arg2 m c)),
     (h c _ (mem_uc main_arg3 (by decide))).trans (res_arg m c main_arg3 (by decide) (by decide) (W2_arg3 m c)),
     (h c _ (mem_uc main_arg4 (by decide))).trans (res_arg m c main_arg4 (by decide) (by decide) (W2_arg4 m c)),
     (h c _ (mem_uc main_arg5 (by decide))).trans (res_arg m c main_arg5 (by decide) (by decide) (W2_arg5 m c)),
     (h c _ (mem_uc main_arg6 (by decide))).trans (res_arg m c main_arg6 (by decide) (by decide) (W2_arg6 m c)),
     (h c _ (mem_uc main_arg7 (by decide))).trans (res_arg m c main_arg7 (by decide) (by decide) (W2_arg7 m c))⟩)
    (run_all m ρ)

end Cert.KernelIdeal.Hand

end
-- ==== Proof.Spec.lean ====
/-
  The three-layer graph convolution and its row-wise log-softmax, stated once over the extended reals,
  entry by entry. With `adj` the dense adjacency, a layer is `adj · (h · W) + b`; between layers the
  hidden activations pass through `max · 0`. Writing z₁ = x·W₁, h₁ = adj·z₁ + b₁, z₂ = relu(h₁)·W₂,
  h₂ = adj·z₂ + b₂, z₃ = relu(h₂)·W₃, h₃ = adj·z₃ + b₃, the outputs are h₁, h₂, h₃ and the row-wise
  log-softmax of h₃. The last is written in two arrangements,
      h₃ − (log Σⱼ exp(h₃ⱼ − M) + M)        and        (h₃ − M) − log Σⱼ exp(h₃ⱼ − M),
  with M the row's maximum; they agree wherever h₃ and M are real numbers, which they are when every
  input entry is: finite sums and products of reals are real, the maximum of finitely many reals over
  −∞ is real, exp of a real is a positive real and the log of a positive real is real.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A rank-2 array of extended reals. -/
abbrev Mat (A B : Nat) : Type := (⟨2, ![A, B]⟩ : Shape).Idx → EReal
/-- A rank-1 array of extended reals. -/
abbrev Vc (A : Nat) : Type := (⟨1, ![A]⟩ : Shape).Idx → EReal

/-- The array whose entry at `(p, q)` is `f p q`. -/
def mat {A B : Nat} (f : Fin A → Fin B → EReal) : Mat A B := fun y => f (y 0) (y 1)

theorem mat_ix2 {A B : Nat} (f : Fin A → Fin B → EReal) (p : Fin A) (q : Fin B) : mat f (ix2 p q) = f p q := rfl

/-- The eight inputs: features, adjacency, and three layers' weights and biases. -/
structure Inp where
  x : Mat 10000 128
  adj : Mat 10000 10000
  w1 : Mat 128 64
  b1 : Vc 64
  w2 : Mat 64 64
  b2 : Vc 64
  w3 : Mat 64 16
  b3 : Vc 16

/-- Every entry of every input is a real number. -/
structure Inp.Real (I : Inp) : Prop where
  x : ∀ i, ∃ r : ℝ, I.x i = (r : EReal)
  adj : ∀ i, ∃ r : ℝ, I.adj i = (r : EReal)
  w1 : ∀ i, ∃ r : ℝ, I.w1 i = (r : EReal)
  b1 : ∀ i, ∃ r : ℝ, I.b1 i = (r : EReal)
  w2 : ∀ i, ∃ r : ℝ, I.w2 i = (r : EReal)
  b2 : ∀ i, ∃ r : ℝ, I.b2 i = (r : EReal)
  w3 : ∀ i, ∃ r : ℝ, I.w3 i = (r : EReal)
  b3 : ∀ i, ∃ r : ℝ, I.b3 i = (r : EReal)

/-- Aggregation over the graph plus bias: `(adj · z + b)[p, c]`. -/
def agg {C : Nat} (adj : Mat 10000 10000) (z : Fin 10000 → Fin C → EReal) (b : Vc C) (p : Fin 10000) (c : Fin C) : EReal :=
  (∑ k : Fin 10000, adj (ix2 p k) * z k c) + b (ix1 c)

/-- Projection of the rectified activations: `(relu(h) · W)[p, c]`. -/
def proj {K C : Nat} (h : Fin 10000 → Fin K → EReal) (w : Mat K C) (p : Fin 10000) (c : Fin C) : EReal :=
  ∑ j : Fin K, max (h p j) 0 * w (ix2 j c)

variable (I : Inp)

def z1 (p : Fin 10000) (c : Fin 64) : EReal := ∑ j : Fin 128, I.x (ix2 p j) * I.w1 (ix2 j c)
def h1 : Fin 10000 → Fin 64 → EReal := agg I.adj (z1 I) I.b1
def z2 : Fin 10000 → Fin 64 → EReal := proj (h1 I) I.w2
def h2 : Fin 10000 → Fin 64 → EReal := agg I.adj (z2 I) I.b2
def z3 : Fin 10000 → Fin 16 → EReal := proj (h2 I) I.w3
def h3 : Fin 10000 → Fin 16 → EReal := agg I.adj (z3 I) I.b3

/-- The maximum of row `p` of h₃, over −∞. -/
def rowMax (p : Fin 10000) : EReal := (Finset.univ : Finset (Fin 16)).fold max ⊥ (fun j => h3 I p j)

/-- Σⱼ exp(h₃[p, j] − M[p]). -/
def expSum (p : Fin 10000) : EReal := ∑ j : Fin 16, Ideal.exp (h3 I p j - rowMax I p)

/-- The log-softmax with the maximum added back to the log-sum before the subtraction. -/
def outK (p : Fin 10000) (c : Fin 16) : EReal := h3 I p c - (Ideal.log (expSum I p) + rowMax I p)

/-- The log-softmax with the maximum subtracted first. -/
def outR (p : Fin 10000) (c : Fin 16) : EReal := (h3 I p c - rowMax I p) - Ideal.log (expSum I p)

/-! ### Closure of the real numbers inside the extended reals -/

theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- The coercion is monotone, so it commutes with the maximum of two reals. -/
theorem coe_max (x y : ℝ) : ((max x y : ℝ) : EReal) = max (x : EReal) (y : EReal) :=
  EReal.coe_strictMono.monotone.map_max

theorem real_max0 {a : EReal} (ha : ∃ r : ℝ, a = (r : EReal)) : ∃ r : ℝ, max a 0 = (r : EReal) := by
  obtain ⟨x, rfl⟩ := ha
  exact ⟨max x 0, by rw [coe_max, EReal.coe_zero]⟩

/-- The coercion commutes with a finite sum. -/
theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- A finite sum of reals is real. -/
theorem real_sum {n : Nat} (f : Fin n → EReal) (h : ∀ i, ∃ r : ℝ, f i = (r : EReal)) :
    ∃ r : ℝ, ∑ i, f i = (r : EReal) := by
  choose g hg using h
  exact ⟨∑ i, g i, by rw [← coe_sum]; exact Finset.sum_congr rfl (fun i _ => hg i)⟩

/-- The maximum over −∞ of finitely many reals is real as soon as there is one of them. -/
theorem real_fold_max {ι : Type} (s : Finset ι) (f : ι → EReal) (h : ∀ i, ∃ r : ℝ, f i = (r : EReal)) :
    s = ∅ ∨ ∃ r : ℝ, s.fold max ⊥ f = (r : EReal) := by
  classical
  induction s using Finset.induction_on with
  | empty => exact Or.inl rfl
  | insert a s ha ih =>
    right
    rw [Finset.fold_insert ha]
    obtain ⟨x, hx⟩ := h a
    rcases ih with rfl | ⟨y, hy⟩
    · exact ⟨x, by rw [Finset.fold_empty, hx, max_eq_left bot_le]⟩
    · exact ⟨max x y, by rw [hx, hy, coe_max]⟩

/-! ### The layers -/

theorem agg_real {C : Nat} (adj : Mat 10000 10000) (z : Fin 10000 → Fin C → EReal) (b : Vc C)
    (hadj : ∀ i, ∃ r : ℝ, adj i = (r : EReal)) (hz : ∀ k c, ∃ r : ℝ, z k c = (r : EReal))
    (hb : ∀ i, ∃ r : ℝ, b i = (r : EReal)) (p : Fin 10000) (c : Fin C) :
    ∃ r : ℝ, agg adj z b p c = (r : EReal) := by
  unfold agg
  exact real_add (real_sum _ (fun k => real_mul (hadj _) (hz k c))) (hb _)

theorem proj_real {K C : Nat} (h : Fin 10000 → Fin K → EReal) (w : Mat K C)
    (hh : ∀ p j, ∃ r : ℝ, h p j = (r : EReal)) (hw : ∀ i, ∃ r : ℝ, w i = (r : EReal))
    (p : Fin 10000) (c : Fin C) : ∃ r : ℝ, proj h w p c = (r : EReal) := by
  unfold proj
  exact real_sum _ (fun j => real_mul (real_max0 (hh p j)) (hw _))

theorem z1_real (hI : I.Real) (p : Fin 10000) (c : Fin 64) : ∃ r : ℝ, z1 I p c = (r : EReal) := by
  unfold z1
  exact real_sum _ (fun j => real_mul (hI.x _) (hI.w1 _))

theorem h1_real (hI : I.Real) (p : Fin 10000) (c : Fin 64) : ∃ r : ℝ, h1 I p c = (r : EReal) :=
  agg_real I.adj (z1 I) I.b1 hI.adj (z1_real I hI) hI.b1 p c

theorem z2_real (hI : I.Real) (p : Fin 10000) (c : Fin 64) : ∃ r : ℝ, z2 I p c = (r : EReal) :=
  proj_real (h1 I) I.w2 (h1_real I hI) hI.w2 p c

theorem h2_real (hI : I.Real) (p : Fin 10000) (c : Fin 64) : ∃ r : ℝ, h2 I p c = (r : EReal) :=
  agg_real I.adj (z2 I) I.b2 hI.adj (z2_real I hI) hI.b2 p c

theorem z3_real (hI : I.Real) (p : Fin 10000) (c : Fin 16) : ∃ r : ℝ, z3 I p c = (r : EReal) :=
  proj_real (h2 I) I.w3 (h2_real I hI) hI.w3 p c

/-- With real inputs every entry of h₃ is real. -/
theorem h3_real (hI : I.Real) (p : Fin 10000) (c : Fin 16) : ∃ r : ℝ, h3 I p c = (r : EReal) :=
  agg_real I.adj (z3 I) I.b3 hI.adj (z3_real I hI) hI.b3 p c

/-- With real inputs the maximum of a row of h₃ is real. -/
theorem rowMax_real (hI : I.Real) (p : Fin 10000) : ∃ r : ℝ, rowMax I p = (r : EReal) := by
  unfold rowMax
  rcases real_fold_max (Finset.univ : Finset (Fin 16)) (fun j => h3 I p j) (fun j => h3_real I hI p j) with h | h
  · exact absurd h Finset.univ_nonempty.ne_empty
  · exact h

/-- With real inputs the two arrangements of the log-softmax agree. -/
theorem outK_eq_outR (hI : I.Real) (p : Fin 10000) (c : Fin 16) : outK I p c = outR I p c := by
  choose a ha using h3_real I hI p
  obtain ⟨M, hM⟩ := rowMax_real I hI p
  -- the sum of the exponentials is a positive real
  have hS : expSum I p = ((∑ j : Fin 16, Real.exp (a j - M) : ℝ) : EReal) := by
    unfold expSum
    rw [← coe_sum]
    refine Finset.sum_congr rfl (fun j _ => ?_)
    rw [ha j, hM, ← EReal.coe_sub, Ideal.exp_coe]
  have hpos : 0 < ∑ j : Fin 16, Real.exp (a j - M) :=
    Finset.sum_pos (fun j _ => Real.exp_pos _) Finset.univ_nonempty
  -- so its logarithm is real
  have hL : Ideal.log (expSum I p) = ((Real.log (∑ j : Fin 16, Real.exp (a j - M)) : ℝ) : EReal) := by
    rw [hS, Ideal.log_coe, if_neg (not_le.mpr hpos)]
  unfold outK outR
  rw [hL, ha c, hM, ← EReal.coe_add, ← EReal.coe_sub, ← EReal.coe_sub, ← EReal.coe_sub]
  congr 1
  ring

end Cert.Spec

end
-- ==== Proof.SpecK.lean ====
/-
  The building blocks of the graph convolution as the kernel meets them: a plain matrix product entry by entry, a layer's
  aggregation with its bias given as a row of shape [1, C], and the log-softmax in the arrangement that adds the row maximum
  back to the log-sum before subtracting.
-/
import proofs.«137813_g44306882625589_cont_8to1_c_1074_18_alg».proof.Proof.Spec

noncomputable section

open scoped BigOperators

namespace Cert.Spec

open Idealize.ShloMosaic Idealize.ShloMosaic.ValueIdx

/-- `(l · r)[p, q]`. -/
def mm {A K B : Nat} (l : Mat A K) (r : Mat K B) (p : Fin A) (q : Fin B) : EReal := ∑ k : Fin K, l (ix2 p k) * r (ix2 k q)

/-- `(adj · z + b)[p, c]` with the bias a row `[1, C]`. -/
def aggR {C : Nat} (adj : Mat 10000 10000) (z : Fin 10000 → Fin C → EReal) (b : Mat 1 C) (p : Fin 10000) (c : Fin C) : EReal :=
  (∑ k : Fin 10000, adj (ix2 p k) * z k c) + b (ix2 0 c)

/-- The maximum of row `p`, over −∞. -/
def rowMaxOf (h : Fin 10000 → Fin 16 → EReal) (p : Fin 10000) : EReal :=
  (Finset.univ : Finset (Fin 16)).fold max ⊥ (fun j => h p j)

/-- `h[p, c] − (log Σⱼ exp(h[p, j] − M) + M)`, M the row's maximum. -/
def lsmK (h : Fin 10000 → Fin 16 → EReal) (p : Fin 10000) (c : Fin 16) : EReal :=
  h p c - (Ideal.log (∑ j : Fin 16, Ideal.exp (h p j - rowMaxOf h p)) + rowMaxOf h p)

end Cert.Spec

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KI.Val0.lean ====
/-
  What the first pallas_call leaves in its three result arrays, at the ideal instance and entry by entry, as functions of the
  arrays it was entered with: the 25 row blocks of 400 tile each result, block t being rows 400t … 400t + 399, and on those rows
  the body's matrix products are the plain sums.
-/
import proofs.«137813_g44306882625589_cont_8to1_c_1074_18_alg».proof.Proof.Gen.KernelIdeal.Launch
import proofs.«137813_g44306882625589_cont_8to1_c_1074_18_alg».proof.Proof.Gen.KernelIdeal.Skeleton
import proofs.«137813_g44306882625589_cont_8to1_c_1074_18_alg».proof.Proof.Gen.KernelIdeal.Points
import proofs.«137813_g44306882625589_cont_8to1_c_1074_18_alg».proof.Proof.KI.R0
import proofs.«137813_g44306882625589_cont_8to1_c_1074_18_alg».proof.Proof.SpecK
import proofs.«137813_g44306882625589_cont_8to1_c_1074_18_alg».proof.Proof.LibDot2
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Idealize.ShloMosaic.ValueIdx
open scoped BigOperators

variable (V : (c : Dev nD) → (b : Ref sig .tc) → Buf (Elt Ideal) ((c : Thread nD τ).loc b))

/-! ## The body's operations at an index

The three matrix products accumulate into the all-zero array, so at an index each is the plain sum over the contracted
coordinate; the narrowing to the shorter float format and the shape casts to the same shape are the identity on extended
reals; the bias row is repeated down the rows; the rectifier is the maximum with zero. -/

theorem dot0a_eq : dot_S10000x128_S128x64_S10000x64_1_0_0_1_n_n = Dot2.mmDims 10000 128 64 dot_S10000x128_S128x64_S10000x64_1_0_0_1_n_n_wf := rfl
theorem dot0b_eq : dot_S400x10000_S10000x64_S400x64_1_0_0_1_n_n = Dot2.mmDims 400 10000 64 dot_S400x10000_S10000x64_S400x64_1_0_0_1_n_n_wf := rfl
theorem dot0c_eq : dot_S400x64_S64x64_S400x64_1_0_0_1_n_n = Dot2.mmDims 400 64 64 dot_S400x64_S64x64_S400x64_1_0_0_1_n_n_wf := rfl

/-- z₁ at (k, j). -/
theorem k0_pay1_apply (x : Vec Ideal S10000x128 .f32) (w : Vec Ideal S128x64 .f32) (k : Fin 10000) (j : Fin 64) :
    k0_pay1 x w (ix2 k j) = ∑ i : Fin 128, x (ix2 k i) * w (ix2 i j) := by
  unfold k0_pay1
  rw [shapeCast_self, truncf_apply, dot0a_eq]
  exact Dot2.matmul_zero_mm_apply _ none x w k j

theorem k0_pay2_apply (a : Vec Ideal S400x10000 .f32) (y : S400x10000.Idx) : k0_pay2 a y = a y := rfl

theorem bcast_row0 (b : Vec Ideal S1x64 .f32) (r : Fin 400) (q : Fin 64) :
    broadcastTo S400x64 b broadcasts_S1x64_S400x64 (ix2 r q) = b (ix2 0 q) := by
  refine broadcastTo_apply b broadcasts_S1x64_S400x64 (ix2 r q) (ix2 0 q) fun d => ?_
  match d with
  | ⟨0, _⟩ => rfl
  | ⟨1, _⟩ => rfl

theorem k0_pay3_apply (a : Vec Ideal S400x10000 .f32) (z : Vec Ideal S10000x64 .bf16) (b : Vec Ideal S1x64 .f32) (r : Fin 400) (q : Fin 64) :
    k0_pay3 a z b (ix2 r q) = (∑ k : Fin 10000, a (ix2 r k) * z (ix2 k q)) + b (ix2 0 q) := by
  unfold k0_pay3
  rw [addf_apply, shapeCast_self, dot0b_eq, bcast_row0]
  refine congrArg (· + b (ix2 0 q)) ?_
  exact Dot2.matmul_zero_mm_apply _ none (k0_pay2 a) z r q

theorem k0_pay4_apply (a : Vec Ideal S400x10000 .f32) (z : Vec Ideal S10000x64 .bf16) (b : Vec Ideal S1x64 .f32) (w : Vec Ideal S64x64 .bf16) (r : Fin 400) (q : Fin 64) :
    k0_pay4 a z b w (ix2 r q) = ∑ j : Fin 64, max (k0_pay3 a z b (ix2 r j)) 0 * w (ix2 j q) := by
  unfold k0_pay4
  rw [truncf_apply, shapeCast_self, dot0c_eq]
  refine (Dot2.matmul_zero_mm_apply (φ₁ := .bf16) (φ₂ := .bf16) _ none _ w r q).trans ?_
  refine Finset.sum_congr rfl fun j _ => ?_
  rw [truncf_apply, maximumf_apply, broadcast_apply]
  show max _ (Ideal.ofBits .f32 0x00000000#32) * _ = _
  rw [Ideal.ofBits_zero_f32]

/-! ## The blocks' places in their arrays -/

/-- The block index maps over the 25 points: the features, both weights and the bias row are whole at every point; the
    adjacency and the three results move by one row block per point. -/
theorem idxmaps0 : ∀ t : Fin cfg0.N,
    win0_0.index t (0 : Fin 2) = 0 ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0
  ∧ win0_6.index t (0 : Fin 2) = t.val ∧ win0_6.index t (1 : Fin 2) = 0
  ∧ win0_7.index t (0 : Fin 2) = t.val ∧ win0_7.index t (1 : Fin 2) = 0 :=
  (by decide +kernel : ∀ t : Fin grid0.N, _)

/-- The features' block is the features. -/
theorem xin0_apply (c : Dev nD) (t : Fin cfg0.N) (y : S10000x128.Idx) :
    xin0 V c t y = (V c main_arg0 : Mat 10000 128) y := by
  obtain ⟨e0, e1, -⟩ := idxmaps0 t
  unfold xin0 iblk0
  rw [View.read_apply]
  show V c main_arg0 _ = V c main_arg0 _
  congr 1
  funext a; apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- W₁'s block is W₁. -/
theorem w1in0_apply (c : Dev nD) (t : Fin cfg0.N) (y : S128x64.Idx) :
    w1in0 V c t y = (V c main_arg2 : Mat 128 64) y := by
  obtain ⟨-, -, e0, e1, -⟩ := idxmaps0 t
  unfold w1in0 iblk0
  rw [View.read_apply]
  show V c main_arg2 _ = V c main_arg2 _
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- The adjacency's block at point t is its rows 400t … 400t + 399. -/
theorem adjin0_apply (c : Dev nD) (t : Fin cfg0.N) (r : Fin 400) (k : Fin 10000) (p : Fin 10000)
    (hp : p.val = 400 * t.val + r.val) :
    adjin0 V c t (ix2 r k) = (V c main_arg1 : Mat 10000 10000) (ix2 p k) := by
  obtain ⟨-, -, -, -, e0, e1, -⟩ := idxmaps0 t
  unfold adjin0 iblk0
  rw [View.read_apply]
  show V c main_arg1 _ = V c main_arg1 _
  congr 1
  funext a; apply Fin.ext
  match a with
  | ⟨0, _⟩ => show win0_2.index t (0 : Fin 2) * 400 + 1 * r.val = p.val; rw [e0, hp]; omega
  | ⟨1, _⟩ => show win0_2.index t (1 : Fin 2) * 10000 + 1 * k.val = k.val; rw [e1]; omega

/-- The bias row's block is the bias row. -/
theorem b1in0_apply (c : Dev nD) (t : Fin cfg0.N) (y : S1x64.Idx) :
    b1in0 V c t y = (V c main_v0 : Mat 1 64) y := by
  obtain ⟨-, -, -, -, -, -, e0, e1, -⟩ := idxmaps0 t
  unfold b1in0 iblk0
  rw [View.read_apply]
  show V c main_v0 _ = V c main_v0 _
  congr 1
  funext a; apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- W₂'s block is W₂. -/
theorem w2in0_apply (c : Dev nD) (t : Fin cfg0.N) (y : S64x64.Idx) :
    w2in0 V c t y = (V c main_v1 : Mat 64 64) y := by
  obtain ⟨-, -, -, -, -, -, -, -, e0, e1, -⟩ := idxmaps0 t
  unfold w2in0 iblk0
  rw [View.read_apply]
  show V c main_v1 _ = V c main_v1 _
  congr 1
  funext a; apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-! ## The body's values on a row block -/

/-- z₁ = x·W₁, entry by entry. -/
theorem Z1_apply (c : Dev nD) (k : Fin 10000) (j : Fin 64) :
    Z1 V c (ix2 k j) = mm (V c main_arg0) (V c main_arg2) k j := by
  unfold Z1
  rw [k0_pay1_apply]
  unfold mm
  refine Finset.sum_congr rfl fun i _ => ?_
  rw [xin0_apply, w1in0_apply]

/-- h₁ on the rows of point t. -/
theorem out0_5_apply (c : Dev nD) (t : Fin cfg0.N) (r : Fin 400) (q : Fin 64) (p : Fin 10000)
    (hp : p.val = 400 * t.val + r.val) :
    out0_5 V c t (ix2 r q) = aggR (V c main_arg1) (mm (V c main_arg0) (V c main_arg2)) (V c main_v0) p q := by
  unfold out0_5
  rw [k0_pay3_apply]
  unfold aggR
  rw [b1in0_apply]
  refine congrArg (· + _) (Finset.sum_congr rfl fun k _ => ?_)
  rw [adjin0_apply V c t r k p hp, Z1_apply]

/-- The adjacency re-laid on the rows of point t. -/
theorem out0_6_apply (c : Dev nD) (t : Fin cfg0.N) (r : Fin 400) (k : Fin 10000) (p : Fin 10000)
    (hp : p.val = 400 * t.val + r.val) :
    out0_6 V c t (ix2 r k) = (V c main_arg1 : Mat 10000 10000) (ix2 p k) := by
  unfold out0_6
  rw [k0_pay2_apply]
  exact adjin0_apply V c t r k p hp

/-- z₂ on the rows of point t. -/
theorem out0_7_apply (c : Dev nD) (t : Fin cfg0.N) (r : Fin 400) (q : Fin 64) (p : Fin 10000)
    (hp : p.val = 400 * t.val + r.val) :
    out0_7 V c t (ix2 r q)
      = proj (aggR (V c main_arg1) (mm (V c main_arg0) (V c main_arg2)) (V c main_v0)) (V c main_v1) p q := by
  unfold out0_7
  rw [k0_pay4_apply]
  unfold proj
  refine Finset.sum_congr rfl fun j _ => ?_
  rw [w2in0_apply]
  have h := out0_5_apply V c t r j p hp
  unfold out0_5 at h
  rw [h]

/-! ## From the row blocks to the arrays -/

/-- Row r of point t's block is row 400t + r of the array. -/
def rowAt0 (t : Fin cfg0.N) (r : Fin 400) : Fin 10000 :=
  ⟨400 * t.val + r.val, by have h := t.isLt; have hN : cfg0.N = 25 := N_0; omega⟩

theorem rowAt0_val (t : Fin cfg0.N) (r : Fin 400) : (rowAt0 t r).val = 400 * t.val + r.val := rfl

/-- h₁ as one array. -/
abbrev G0_5 (c : Dev nD) : Mat 10000 64 :=
  mat (aggR (V c main_arg1) (mm (V c main_arg0) (V c main_arg2)) (V c main_v0))

/-- z₂ as one array. -/
abbrev G0_7 (c : Dev nD) : Mat 10000 64 :=
  mat (proj (aggR (V c main_arg1) (mm (V c main_arg0) (V c main_arg2)) (V c main_v0)) (V c main_v1))

/-- What point t writes back to h₁ is h₁ read through the point's rows. -/
theorem flushed0_5_eq (c : Dev nD) (t : Fin cfg0.N) :
    (dat0 (F := Ideal) V c).flushed 5 t = ((cfg0.win 5).blk t).view.read (Elt Ideal) (G0_5 V c) := by
  show (cfg0.win 5).cut (grid0.coords t) ((dat0 (F := Ideal) V c).after 5 t) = _
  rw [after0_5]
  obtain ⟨-, -, -, -, -, -, -, -, -, -, e0, e1, -⟩ := idxmaps0 t
  funext y
  obtain ⟨r, q, rfl⟩ : ∃ (r : Fin 400) (q : Fin 64), y = ix2 r q := ⟨y 0, y 1, eq_ix2 y⟩
  rw [View.read_apply]
  show out0_5 V c t (ix2 r q) = G0_5 V c (((cfg0.win 5).blk t).view.emb (ix2 r q))
  have hy : ((cfg0.win 5).blk t).view.emb (ix2 r q) = ix2 (rowAt0 t r) q := by
    funext a; apply Fin.ext
    match a with
    | ⟨0, _⟩ => show win0_5.index t (0 : Fin 2) * 400 + 1 * r.val = 400 * t.val + r.val; rw [e0]; omega
    | ⟨1, _⟩ => show win0_5.index t (1 : Fin 2) * 64 + 1 * q.val = q.val; rw [e1]; omega
  rw [hy]
  exact out0_5_apply V c t r q (rowAt0 t r) (rowAt0_val t r)

theorem mem_blk0_5 (t : Fin cfg0.N) (i : S10000x64.Idx) :
    i ∈ ((cfg0.win 5).blk t).view.set ↔ ∀ a : Fin 2, win0_5.index t a * S400x64.size a ≤ (i a).val ∧ (i a).val < win0_5.index t a * S400x64.size a + S400x64.size a := by
  show i ∈ ((View.whole main_v2_0).slice (win0_5.rect t)).set ↔ _
  rw [View.set_slice_whole, Rect.mem_set_unit]
  exact Iff.rfl

/-- Every row lies in the block of the point ⌊row / 400⌋. -/
theorem cover0_5 (i : S10000x64.Idx) :
    ∃ t : Fin cfg0.N, (cfg0.win 5).flush t = true ∧ i ∈ ((cfg0.win 5).blk t).view.set := by
  have hi0 : (i 0).val < 10000 := (i 0).isLt
  have hi1 : (i 1).val < 64 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, -, -, -, -, e0, e1, -⟩ := idxmaps0 t
  refine ⟨t, flush0_5 t, ?_⟩
  rw [mem_blk0_5]
  intro a
  match a with
  | ⟨0, _⟩ => show win0_5.index t (0 : Fin 2) * 400 ≤ (i 0).val ∧ (i 0).val < win0_5.index t (0 : Fin 2) * 400 + 400; rw [e0, ht]; omega
  | ⟨1, _⟩ => show win0_5.index t (1 : Fin 2) * 64 ≤ (i 1).val ∧ (i 1).val < win0_5.index t (1 : Fin 2) * 64 + 64; rw [e1]; omega

/-- h₁: every row block is `adj·(x·W₁) + b₁` on its rows. -/
theorem arr0_5 (c : Dev nD) : ((dat0 (F := Ideal) V c).arrAt 5 cfg0.N : Mat 10000 64)
    = mat (aggR (V c main_arg1) (mm (V c main_arg0) (V c main_arg2)) (V c main_v0)) :=
  (dat0 (F := Ideal) V c).arrAt_eq_of_cover 5 (G0_5 V c) (fun t _ => flushed0_5_eq V c t) cover0_5

/-- What point t writes back to the re-laid adjacency is the adjacency read through the point's rows. -/
theorem flushed0_6_eq (c : Dev nD) (t : Fin cfg0.N) :
    (dat0 (F := Ideal) V c).flushed 6 t
      = ((cfg0.win 6).blk t).view.read (Elt Ideal) (V c main_arg1 : Mat 10000 10000) := by
  show (cfg0.win 6).cut (grid0.coords t) ((dat0 (F := Ideal) V c).after 6 t) = _
  rw [after0_6]
  obtain ⟨-, -, -, -, -, -, -, -, -, -, -, -, e0, e1, -⟩ := idxmaps0 t
  funext y
  obtain ⟨r, k, rfl⟩ : ∃ (r : Fin 400) (k : Fin 10000), y = ix2 r k := ⟨y 0, y 1, eq_ix2 y⟩
  rw [View.read_apply]
  show out0_6 V c t (ix2 r k) = (V c main_arg1 : Mat 10000 10000) (((cfg0.win 6).blk t).view.emb (ix2 r k))
  have hy : ((cfg0.win 6).blk t).view.emb (ix2 r k) = ix2 (rowAt0 t r) k := by
    funext a; apply Fin.ext
    match a with
    | ⟨0, _⟩ => show win0_6.index t (0 : Fin 2) * 400 + 1 * r.val = 400 * t.val + r.val; rw [e0]; omega
    | ⟨1, _⟩ => show win0_6.index t (1 : Fin 2) * 10000 + 1 * k.val = k.val; rw [e1]; omega
  rw [hy]
  exact out0_6_apply V c t r k (rowAt0 t r) (rowAt0_val t r)

theorem mem_blk0_6 (t : Fin cfg0.N) (i : S10000x10000.Idx) :
    i ∈ ((cfg0.win 6).blk t).view.set ↔ ∀ a : Fin 2, win0_6.index t a * S400x10000.size a ≤ (i a).val ∧ (i a).val < win0_6.index t a * S400x10000.size a + S400x10000.size a := by
  show i ∈ ((View.whole main_v2_1).slice (win0_6.rect t)).set ↔ _
  rw [View.set_slice_whole, Rect.mem_set_unit]
  exact Iff.rfl

theorem cover0_6 (i : S10000x10000.Idx) :
    ∃ t : Fin cfg0.N, (cfg0.win 6).flush t = true ∧ i ∈ ((cfg0.win 6).blk t).view.set := by
  have hi0 : (i 0).val < 10000 := (i 0).isLt
  have hi1 : (i 1).val < 10000 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, -, -, -, -, -, -, e0, e1, -⟩ := idxmaps0 t
  refine ⟨t, flush0_6 t, ?_⟩
  rw [mem_blk0_6]
  intro a
  match a with
  | ⟨0, _⟩ => show win0_6.index t (0 : Fin 2) * 400 ≤ (i 0).val ∧ (i 0).val < win0_6.index t (0 : Fin 2) * 400 + 400; rw [e0, ht]; omega
  | ⟨1, _⟩ => show win0_6.index t (1 : Fin 2) * 10000 ≤ (i 1).val ∧ (i 1).val < win0_6.index t (1 : Fin 2) * 10000 + 10000; rw [e1]; omega

/-- The re-laid adjacency is the adjacency. -/
theorem arr0_6 (c : Dev nD) : ((dat0 (F := Ideal) V c).arrAt 6 cfg0.N : Mat 10000 10000) = (V c main_arg1 : Mat 10000 10000) :=
  (dat0 (F := Ideal) V c).arrAt_eq_of_cover 6 (V c main_arg1 : Mat 10000 10000) (fun t _ => flushed0_6_eq V c t) cover0_6

/-- What point t writes back to z₂ is z₂ read through the point's rows. -/
theorem flushed0_7_eq (c : Dev nD) (t : Fin cfg0.N) :
    (dat0 (F := Ideal) V c).flushed 7 t = ((cfg0.win 7).blk t).view.read (Elt Ideal) (G0_7 V c) := by
  show (cfg0.win 7).cut (grid0.coords t) ((dat0 (F := Ideal) V c).after 7 t) = _
  rw [after0_7]
  obtain ⟨-, -, -, -, -, -, -, -, -, -, -, -, -, -, e0, e1⟩ := idxmaps0 t
  funext y
  obtain ⟨r, q, rfl⟩ : ∃ (r : Fin 400) (q : Fin 64), y = ix2 r q := ⟨y 0, y 1, eq_ix2 y⟩
  rw [View.read_apply]
  show out0_7 V c t (ix2 r q) = G0_7 V c (((cfg0.win 7).blk t).view.emb (ix2 r q))
  have hy : ((cfg0.win 7).blk t).view.emb (ix2 r q) = ix2 (rowAt0 t r) q := by
    funext a; apply Fin.ext
    match a with
    | ⟨0, _⟩ => show win0_7.index t (0 : Fin 2) * 400 + 1 * r.val = 400 * t.val + r.val; rw [e0]; omega
    | ⟨1, _⟩ => show win0_7.index t (1 : Fin 2) * 64 + 1 * q.val = q.val; rw [e1]; omega
  rw [hy]
  exact out0_7_apply V c t r q (rowAt0 t r) (rowAt0_val t r)

theorem mem_blk0_7 (t : Fin cfg0.N) (i : S10000x64.Idx) :
    i ∈ ((cfg0.win 7).blk t).view.set ↔ ∀ a : Fin 2, win0_7.index t a * S400x64.size a ≤ (i a).val ∧ (i a).val < win0_7.index t a * S400x64.size a + S400x64.size a := by
  show i ∈ ((View.whole main_v2_2).slice (win0_7.rect t)).set ↔ _
  rw [View.set_slice_whole, Rect.mem_set_unit]
  exact Iff.rfl

theorem cover0_7 (i : S10000x64.Idx) :
    ∃ t : Fin cfg0.N, (cfg0.win 7).flush t = true ∧ i ∈ ((cfg0.win 7).blk t).view.set := by
  have hi0 : (i 0).val < 10000 := (i 0).isLt
  have hi1 : (i 1).val < 64 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, -, -, -, -, -, -, -, -, e0, e1⟩ := idxmaps0 t
  refine ⟨t, flush0_7 t, ?_⟩
  rw [mem_blk0_7]
  intro a
  match a with
  | ⟨0, _⟩ => show win0_7.index t (0 : Fin 2) * 400 ≤ (i 0).val ∧ (i 0).val < win0_7.index t (0 : Fin 2) * 400 + 400; rw [e0, ht]; omega
  | ⟨1, _⟩ => show win0_7.index t (1 : Fin 2) * 64 ≤ (i 1).val ∧ (i 1).val < win0_7.index t (1 : Fin 2) * 64 + 64; rw [e1]; omega

/-- z₂ = relu(h₁)·W₂. -/
theorem arr0_7 (c : Dev nD) : ((dat0 (F := Ideal) V c).arrAt 7 cfg0.N : Mat 10000 64)
    = mat (proj (aggR (V c main_arg1) (mm (V c main_arg0) (V c main_arg2)) (V c main_v0)) (V c main_v1)) :=
  (dat0 (F := Ideal) V c).arrAt_eq_of_cover 7 (G0_7 V c) (fun t _ => flushed0_7_eq V c t) cover0_7

end Cert.KernelIdeal.Hand

end
-- ==== Proof.Consts.lean ====
/-
  The two infinite bit patterns at the ideal instance: 0x7F800000 is +∞ and 0xFF800000 is −∞. Stated once for the whole
  certificate.
-/
import Idealize.ShloMosaic.PureOps.Ideal

noncomputable section

namespace Cert.Consts

open Idealize.ShloMosaic

theorem ofBits_inf : Ideal.ofBits .f32 0x7F800000#32 = (⊤ : EReal) := by simp [Ideal.ofBits, Ideal.ieee]

theorem ofBits_neg_inf : Ideal.ofBits .f32 0xFF800000#32 = (⊥ : EReal) := by simp [Ideal.ofBits, Ideal.ieee]

end Cert.Consts

end
-- ==== Proof.KI.Val1.lean ====
/-
  What the second pallas_call leaves in its three result arrays, at the ideal instance and entry by entry, as functions of the
  arrays it was entered with: h₂ block by block in the first pass (its last block written back at the very end), h₃ and its
  log-softmax block by block in the second pass from the whole of z₃ = relu(h₂)·W₃.
-/
import proofs.«137813_g44306882625589_cont_8to1_c_1074_18_alg».proof.Proof.Gen.KernelIdeal.Launch
import proofs.«137813_g44306882625589_cont_8to1_c_1074_18_alg».proof.Proof.Gen.KernelIdeal.Skeleton
import proofs.«137813_g44306882625589_cont_8to1_c_1074_18_alg».proof.Proof.Gen.KernelIdeal.Points
import proofs.«137813_g44306882625589_cont_8to1_c_1074_18_alg».proof.Proof.KI.R1
import proofs.«137813_g44306882625589_cont_8to1_c_1074_18_alg».proof.Proof.SpecK
import proofs.«137813_g44306882625589_cont_8to1_c_1074_18_alg».proof.Proof.LibDot2
import proofs.«137813_g44306882625589_cont_8to1_c_1074_18_alg».proof.Proof.Consts
import Idealize.ShloMosaic.Lib.Pipeline.Value
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Idealize.ShloMosaic.ValueIdx

open scoped BigOperators

/-! ## The body's four results at an index -/

/-- The three products' dimension numbers are those of the plain matrix product. -/
theorem dotA_eq : dot_S1000x10000_S10000x64_S1000x64_1_0_0_1_n_n
    = Dot2.mmDims 1000 10000 64 Facts₀.dot_S1000x10000_S10000x64_S1000x64_1_0_0_1_n_n_wf := rfl
theorem dotB_eq : dot_S1000x64_S64x16_S1000x16_1_0_0_1_n_n
    = Dot2.mmDims 1000 64 16 Facts₀.dot_S1000x64_S64x16_S1000x16_1_0_0_1_n_n_wf := rfl
theorem dotC_eq : dot_S1000x10000_S10000x16_S1000x16_1_0_0_1_n_n
    = Dot2.mmDims 1000 10000 16 Facts₀.dot_S1000x10000_S10000x16_S1000x16_1_0_0_1_n_n_wf := rfl

/-- A bias row [1, C] broadcast over R rows reads, at (r, q), the row's entry q. -/
theorem bcastRow_apply {R C : Nat} (x : (⟨2, ![1, C]⟩ : Shape).Idx → EReal) (h : (⟨2, ![1, C]⟩ : Shape).Broadcasts ⟨2, ![R, C]⟩)
    (r : Fin R) (q : Fin C) : broadcastTo ⟨2, ![R, C]⟩ x h (ix2 r q) = x (ix2 0 q) := by
  refine broadcastTo_apply x h (ix2 r q) (ix2 0 q) fun a => ?_
  match a with
  | ⟨0, _⟩ => rfl
  | ⟨1, _⟩ =>
    show q.val = if C = 1 then 0 else q.val
    split
    · next hC => have := q.isLt; omega
    · rfl

/-- The first pass's rows of h₂: the sum over k of adj[r, k]·z₂[k, q], plus b₂[0, q]. -/
theorem pay1_apply (adj : Vec Ideal S1000x10000 .bf16) (z : Vec Ideal S10000x64 .bf16) (b : Vec Ideal S1x64 .f32)
    (r : Fin 1000) (q : Fin 64) :
    k1_pay1 adj z b (ix2 r q) = (∑ k : Fin 10000, adj (ix2 r k) * z (ix2 k q)) + b (ix2 0 q) := by
  unfold k1_pay1
  rw [addf_apply, shapeCast_self, shapeCast_self, shapeCast_self, dotA_eq]
  unfold matmul
  rw [Dot2.matmul_zero_mm_apply, bcastRow_apply]

/-- The rows of z₃ a point of the first pass stores: the sum over c of max(h₂[r, c], 0)·W₃[c, j]. -/
theorem pay2_apply (adj : Vec Ideal S1000x10000 .bf16) (z : Vec Ideal S10000x64 .bf16) (b : Vec Ideal S1x64 .f32)
    (w : Vec Ideal S64x16 .bf16) (r : Fin 1000) (j : Fin 16) :
    k1_pay2 adj z b w (ix2 r j) = ∑ c : Fin 64, max (k1_pay1 adj z b (ix2 r c)) 0 * w (ix2 c j) := by
  unfold k1_pay2
  rw [shapeCast_self, shapeCast_self, dotB_eq]
  unfold matmul
  rw [Dot2.matmul_zero_mm_apply]
  refine Finset.sum_congr rfl fun c _ => ?_
  rw [truncf_apply, maximumf_apply, broadcast_apply]
  show max _ (Ideal.ofBits .f32 0x00000000#32) * _ = _
  rw [Ideal.ofBits_zero_f32]

/-- The second pass's rows of h₃: the sum over k of adj[r, k]·z₃[k, q], plus b₃[0, q]. -/
theorem pay3_apply (adj : Vec Ideal S1000x10000 .bf16) (z : Vec Ideal S10000x16 .f32) (b : Vec Ideal S1x16 .f32)
    (r : Fin 1000) (q : Fin 16) :
    k1_pay3 adj z b (ix2 r q) = (∑ k : Fin 10000, adj (ix2 r k) * z (ix2 k q)) + b (ix2 0 q) := by
  unfold k1_pay3
  rw [addf_apply, shapeCast_self, shapeCast_self, dotC_eq]
  unfold matmul
  rw [Dot2.matmul_zero_mm_apply, bcastRow_apply]
  rfl

/-- A vector [R] cast to the column [R, 1] reads, at (r, 0), its entry r. -/
theorem castCol_apply {α : Type} {R : Nat} (x : (⟨1, ![R]⟩ : Shape).Idx → α)
    (h : (⟨1, ![R]⟩ : Shape).ShapeCasts ⟨2, ![R, 1]⟩) (r : Fin R) (z : Fin 1) :
    shapeCast ⟨2, ![R, 1]⟩ x h (ix2 r z) = x (ix1 r) := by
  refine shapeCast_apply x h (ix2 r z) (ix1 r) ?_
  rw [Shape.rowMajor_val_two, Shape.rowMajor_val_one]
  show r.val = r.val * 1 + z.val
  have := z.isLt
  omega

/-- A column [R, 1] broadcast over C columns reads, at (r, q), the column's entry r. -/
theorem bcastCol_apply {α : Type} {R C : Nat} (x : (⟨2, ![R, 1]⟩ : Shape).Idx → α)
    (h : (⟨2, ![R, 1]⟩ : Shape).Broadcasts ⟨2, ![R, C]⟩) (r : Fin R) (q : Fin C) :
    broadcastTo ⟨2, ![R, C]⟩ x h (ix2 r q) = x (ix2 r 0) := by
  refine broadcastTo_apply x h (ix2 r q) (ix2 r 0) fun a => ?_
  match a with
  | ⟨0, _⟩ =>
    show r.val = if R = 1 then 0 else r.val
    split
    · next hR => have := r.isLt; omega
    · rfl
  | ⟨1, _⟩ => rfl

/-- The maximum over a row of a [1000, 16] array, from −∞. -/
theorem rowMax_apply (src : FVec Ideal S1000x16 .f32) (hacc : (0xFF800000#32 : BitVec 32) = 0xFF800000#32) (r : Fin 1000) :
    multiReduction .maximumf [1] S1000 src 0xFF800000#32 Facts₀.reduces_S1000x16_S1000 (.inl rfl) hacc (ix1 r)
      = (Finset.univ : Finset (Fin 16)).fold max ⊥ (fun j => src (ix2 r j)) := by
  refine (Ideal.multiReduction_maximumf_single src 0xFF800000#32 Facts₀.reduces_S1000x16_S1000 (.inl rfl) hacc (ix1 r)).trans ?_
  rw [Ideal.ofBits_def, Cert.Consts.ofBits_neg_inf]
  have e : (src ∘ Facts₀.reduces_S1000x16_S1000.lift (ix1 r)) = fun j : Fin 16 => src (ix2 r j) := by
    funext j
    show src _ = src _
    congr 1
    funext a
    apply Fin.ext
    match a with
    | ⟨0, _⟩ => rfl
    | ⟨1, _⟩ => rfl
  rw [e]
  rfl

/-- The sum over a row of a [1000, 16] array. -/
theorem rowSum_apply (src : FVec Ideal S1000x16 .f32) (hacc : (0x00000000#32 : BitVec 32) = 0x00000000#32) (r : Fin 1000) :
    multiReduction .add [1] S1000 src 0x00000000#32 Facts₀.reduces_S1000x16_S1000 (.inl rfl) hacc (ix1 r)
      = ∑ j : Fin 16, src (ix2 r j) := by
  refine (Ideal.multiReduction_add_single src 0x00000000#32 Facts₀.reduces_S1000x16_S1000 (.inl rfl) hacc (ix1 r)).trans ?_
  refine Finset.sum_congr rfl fun j _ => ?_
  congr 1
  funext a
  apply Fin.ext
  match a with
  | ⟨0, _⟩ => rfl
  | ⟨1, _⟩ => rfl

/-- The second pass's rows of the log-softmax: with h the rows of h₃ and M a row's maximum,
    h[r, q] − (log Σⱼ exp(h[r, j] − M) + M). -/
theorem pay4_apply (adj : Vec Ideal S1000x10000 .bf16) (z : Vec Ideal S10000x16 .f32) (b : Vec Ideal S1x16 .f32)
    (r : Fin 1000) (q : Fin 16) :
    k1_pay4 adj z b (ix2 r q)
      = k1_pay3 adj z b (ix2 r q)
        - (Ideal.log (∑ j : Fin 16, Ideal.exp (k1_pay3 adj z b (ix2 r j)
              - (Finset.univ : Finset (Fin 16)).fold max ⊥ (fun i => k1_pay3 adj z b (ix2 r i))))
            + (Finset.univ : Finset (Fin 16)).fold max ⊥ (fun i => k1_pay3 adj z b (ix2 r i))) := by
  unfold k1_pay4
  rw [subf_apply, bcastCol_apply, addf_apply, castCol_apply, rowMax_apply]
  show _ - (Ideal.log (shapeCast S1000x1 _ _ (ix2 r 0)) + _) = _
  rw [castCol_apply, rowSum_apply]
  congr 3
  refine Finset.sum_congr rfl fun j _ => ?_
  show Ideal.exp (subf (F := Ideal) (s := S1000x16) (φ := .f32) _ _ (ix2 r j)) = _
  rw [subf_apply, bcastCol_apply, castCol_apply, rowMax_apply]

variable (V : (c : Dev nD) → (b : Ref sig .tc) → Buf (Elt Ideal) ((c : Thread nD τ).loc b))

/-! ## The windows' index maps over the grid -/

/-- The adjacency's row block at a point: block k of either pass, k the point's number mod 10; the other four inputs are whole. -/
theorem idx_in1 : ∀ t : Fin cfg1.N, win1_0.index t (0 : Fin 2) = t.val % 10 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The h₂ window's block: the point's own in the first pass, the last one throughout the second; written back at the first nine
    points and at the very last. -/
theorem idx_out5 : ∀ t : Fin cfg1.N, win1_5.index t (0 : Fin 2) = min t.val 9 ∧ win1_5.index t (1 : Fin 2) = 0
    ∧ ((cfg1.win 5).flush t = true ↔ t.val < 9 ∨ t.val = 19) :=
  (by decide +kernel : ∀ t : Fin grid1.N, _)

/-- The h₃ and log-softmax windows' block: the first one throughout the first pass, the point's own in the second; written back
    at every point of the second pass. -/
theorem idx_out67 : ∀ t : Fin cfg1.N, win1_6.index t (0 : Fin 2) = t.val - 10 ∧ win1_6.index t (1 : Fin 2) = 0
    ∧ win1_7.index t (0 : Fin 2) = t.val - 10 ∧ win1_7.index t (1 : Fin 2) = 0
    ∧ ((cfg1.win 6).flush t = true ↔ 10 ≤ t.val) ∧ ((cfg1.win 7).flush t = true ↔ 10 ≤ t.val) :=
  (by decide +kernel : ∀ t : Fin grid1.N, _)

/-! ## The input blocks, entry by entry -/

/-- The adjacency's block at a point is rows 1000k … 1000k + 999 of the re-laid adjacency, k the point's number mod 10. -/
theorem adjb_apply (c : Dev nD) (t : Fin cfg1.N) (r : Fin 1000) (k : Fin 10000) (R : Fin 10000)
    (hR : R.val = 1000 * (t.val % 10) + r.val) :
    adjbin1 V c t (ix2 r k) = (V c main_v2_1 : Mat 10000 10000) (ix2 R k) := by
  obtain ⟨e0, e1, -⟩ := idx_in1 t
  show V c main_v2_1 (((cfg1.win 0).blk t).view.emb (ix2 r k)) = V c main_v2_1 (ix2 R k)
  congr 1
  funext a
  apply Fin.ext
  match a with
  | ⟨0, _⟩ => show win1_0.index t (0 : Fin 2) * 1000 + 1 * r.val = R.val; rw [e0, hR]; omega
  | ⟨1, _⟩ => show win1_0.index t (1 : Fin 2) * 10000 + 1 * k.val = k.val; rw [e1]; omega

/-- z₂'s block is the whole of z₂. -/
theorem z2in_apply (c : Dev nD) (t : Fin cfg1.N) (k : Fin 10000) (q : Fin 64) :
    z2in1 V c t (ix2 k q) = (V c main_v2_2 : Mat 10000 64) (ix2 k q) := by
  obtain ⟨-, -, e0, e1, -⟩ := idx_in1 t
  show V c main_v2_2 (((cfg1.win 1).blk t).view.emb (ix2 k q)) = V c main_v2_2 (ix2 k q)
  congr 1
  funext a
  apply Fin.ext
  match a with
  | ⟨0, _⟩ => show win1_1.index t (0 : Fin 2) * 10000 + 1 * k.val = k.val; rw [e0]; omega
  | ⟨1, _⟩ => show win1_1.index t (1 : Fin 2) * 64 + 1 * q.val = q.val; rw [e1]; omega

/-- The first bias row's block is the row. -/
theorem b2in_apply (c : Dev nD) (t : Fin cfg1.N) (z : Fin 1) (q : Fin 64) :
    b2in1 V c t (ix2 z q) = (V c main_v3 : Mat 1 64) (ix2 z q) := by
  obtain ⟨-, -, -, -, e0, e1, -⟩ := idx_in1 t
  show V c main_v3 (((cfg1.win 2).blk t).view.emb (ix2 z q)) = V c main_v3 (ix2 z q)
  congr 1
  funext a
  apply Fin.ext
  match a with
  | ⟨0, _⟩ => show win1_2.index t (0 : Fin 2) * 1 + 1 * z.val = z.val; rw [e0]; omega
  | ⟨1, _⟩ => show win1_2.index t (1 : Fin 2) * 64 + 1 * q.val = q.val; rw [e1]; omega

/-- The second bias row's block is the row. -/
theorem b3in_apply (c : Dev nD) (t : Fin cfg1.N) (z : Fin 1) (q : Fin 16) :
    b3in1 V c t (ix2 z q) = (V c main_v4 : Mat 1 16) (ix2 z q) := by
  obtain ⟨-, -, -, -, -, -, e0, e1, -⟩ := idx_in1 t
  show V c main_v4 (((cfg1.win 3).blk t).view.emb (ix2 z q)) = V c main_v4 (ix2 z q)
  congr 1
  funext a
  apply Fin.ext
  match a with
  | ⟨0, _⟩ => show win1_3.index t (0 : Fin 2) * 1 + 1 * z.val = z.val; rw [e0]; omega
  | ⟨1, _⟩ => show win1_3.index t (1 : Fin 2) * 16 + 1 * q.val = q.val; rw [e1]; omega

/-- W₃'s block is the whole of W₃. -/
theorem w3in_apply (c : Dev nD) (t : Fin cfg1.N) (k : Fin 64) (q : Fin 16) :
    w3in1 V c t (ix2 k q) = (V c main_v5 : Mat 64 16) (ix2 k q) := by
  obtain ⟨-, -, -, -, -, -, -, -, e0, e1⟩ := idx_in1 t
  show V c main_v5 (((cfg1.win 4).blk t).view.emb (ix2 k q)) = V c main_v5 (ix2 k q)
  congr 1
  funext a
  apply Fin.ext
  match a with
  | ⟨0, _⟩ => show win1_4.index t (0 : Fin 2) * 64 + 1 * k.val = k.val; rw [e0]; omega
  | ⟨1, _⟩ => show win1_4.index t (1 : Fin 2) * 16 + 1 * q.val = q.val; rw [e1]; omega

/-- h₂ from the arrays the region is entered with: the re-laid adjacency, z₂ and the bias row. -/
def H2v (c : Dev nD) : Fin 10000 → Fin 64 → EReal :=
  aggR (V c main_v2_1) (fun k j => (V c main_v2_2 : Mat 10000 64) (ix2 k j)) (V c main_v3)

/-- h₃ likewise, through z₃ = relu(h₂)·W₃. -/
def H3v (c : Dev nD) : Fin 10000 → Fin 16 → EReal :=
  aggR (V c main_v2_1) (proj (H2v V c) (V c main_v5)) (V c main_v4)

/-! ## What the body computes, entry by entry -/

/-- The rows of h₂ formed from a point's blocks are rows 1000k … 1000k + 999 of h₂, k the point's number mod 10. -/
theorem h2blk_apply (c : Dev nD) (t : Fin cfg1.N) (r : Fin 1000) (q : Fin 64) (R : Fin 10000)
    (hR : R.val = 1000 * (t.val % 10) + r.val) :
    k1_pay1 (adjbin1 V c t) (z2in1 V c t) (b2in1 V c t) (ix2 r q) = H2v V c R q := by
  rw [pay1_apply, b2in_apply]
  unfold H2v aggR
  congr 1
  refine Finset.sum_congr rfl fun k _ => ?_
  rw [adjb_apply V c t r k R hR, z2in_apply]

/-- z₃, entry by entry: relu(h₂)·W₃. -/
theorem Z3_apply (c : Dev nD) (R : Fin 10000) (j : Fin 16) :
    Z3 V c (ix2 R j) = proj (H2v V c) (V c main_v5) R j := by
  have hR : R.val < 10000 := R.isLt
  show z3blk V c ⟨R.val / 1000, _⟩ (ix2 ⟨R.val % 1000, _⟩ j) = _
  unfold z3blk
  rw [pay2_apply]
  unfold proj
  refine Finset.sum_congr rfl fun cc _ => ?_
  rw [w3in_apply, h2blk_apply V c _ _ cc R (by
    show R.val = 1000 * ((R.val / 1000) % 10) + R.val % 1000
    omega)]

/-- The rows of h₃ formed from a point's adjacency block and the whole of z₃. -/
theorem h3blk_apply (c : Dev nD) (t : Fin cfg1.N) (r : Fin 1000) (q : Fin 16) (R : Fin 10000)
    (hR : R.val = 1000 * (t.val % 10) + r.val) :
    k1_pay3 (adjbin1 V c t) (Z3 V c) (b3in1 V c t) (ix2 r q) = H3v V c R q := by
  rw [pay3_apply, b3in_apply]
  unfold H3v aggR
  congr 1
  refine Finset.sum_congr rfl fun k _ => ?_
  rw [adjb_apply V c t r k R hR, Z3_apply]

/-- The rows of the log-softmax formed from the same. -/
theorem lsmblk_apply (c : Dev nD) (t : Fin cfg1.N) (r : Fin 1000) (q : Fin 16) (R : Fin 10000)
    (hR : R.val = 1000 * (t.val % 10) + r.val) :
    k1_pay4 (adjbin1 V c t) (Z3 V c) (b3in1 V c t) (ix2 r q) = lsmK (H3v V c) R q := by
  rw [pay4_apply]
  have e : ∀ j : Fin 16, k1_pay3 (adjbin1 V c t) (Z3 V c) (b3in1 V c t) (ix2 r j) = H3v V c R j :=
    fun j => h3blk_apply V c t r j R hR
  simp only [e]
  rfl

/-! ## From blocks to the arrays -/

/-- What a point writes back of h₂ is its block of h₂. -/
theorem flushed5_eq (c : Dev nD) (t : Fin cfg1.N) (hf : (cfg1.win 5).flush t = true) :
    (dat1 (F := Ideal) V c).flushed 5 t = ((cfg1.win 5).blk t).view.read (Elt Ideal) (mat (H2v V c)) := by
  obtain ⟨e0, e1, -⟩ := idx_out5 t
  have ht : t.val < 20 := t.isLt
  show (cfg1.win 5).cut (grid1.coords t) ((dat1 (F := Ideal) V c).after 5 t) = _
  rw [after1_5]
  funext y
  obtain ⟨r, q, rfl⟩ : ∃ (r : Fin 1000) (q : Fin 64), y = ix2 r q := ⟨y 0, y 1, eq_ix2 y⟩
  show out1_5 V c t (ix2 r q) = mat (H2v V c) (((cfg1.win 5).blk t).view.emb (ix2 r q))
  unfold out1_5
  have hr : r.val < 1000 := r.isLt
  rw [h2blk_apply V c (q5 t) r q ⟨1000 * min t.val 9 + r.val, by omega⟩ (by
    show 1000 * min t.val 9 + r.val = 1000 * (min t.val 9 % 10) + r.val
    omega)]
  show mat (H2v V c) (ix2 ⟨1000 * min t.val 9 + r.val, _⟩ q) = _
  congr 1
  funext a
  apply Fin.ext
  match a with
  | ⟨0, _⟩ => show 1000 * min t.val 9 + r.val = win1_5.index t (0 : Fin 2) * 1000 + 1 * r.val; rw [e0]; omega
  | ⟨1, _⟩ => show q.val = win1_5.index t (1 : Fin 2) * 64 + 1 * q.val; rw [e1]; omega

/-- An index of h₂'s array is in a point's block iff each coordinate is in the block's range on its axis. -/
theorem mem_blk5 (t : Fin cfg1.N) (i : S10000x64.Idx) :
    i ∈ ((cfg1.win 5).blk t).view.set ↔ ∀ a : Fin 2, win1_5.index t a * S1000x64.size a ≤ (i a).val ∧ (i a).val < win1_5.index t a * S1000x64.size a + S1000x64.size a := by
  show i ∈ ((View.whole main_v6_0).slice (win1_5.rect t)).set ↔ _
  rw [View.set_slice_whole, Rect.mem_set_unit]
  exact Iff.rfl

/-- Every row of h₂ is written back: rows below 9000 by the point of their block, the last thousand at the very end. -/
theorem cover5 (i : S10000x64.Idx) : ∃ t : Fin cfg1.N, (cfg1.win 5).flush t = true ∧ i ∈ ((cfg1.win 5).blk t).view.set := by
  have hi0 : (i 0).val < 10000 := (i 0).isLt
  have hi1 : (i 1).val < 64 := (i 1).isLt
  have hN : cfg1.N = 20 := N_1
  refine ⟨⟨if (i 0).val < 9000 then (i 0).val / 1000 else 19, by rw [hN]; split <;> omega⟩, ?_, ?_⟩
  · obtain ⟨-, -, e2⟩ := idx_out5 ⟨if (i 0).val < 9000 then (i 0).val / 1000 else 19, by rw [hN]; split <;> omega⟩
    rw [e2]
    show (if (i 0).val < 9000 then (i 0).val / 1000 else 19) < 9 ∨ (if (i 0).val < 9000 then (i 0).val / 1000 else 19) = 19
    split <;> omega
  · obtain ⟨e0, e1, -⟩ := idx_out5 ⟨if (i 0).val < 9000 then (i 0).val / 1000 else 19, by rw [hN]; split <;> omega⟩
    rw [mem_blk5]
    intro a
    match a with
    | ⟨0, _⟩ =>
      show win1_5.index _ (0 : Fin 2) * 1000 ≤ (i 0).val ∧ (i 0).val < win1_5.index _ (0 : Fin 2) * 1000 + 1000
      rw [e0]
      show min (if (i 0).val < 9000 then (i 0).val / 1000 else 19) 9 * 1000 ≤ (i 0).val ∧ (i 0).val < min (if (i 0).val < 9000 then (i 0).val / 1000 else 19) 9 * 1000 + 1000
      split <;> omega
    | ⟨1, _⟩ =>
      show win1_5.index _ (1 : Fin 2) * 64 ≤ (i 1).val ∧ (i 1).val < win1_5.index _ (1 : Fin 2) * 64 + 64
      rw [e1]
      omega

theorem arr1_5 (c : Dev nD) : ((dat1 (F := Ideal) V c).arrAt 5 cfg1.N : Mat 10000 64) = mat (H2v V c) :=
  (dat1 (F := Ideal) V c).arrAt_eq_of_cover 5 (mat (H2v V c)) (fun t hf => flushed5_eq V c t hf) cover5

/-- What a point of the second pass writes back of h₃ is its block of h₃. -/
theorem flushed6_eq (c : Dev nD) (t : Fin cfg1.N) (hf : (cfg1.win 6).flush t = true) :
    (dat1 (F := Ideal) V c).flushed 6 t = ((cfg1.win 6).blk t).view.read (Elt Ideal) (mat (H3v V c)) := by
  obtain ⟨e60, e61, e70, e71, f6, f7⟩ := idx_out67 t
  have ht : t.val < 20 := t.isLt
  have h10 : 10 ≤ t.val := f6.mp hf
  show (cfg1.win 6).cut (grid1.coords t) ((dat1 (F := Ideal) V c).after 6 t) = _
  rw [after1_6]
  funext y
  obtain ⟨r, q, rfl⟩ : ∃ (r : Fin 1000) (q : Fin 16), y = ix2 r q := ⟨y 0, y 1, eq_ix2 y⟩
  show out1_6 V c t (ix2 r q) = mat (H3v V c) (((cfg1.win 6).blk t).view.emb (ix2 r q))
  unfold out1_6
  have hr : r.val < 1000 := r.isLt
  rw [h3blk_apply V c t r q ⟨1000 * (t.val - 10) + r.val, by omega⟩ (by
    show 1000 * (t.val - 10) + r.val = 1000 * (t.val % 10) + r.val
    omega)]
  show mat (H3v V c) (ix2 ⟨1000 * (t.val - 10) + r.val, _⟩ q) = _
  congr 1
  funext a
  apply Fin.ext
  match a with
  | ⟨0, _⟩ => show 1000 * (t.val - 10) + r.val = win1_6.index t (0 : Fin 2) * 1000 + 1 * r.val; rw [e60]; omega
  | ⟨1, _⟩ => show q.val = win1_6.index t (1 : Fin 2) * 16 + 1 * q.val; rw [e61]; omega

/-- An index of the array of h₃ is in a point's block iff each coordinate is in the block's range on its axis. -/
theorem mem_blk6 (t : Fin cfg1.N) (i : S10000x16.Idx) :
    i ∈ ((cfg1.win 6).blk t).view.set ↔ ∀ a : Fin 2, win1_6.index t a * S1000x16.size a ≤ (i a).val ∧ (i a).val < win1_6.index t a * S1000x16.size a + S1000x16.size a := by
  show i ∈ ((View.whole main_v6_1).slice (win1_6.rect t)).set ↔ _
  rw [View.set_slice_whole, Rect.mem_set_unit]
  exact Iff.rfl

/-- Every row of h₃ is written back by the point of the second pass that holds its block. -/
theorem cover6 (i : S10000x16.Idx) : ∃ t : Fin cfg1.N, (cfg1.win 6).flush t = true ∧ i ∈ ((cfg1.win 6).blk t).view.set := by
  have hi0 : (i 0).val < 10000 := (i 0).isLt
  have hi1 : (i 1).val < 16 := (i 1).isLt
  have hN : cfg1.N = 20 := N_1
  obtain ⟨e60, e61, e70, e71, f6, f7⟩ := idx_out67 ⟨10 + (i 0).val / 1000, by rw [hN]; omega⟩
  refine ⟨⟨10 + (i 0).val / 1000, by rw [hN]; omega⟩, ?_, ?_⟩
  · rw [f6]
    show 10 ≤ 10 + (i 0).val / 1000
    omega
  · rw [mem_blk6]
    intro a
    match a with
    | ⟨0, _⟩ =>
      show win1_6.index _ (0 : Fin 2) * 1000 ≤ (i 0).val ∧ (i 0).val < win1_6.index _ (0 : Fin 2) * 1000 + 1000
      rw [e60]
      show (10 + (i 0).val / 1000 - 10) * 1000 ≤ (i 0).val ∧ (i 0).val < (10 + (i 0).val / 1000 - 10) * 1000 + 1000
      omega
    | ⟨1, _⟩ =>
      show win1_6.index _ (1 : Fin 2) * 16 ≤ (i 1).val ∧ (i 1).val < win1_6.index _ (1 : Fin 2) * 16 + 16
      rw [e61]
      omega

theorem arr1_6 (c : Dev nD) : ((dat1 (F := Ideal) V c).arrAt 6 cfg1.N : Mat 10000 16) = mat (H3v V c) :=
  (dat1 (F := Ideal) V c).arrAt_eq_of_cover 6 (mat (H3v V c)) (fun t hf => flushed6_eq V c t hf) cover6
/-- What a point of the second pass writes back of the log-softmax is its block of the log-softmax. -/
theorem flushed7_eq (c : Dev nD) (t : Fin cfg1.N) (hf : (cfg1.win 7).flush t = true) :
    (dat1 (F := Ideal) V c).flushed 7 t = ((cfg1.win 7).blk t).view.read (Elt Ideal) (mat (lsmK (H3v V c))) := by
  obtain ⟨e60, e61, e70, e71, f6, f7⟩ := idx_out67 t
  have ht : t.val < 20 := t.isLt
  have h10 : 10 ≤ t.val := f7.mp hf
  show (cfg1.win 7).cut (grid1.coords t) ((dat1 (F := Ideal) V c).after 7 t) = _
  rw [after1_7]
  funext y
  obtain ⟨r, q, rfl⟩ : ∃ (r : Fin 1000) (q : Fin 16), y = ix2 r q := ⟨y 0, y 1, eq_ix2 y⟩
  show out1_7 V c t (ix2 r q) = mat (lsmK (H3v V c)) (((cfg1.win 7).blk t).view.emb (ix2 r q))
  unfold out1_7
  have hr : r.val < 1000 := r.isLt
  rw [lsmblk_apply V c t r q ⟨1000 * (t.val - 10) + r.val, by omega⟩ (by
    show 1000 * (t.val - 10) + r.val = 1000 * (t.val % 10) + r.val
    omega)]
  show mat (lsmK (H3v V c)) (ix2 ⟨1000 * (t.val - 10) + r.val, _⟩ q) = _
  congr 1
  funext a
  apply Fin.ext
  match a with
  | ⟨0, _⟩ => show 1000 * (t.val - 10) + r.val = win1_7.index t (0 : Fin 2) * 1000 + 1 * r.val; rw [e70]; omega
  | ⟨1, _⟩ => show q.val = win1_7.index t (1 : Fin 2) * 16 + 1 * q.val; rw [e71]; omega

/-- An index of the array of the log-softmax is in a point's block iff each coordinate is in the block's range on its axis. -/
theorem mem_blk7 (t : Fin cfg1.N) (i : S10000x16.Idx) :
    i ∈ ((cfg1.win 7).blk t).view.set ↔ ∀ a : Fin 2, win1_7.index t a * S1000x16.size a ≤ (i a).val ∧ (i a).val < win1_7.index t a * S1000x16.size a + S1000x16.size a := by
  show i ∈ ((View.whole main_v6_2).slice (win1_7.rect t)).set ↔ _
  rw [View.set_slice_whole, Rect.mem_set_unit]
  exact Iff.rfl

/-- Every row of the log-softmax is written back by the point of the second pass that holds its block. -/
theorem cover7 (i : S10000x16.Idx) : ∃ t : Fin cfg1.N, (cfg1.win 7).flush t = true ∧ i ∈ ((cfg1.win 7).blk t).view.set := by
  have hi0 : (i 0).val < 10000 := (i 0).isLt
  have hi1 : (i 1).val < 16 := (i 1).isLt
  have hN : cfg1.N = 20 := N_1
  obtain ⟨e60, e61, e70, e71, f6, f7⟩ := idx_out67 ⟨10 + (i 0).val / 1000, by rw [hN]; omega⟩
  refine ⟨⟨10 + (i 0).val / 1000, by rw [hN]; omega⟩, ?_, ?_⟩
  · rw [f7]
    show 10 ≤ 10 + (i 0).val / 1000
    omega
  · rw [mem_blk7]
    intro a
    match a with
    | ⟨0, _⟩ =>
      show win1_7.index _ (0 : Fin 2) * 1000 ≤ (i 0).val ∧ (i 0).val < win1_7.index _ (0 : Fin 2) * 1000 + 1000
      rw [e70]
      show (10 + (i 0).val / 1000 - 10) * 1000 ≤ (i 0).val ∧ (i 0).val < (10 + (i 0).val / 1000 - 10) * 1000 + 1000
      omega
    | ⟨1, _⟩ =>
      show win1_7.index _ (1 : Fin 2) * 16 ≤ (i 1).val ∧ (i 1).val < win1_7.index _ (1 : Fin 2) * 16 + 16
      rw [e71]
      omega

theorem arr1_7 (c : Dev nD) : ((dat1 (F := Ideal) V c).arrAt 7 cfg1.N : Mat 10000 16) = mat (lsmK (H3v V c)) :=
  (dat1 (F := Ideal) V c).arrAt_eq_of_cover 7 (mat (lsmK (H3v V c))) (fun t hf => flushed7_eq V c t hf) cover7
end Cert.KernelIdeal.Hand

end
-- ==== Proof.SpecL.lean ====
/-
  The kernel's building blocks, fed the inputs, are the specification's layers: the bias row [1, C] read at (0, q) is the bias
  at q, and the arrangement of the log-softmax that adds the row maximum back is the specification's first arrangement.
-/
import proofs.«137813_g44306882625589_cont_8to1_c_1074_18_alg».proof.Proof.SpecK

noncomputable section

open scoped BigOperators

namespace Cert.Spec

open Idealize.ShloMosaic Idealize.ShloMosaic.ValueIdx

variable (I : Inp)

theorem h1_of (adj : Mat 10000 10000) (x : Mat 10000 128) (w1 : Mat 128 64) (b1r : Mat 1 64)
    (hadj : adj = I.adj) (hx : x = I.x) (hw : w1 = I.w1) (hb : ∀ q : Fin 64, b1r (ix2 0 q) = I.b1 (ix1 q)) :
    aggR adj (mm x w1) b1r = h1 I := by
  subst hadj hx hw
  funext p q
  simp only [aggR, h1, agg, z1, mm, hb]

theorem z2_of (w2 : Mat 64 64) (hw : w2 = I.w2) : proj (h1 I) w2 = z2 I := by
  subst hw; rfl

theorem h2_of (adj : Mat 10000 10000) (z : Mat 10000 64) (b2r : Mat 1 64)
    (hadj : adj = I.adj) (hz : z = mat (z2 I)) (hb : ∀ q : Fin 64, b2r (ix2 0 q) = I.b2 (ix1 q)) :
    aggR adj (fun k j => z (ix2 k j)) b2r = h2 I := by
  subst hadj hz
  funext p q
  simp only [aggR, h2, agg, mat_ix2, hb]

theorem h3_of (adj : Mat 10000 10000) (w3 : Mat 64 16) (b3r : Mat 1 16)
    (hadj : adj = I.adj) (hw : w3 = I.w3) (hb : ∀ q : Fin 16, b3r (ix2 0 q) = I.b3 (ix1 q)) :
    aggR adj (proj (h2 I) w3) b3r = h3 I := by
  subst hadj hw
  funext p q
  simp only [aggR, h3, agg, z3, hb]

theorem lsmK_h3 : lsmK (h3 I) = outK I := rfl

end Cert.Spec

end
-- ==== Proof.KI.Result.lean ====
/-
  The four results of the whole program at the ideal instance, read off the last boundary's contents: each host stretch is
  read back operation by operation (a bias reshaped to a row, a weight matrix re-laid), each region's result arrays are the
  layer functions of the arrays the region was entered with, and composing them gives h₁, h₂, h₃ and the log-softmax of h₃ as
  functions of the eight launch arrays.
-/
import proofs.«137813_g44306882625589_cont_8to1_c_1074_18_alg».proof.Proof.Gen.KernelIdeal.Launch
import proofs.«137813_g44306882625589_cont_8to1_c_1074_18_alg».proof.Proof.Gen.KernelIdeal.Skeleton
import proofs.«137813_g44306882625589_cont_8to1_c_1074_18_alg».proof.Proof.Gen.KernelIdeal.Points
import proofs.«137813_g44306882625589_cont_8to1_c_1074_18_alg».proof.Proof.KI.Run
import proofs.«137813_g44306882625589_cont_8to1_c_1074_18_alg».proof.Proof.KI.Args
import proofs.«137813_g44306882625589_cont_8to1_c_1074_18_alg».proof.Proof.KI.Val0
import proofs.«137813_g44306882625589_cont_8to1_c_1074_18_alg».proof.Proof.KI.Val1
import proofs.«137813_g44306882625589_cont_8to1_c_1074_18_alg».proof.Proof.Gen.KernelIdeal.Regions
import proofs.«137813_g44306882625589_cont_8to1_c_1074_18_alg».proof.Proof.SpecL
import Idealize.ShloMosaic.Lib.Pipeline.Value
import Idealize.ShloMosaic.Lib.ValueLayout
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Spec Idealize.ShloMosaic.ValueIdx Idealize.ShloMosaic.StableHlo

variable (m : (ℓ : Loc nD τ sig) → Buf (Elt Ideal) ℓ)

/-- The eight inputs as the launch memory holds them on core `c`. -/
def inpK (c : Dev nD) : Cert.Spec.Inp where
  x := m ((c.tc : Thread nD τ).loc main_arg0)
  adj := m ((c.tc : Thread nD τ).loc main_arg1)
  w1 := m ((c.tc : Thread nD τ).loc main_arg2)
  b1 := m ((c.tc : Thread nD τ).loc main_arg3)
  w2 := m ((c.tc : Thread nD τ).loc main_arg4)
  b2 := m ((c.tc : Thread nD τ).loc main_arg5)
  w3 := m ((c.tc : Thread nD τ).loc main_arg6)
  b3 := m ((c.tc : Thread nD τ).loc main_arg7)

/-! ## The first host stretch -/

/-- The first bias as a row. -/
theorem W1_v0 (c : Dev nD) : (W1 m c (Proc.devRef .tc main_v0) : Mat 1 64)
    = shapeCast S1x64 (m ((c.tc : Thread nD τ).loc main_arg3) : Vc 64) shapeCasts_S64_S1x64 := by
  dsimp only [W1, W0, hostOps0]
  after_results
  rfl

theorem W1_v0_apply (c : Dev nD) (q : Fin 64) :
    (W1 m c (Proc.devRef .tc main_v0) : Mat 1 64) (ix2 0 q) = (m ((c.tc : Thread nD τ).loc main_arg3) : Vc 64) (ix1 q) := by
  rw [W1_v0]; exact shapeCast_a_1a_apply _ _ _ _

/-- W₂ re-laid is W₂. -/
theorem W1_v1 (c : Dev nD) : (W1 m c (Proc.devRef .tc main_v1) : Mat 64 64) = (m ((c.tc : Thread nD τ).loc main_arg4) : Mat 64 64) := by
  dsimp only [W1, W0, hostOps0]
  after_results
  rfl

/-! ## The first region's results -/

/-- h₁ as the first region leaves it. -/
theorem W2_h1 (c : Dev nD) : (W2 m c (Proc.devRef .tc main_v2_0) : Mat 10000 64) = mat (h1 (inpK m c)) := by
  have e := W2_arr m c 5
  have a := arr0_5 (V1 m) c
  rw [h1_of (inpK m c) _ _ _ _ (V1_arg1 m c) (V1_arg0 m c) (V1_arg2 m c) (W1_v0_apply m c)] at a
  exact e.trans a

/-- The re-laid adjacency as the first region leaves it. -/
theorem W2_adjb (c : Dev nD) : (W2 m c (Proc.devRef .tc main_v2_1) : Mat 10000 10000) = (inpK m c).adj := by
  have e := W2_arr m c 6
  exact e.trans ((arr0_6 (V1 m) c).trans (V1_arg1 m c))

/-- z₂ as the first region leaves it. -/
theorem W2_z2 (c : Dev nD) : (W2 m c (Proc.devRef .tc main_v2_2) : Mat 10000 64) = mat (z2 (inpK m c)) := by
  have e := W2_arr m c 7
  have a := arr0_7 (V1 m) c
  rw [h1_of (inpK m c) _ _ _ _ (V1_arg1 m c) (V1_arg0 m c) (V1_arg2 m c) (W1_v0_apply m c),
    z2_of (inpK m c) _ (W1_v1 m c)] at a
  exact e.trans a

/-! ## The second host stretch -/

/-- The second bias as a row. -/
theorem W3_v3_apply (c : Dev nD) (q : Fin 64) :
    (W3 m c (Proc.devRef .tc main_v3) : Mat 1 64) (ix2 0 q) = (m ((c.tc : Thread nD τ).loc main_arg5) : Vc 64) (ix1 q) := by
  have e : (W3 m c (Proc.devRef .tc main_v3) : Mat 1 64)
      = shapeCast S1x64 (W2 m c (Proc.devRef .tc main_arg5) : Vc 64) shapeCasts_S64_S1x64 := by
    dsimp only [W3, hostOps1]
    after_results
    rfl
  rw [e, W2_arg5]; exact shapeCast_a_1a_apply _ _ _ _

/-- The third bias as a row. -/
theorem W3_v4_apply (c : Dev nD) (q : Fin 16) :
    (W3 m c (Proc.devRef .tc main_v4) : Mat 1 16) (ix2 0 q) = (m ((c.tc : Thread nD τ).loc main_arg7) : Vc 16) (ix1 q) := by
  have e : (W3 m c (Proc.devRef .tc main_v4) : Mat 1 16)
      = shapeCast S1x16 (W2 m c (Proc.devRef .tc main_arg7) : Vc 16) shapeCasts_S16_S1x16 := by
    dsimp only [W3, hostOps1]
    after_results
    rfl
  rw [e, W2_arg7]; exact shapeCast_a_1a_apply _ _ _ _

/-- W₃ re-laid is W₃. -/
theorem W3_v5 (c : Dev nD) : (W3 m c (Proc.devRef .tc main_v5) : Mat 64 16) = (m ((c.tc : Thread nD τ).loc main_arg6) : Mat 64 16) := by
  have e : (W3 m c (Proc.devRef .tc main_v5) : Mat 64 16) = (W2 m c (Proc.devRef .tc main_arg6) : Mat 64 16) := by
    dsimp only [W3, hostOps1]
    after_results
    rfl
  rw [e, W2_arg6]

/-! ## The second region's results -/

theorem V3_adjb (c : Dev nD) : (V3 m c main_v2_1 : Mat 10000 10000) = (inpK m c).adj :=
  (W3_keep m c main_v2_1 (by decide)).trans (W2_adjb m c)

theorem V3_z2 (c : Dev nD) : (V3 m c main_v2_2 : Mat 10000 64) = mat (z2 (inpK m c)) :=
  (W3_keep m c main_v2_2 (by decide)).trans (W2_z2 m c)

theorem H2v_eq (c : Dev nD) : H2v (V3 m) c = h2 (inpK m c) := by
  unfold H2v
  exact h2_of (inpK m c) _ _ _ (V3_adjb m c) (V3_z2 m c) (W3_v3_apply m c)

theorem H3v_eq (c : Dev nD) : H3v (V3 m) c = h3 (inpK m c) := by
  unfold H3v
  rw [H2v_eq]
  exact h3_of (inpK m c) _ _ _ (V3_adjb m c) (W3_v5 m c) (W3_v4_apply m c)

/-! ## The program's results -/

theorem res_h1 (c : Dev nD) : (W4 m c (Proc.devRef .tc main_v2_0) : Mat 10000 64) = mat (h1 (inpK m c)) :=
  (W4_of_ne m c main_v2_0 (by decide)).trans ((W3_keep m c main_v2_0 (by decide)).trans (W2_h1 m c))

theorem res_h2 (c : Dev nD) : (W4 m c (Proc.devRef .tc main_v6_0) : Mat 10000 64) = mat (h2 (inpK m c)) := by
  have e := W4_arr m c 5
  have a := arr1_5 (V3 m) c
  rw [H2v_eq] at a
  exact e.trans a

theorem res_h3 (c : Dev nD) : (W4 m c (Proc.devRef .tc main_v6_1) : Mat 10000 16) = mat (h3 (inpK m c)) := by
  have e := W4_arr m c 6
  have a := arr1_6 (V3 m) c
  rw [H3v_eq] at a
  exact e.trans a

theorem res_out (c : Dev nD) : (W4 m c (Proc.devRef .tc main_v6_2) : Mat 10000 16) = mat (outK (inpK m c)) := by
  have e := W4_arr m c 7
  have a := arr1_7 (V3 m) c
  rw [H3v_eq, lsmK_h3] at a
  exact e.trans a

end Cert.KernelIdeal.Hand

end
-- ==== Proof.RefVal.lean ====
/-
  The reference program's four results, entry by entry, are the graph convolution's layer outputs h₁, h₂, h₃ and
  the log-softmax of h₃ with the row maximum subtracted first.

  Each stage of the program is read at an index (p, c). A matrix product is the sum over the contracted
  coordinate; a bias broadcast along the rows is the bias at the column; the rectifier is the maximum with 0;
  so one layer adj · (relu(h) · W) + b is the specification's aggregation of the projection of h, whatever h is.
  On top of the last layer T: the row maximum is the fold of max over the sixteen columns from −∞, and taking
  its maximum with −∞ once more changes nothing; the sum of the exponentials starts from 0, which adds nothing;
  the result at (p, c) is (T[p,c] − M[p]) − log Σⱼ exp(T[p,j] − M[p]).
-/
import proofs.«137813_g44306882625589_cont_8to1_c_1074_18_alg».proof.Defs
import proofs.«137813_g44306882625589_cont_8to1_c_1074_18_alg».proof.Proof.RefRun
import proofs.«137813_g44306882625589_cont_8to1_c_1074_18_alg».proof.Proof.RefRead
import proofs.«137813_g44306882625589_cont_8to1_c_1074_18_alg».proof.Proof.Spec
import proofs.«137813_g44306882625589_cont_8to1_c_1074_18_alg».proof.Proof.LibDot2
import proofs.«137813_g44306882625589_cont_8to1_c_1074_18_alg».proof.Proof.Consts

noncomputable section

open scoped BigOperators

namespace Cert.ReferenceIdeal.RefValue

open Idealize.ShloMosaic Idealize.ShloMosaic.TcCoe Idealize.SL.Sem
open Cert.ReferenceIdeal Cert.Spec
open Cert.ReferenceIdeal.Gen Cert.ReferenceIdeal.ReadP Idealize.ShloMosaic.ValueIdx

/-- The eight inputs as the reference's memory holds them on core `c`. -/
def inpR (m' : (ℓ : Loc nD τ sig) → Buf (Elt Ideal) ℓ) (c : Dev nD) : Cert.Spec.Inp where
  x := m' ((c.tc : Thread nD τ).loc main_arg0)
  adj := m' ((c.tc : Thread nD τ).loc main_arg1)
  w1 := m' ((c.tc : Thread nD τ).loc main_arg2)
  b1 := m' ((c.tc : Thread nD τ).loc main_arg3)
  w2 := m' ((c.tc : Thread nD τ).loc main_arg4)
  b2 := m' ((c.tc : Thread nD τ).loc main_arg5)
  w3 := m' ((c.tc : Thread nD τ).loc main_arg6)
  b3 := m' ((c.tc : Thread nD τ).loc main_arg7)

/-! ## Indices by their coordinates -/

/-- Two rank-2 indices with the same coordinates are the same index. -/
private theorem ext2 {A B : Nat} {i j : (⟨2, ![A, B]⟩ : Shape).Idx} (h0 : i 0 = j 0) (h1 : i 1 = j 1) : i = j := by
  funext a
  match a with
  | ⟨0, _⟩ => exact h0
  | ⟨1, _⟩ => exact h1

/-- Two rank-1 indices with the same coordinate are the same index. -/
private theorem ext1 {A : Nat} {i j : (⟨1, ![A]⟩ : Shape).Idx} (h0 : i 0 = j 0) : i = j := by
  funext a
  match a with
  | ⟨0, _⟩ => exact h0

/-- The pattern of −∞ denotes the bottom of the extended reals. -/
private theorem ofBits_neg_inf : Ideal.ofBits .f32 0xFF800000#32 = (⊥ : EReal) := Cert.Consts.ofBits_neg_inf

section Stages

variable (x0 : (⟨S10000x128, .f32⟩ : BufTy).Contents (Elt Ideal)) (x1 : (⟨S10000x10000, .f32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x16, .f32⟩ : BufTy).Contents (Elt Ideal)) (x7 : (⟨S16, .f32⟩ : BufTy).Contents (Elt Ideal))

/-! ## The first layer -/

/-- (x · W₁)[p, c] = Σⱼ x[p, j] · W₁[j, c]. -/
private theorem v0_ix (p : Fin 10000) (c : Fin 64) :
    val_main_v0 (F := Ideal) x0 x2 (ix2 p c) = ∑ j : Fin 128, x0 (ix2 p j) * x2 (ix2 j c) := by
  rw [val_main_v0_apply]
  exact Finset.sum_congr rfl fun j _ =>
    congrArg₂ (· * ·) (congrArg x0 (ext2 rfl rfl)) (congrArg x2 (ext2 rfl rfl))

/-- (adj · z₁)[p, c] = Σₖ adj[p, k] · z₁[k, c]. -/
private theorem v1_ix (p : Fin 10000) (c : Fin 64) :
    val_main_v1 (F := Ideal) x0 x1 x2 (ix2 p c)
      = ∑ k : Fin 10000, x1 (ix2 p k) * val_main_v0 (F := Ideal) x0 x2 (ix2 k c) := by
  rw [val_main_v1_apply]
  exact Finset.sum_congr rfl fun k _ =>
    congrArg₂ (· * ·) (congrArg x1 (ext2 rfl rfl)) (congrArg (val_main_v0 (F := Ideal) x0 x2) (ext2 rfl rfl))

/-- The bias broadcast along the rows is, at (p, c), the bias at c. -/
private theorem v3_ix (p : Fin 10000) (c : Fin 64) : val_main_v3 (F := Ideal) x3 (ix2 p c) = x3 (ix1 c) := by
  rw [val_main_v3_apply, val_main_v2_apply]
  exact congrArg x3 (ext1 rfl)

/-- h₁[p, c] = Σₖ adj[p, k] · (Σⱼ x[k, j] · W₁[j, c]) + b₁[c]. -/
private theorem v4_ix (p : Fin 10000) (c : Fin 64) :
    val_main_v4 (F := Ideal) x0 x1 x2 x3 (ix2 p c)
      = agg x1 (fun k c => ∑ j : Fin 128, x0 (ix2 k j) * x2 (ix2 j c)) x3 p c := by
  rw [val_main_v4_apply, v1_ix, v3_ix, Ideal.addf_def]
  simp only [v0_ix]
  rfl

/-! ## The second layer, over the first layer's result whatever it is -/

/-- The rectifier: the maximum with the zero constant. -/
private theorem v5_ix (i : S10000x64.Idx) :
    val_main_v5 (F := Ideal) x0 x1 x2 x3 i = max (val_main_v4 (F := Ideal) x0 x1 x2 x3 i : EReal) 0 := by
  rw [val_main_v5_apply, val_main_call0_v0_apply, val_main_call0_cst_apply, Ideal.maximumf_def, Ideal.ofBits_def,
    Ideal.ofBits_zero_f32]

/-- (relu(h₁) · W₂)[p, c] = Σⱼ max(h₁[p, j], 0) · W₂[j, c]. -/
private theorem v6_ix (p : Fin 10000) (c : Fin 64) :
    val_main_v6 (F := Ideal) x0 x1 x2 x3 x4 (ix2 p c)
      = proj (fun p j => val_main_v4 (F := Ideal) x0 x1 x2 x3 (ix2 p j)) x4 p c := by
  rw [val_main_v6_apply]
  unfold proj
  exact Finset.sum_congr rfl fun j _ =>
    congrArg₂ (· * ·)
      ((congrArg (val_main_v5 (F := Ideal) x0 x1 x2 x3) (show lidx_main_v6 (ix2 p c) j = ix2 p j from ext2 rfl rfl)).trans
        (v5_ix x0 x1 x2 x3 (ix2 p j)))
      (congrArg x4 (ext2 rfl rfl))

/-- (adj · z₂)[p, c] = Σₖ adj[p, k] · z₂[k, c]. -/
private theorem v7_ix (p : Fin 10000) (c : Fin 64) :
    val_main_v7 (F := Ideal) x0 x1 x2 x3 x4 (ix2 p c)
      = ∑ k : Fin 10000, x1 (ix2 p k) * val_main_v6 (F := Ideal) x0 x1 x2 x3 x4 (ix2 k c) := by
  rw [val_main_v7_apply]
  exact Finset.sum_congr rfl fun k _ =>
    congrArg₂ (· * ·) (congrArg x1 (ext2 rfl rfl)) (congrArg (val_main_v6 (F := Ideal) x0 x1 x2 x3 x4) (ext2 rfl rfl))

/-- The second bias broadcast along the rows is, at (p, c), the bias at c. -/
private theorem v9_ix (p : Fin 10000) (c : Fin 64) : val_main_v9 (F := Ideal) x5 (ix2 p c) = x5 (ix1 c) := by
  rw [val_main_v9_apply, val_main_v8_apply]
  exact congrArg x5 (ext1 rfl)

/-- h₂ is the aggregation of the projection of h₁. -/
private theorem v10_ix (p : Fin 10000) (c : Fin 64) :
    val_main_v10 (F := Ideal) x0 x1 x2 x3 x4 x5 (ix2 p c)
      = agg x1 (proj (fun p j => val_main_v4 (F := Ideal) x0 x1 x2 x3 (ix2 p j)) x4) x5 p c := by
  rw [val_main_v10_apply, v7_ix, v9_ix, Ideal.addf_def]
  simp only [v6_ix]
  rfl

/-! ## The third layer, over the second layer's result whatever it is -/

/-- The rectifier: the maximum with the zero constant. -/
private theorem v11_ix (i : S10000x64.Idx) :
    val_main_v11 (F := Ideal) x0 x1 x2 x3 x4 x5 i = max (val_main_v10 (F := Ideal) x0 x1 x2 x3 x4 x5 i : EReal) 0 := by
  rw [val_main_v11_apply, val_main_call1_v0_apply, val_main_call1_cst_apply, Ideal.maximumf_def, Ideal.ofBits_def,
    Ideal.ofBits_zero_f32]

/-- (relu(h₂) · W₃)[p, c] = Σⱼ max(h₂[p, j], 0) · W₃[j, c]. -/
private theorem v12_ix (p : Fin 10000) (c : Fin 16) :
    val_main_v12 (F := Ideal) x0 x1 x2 x3 x4 x5 x6 (ix2 p c)
      = proj (fun p j => val_main_v10 (F := Ideal) x0 x1 x2 x3 x4 x5 (ix2 p j)) x6 p c := by
  rw [val_main_v12_apply]
  unfold proj
  exact Finset.sum_congr rfl fun j _ =>
    congrArg₂ (· * ·)
      ((congrArg (val_main_v11 (F := Ideal) x0 x1 x2 x3 x4 x5)
          (show lidx_main_v12 (ix2 p c) j = ix2 p j from ext2 rfl rfl)).trans
        (v11_ix x0 x1 x2 x3 x4 x5 (ix2 p j)))
      (congrArg x6 (ext2 rfl rfl))

/-- (adj · z₃)[p, c] = Σₖ adj[p, k] · z₃[k, c]. -/
private theorem v13_ix (p : Fin 10000) (c : Fin 16) :
    val_main_v13 (F := Ideal) x0 x1 x2 x3 x4 x5 x6 (ix2 p c)
      = ∑ k : Fin 10000, x1 (ix2 p k) * val_main_v12 (F := Ideal) x0 x1 x2 x3 x4 x5 x6 (ix2 k c) := by
  rw [val_main_v13_apply]
  exact Finset.sum_congr rfl fun k _ =>
    congrArg₂ (· * ·) (congrArg x1 (ext2 rfl rfl))
      (congrArg (val_main_v12 (F := Ideal) x0 x1 x2 x3 x4 x5 x6) (ext2 rfl rfl))

/-- The third bias broadcast along the rows is, at (p, c), the bias at c. -/
private theorem v15_ix (p : Fin 10000) (c : Fin 16) : val_main_v15 (F := Ideal) x7 (ix2 p c) = x7 (ix1 c) := by
  rw [val_main_v15_apply, val_main_v14_apply]
  exact congrArg x7 (ext1 rfl)

/-- h₃ is the aggregation of the projection of h₂. -/
private theorem v16_ix (p : Fin 10000) (c : Fin 16) :
    val_main_v16 (F := Ideal) x0 x1 x2 x3 x4 x5 x6 x7 (ix2 p c)
      = agg x1 (proj (fun p j => val_main_v10 (F := Ideal) x0 x1 x2 x3 x4 x5 (ix2 p j)) x6) x7 p c := by
  rw [val_main_v16_apply, v13_ix, v15_ix, Ideal.addf_def]
  simp only [v12_ix]
  rfl

/-! ## The log-softmax over the third layer's result whatever it is -/

/-- The row maximum of `T` over −∞. -/
private def rowM (T : S10000x16.Idx → EReal) (p : Fin 10000) : EReal :=
  (Finset.univ : Finset (Fin 16)).fold max ⊥ (fun j => T (ix2 p j))

/-- The max-reduction along the columns from −∞ is the row maximum. -/
private theorem c2v0_ix (p : Fin 10000) :
    val_main_call2_v0 (F := Ideal) x0 x1 x2 x3 x4 x5 x6 x7 (ix1 p)
      = rowM (val_main_v16 (F := Ideal) x0 x1 x2 x3 x4 x5 x6 x7) p := by
  unfold val_main_call2_v0
  generalize val_main_v16 (F := Ideal) x0 x1 x2 x3 x4 x5 x6 x7 = T
  have h : S10000x16.Reduces [1] S10000 := by decide
  have hinit : val_main_call2_cst (F := Ideal) (Shape.Idx.first h_S_) = (⊥ : EReal) := by
    rw [val_main_call2_cst_apply, Ideal.ofBits_def, ofBits_neg_inf]
  have hf : (T ∘ h.lift (ix1 p)) = fun j : Fin 16 => T (ix2 p j) :=
    funext fun j => congrArg T (ext2 (Fin.ext rfl) (Fin.ext rfl))
  have key := Host.reduce_eq_fold_single (α := EReal) (s := S10000x16) (t := S10000) (a := 1)
    (FloatOps.maximumf (F := Ideal) (φ := .f32)) T (val_main_call2_cst (F := Ideal)) reducesTo_S10000x16_S10000_d1 h h_S_
    (ix1 p)
  rw [hinit, hf] at key
  exact key

/-- Its maximum with −∞ once more is the row maximum. -/
private theorem c2v2_ix (p : Fin 10000) :
    val_main_call2_v2 (F := Ideal) x0 x1 x2 x3 x4 x5 x6 x7 (ix1 p)
      = rowM (val_main_v16 (F := Ideal) x0 x1 x2 x3 x4 x5 x6 x7) p := by
  rw [val_main_call2_v2_apply, val_main_call2_v1_apply, val_main_call2_cst_0_apply, c2v0_ix, Ideal.maximumf_def,
    Ideal.ofBits_def, ofBits_neg_inf]
  exact max_eq_right bot_le

/-- The row maximum broadcast along the columns. -/
private theorem c2v4_ix (p : Fin 10000) (c : Fin 16) :
    val_main_call2_v4 (F := Ideal) x0 x1 x2 x3 x4 x5 x6 x7 (ix2 p c)
      = rowM (val_main_v16 (F := Ideal) x0 x1 x2 x3 x4 x5 x6 x7) p := by
  rw [val_main_call2_v4_apply, val_main_call2_v3_apply]
  exact (congrArg (val_main_call2_v2 (F := Ideal) x0 x1 x2 x3 x4 x5 x6 x7)
      (show idx_main_call2_v3 (idx_main_call2_v4 (ix2 p c)) = ix1 p from ext1 rfl)).trans
    (c2v2_ix x0 x1 x2 x3 x4 x5 x6 x7 p)

/-- T[p, c] − M[p]. -/
private theorem c2v5_ix (p : Fin 10000) (c : Fin 16) :
    val_main_call2_v5 (F := Ideal) x0 x1 x2 x3 x4 x5 x6 x7 (ix2 p c)
      = (val_main_v16 (F := Ideal) x0 x1 x2 x3 x4 x5 x6 x7 (ix2 p c) : EReal)
        - rowM (val_main_v16 (F := Ideal) x0 x1 x2 x3 x4 x5 x6 x7) p := by
  rw [val_main_call2_v5_apply, c2v4_ix, Ideal.subf_def]

/-- exp(T[p, c] − M[p]). -/
private theorem c2v6_ix (p : Fin 10000) (c : Fin 16) :
    val_main_call2_v6 (F := Ideal) x0 x1 x2 x3 x4 x5 x6 x7 (ix2 p c)
      = Ideal.exp ((val_main_v16 (F := Ideal) x0 x1 x2 x3 x4 x5 x6 x7 (ix2 p c) : EReal)
        - rowM (val_main_v16 (F := Ideal) x0 x1 x2 x3 x4 x5 x6 x7) p) := by
  rw [val_main_call2_v6_apply, c2v5_ix, Ideal.hostUnary_exp_def]

/-- Σⱼ exp(T[p, j] − M[p]): the sum starts from 0. -/
private theorem c2v7_ix (p : Fin 10000) :
    val_main_call2_v7 (F := Ideal) x0 x1 x2 x3 x4 x5 x6 x7 (ix1 p)
      = ∑ j : Fin 16, Ideal.exp ((val_main_v16 (F := Ideal) x0 x1 x2 x3 x4 x5 x6 x7 (ix2 p j) : EReal)
        - rowM (val_main_v16 (F := Ideal) x0 x1 x2 x3 x4 x5 x6 x7) p) := by
  rw [val_main_call2_v7_apply, val_main_call2_cst_1_apply, Ideal.ofBits_def, Ideal.ofBits_zero_f32, zero_add]
  exact Finset.sum_congr rfl fun j _ =>
    (congrArg (val_main_call2_v6 (F := Ideal) x0 x1 x2 x3 x4 x5 x6 x7)
      (show idx_main_call2_v7 (ix1 p) j = ix2 p j from ext2 rfl rfl)).trans
      (c2v6_ix x0 x1 x2 x3 x4 x5 x6 x7 p j)

/-- The logarithm of that sum broadcast along the columns. -/
private theorem c2v10_ix (p : Fin 10000) (c : Fin 16) :
    val_main_call2_v10 (F := Ideal) x0 x1 x2 x3 x4 x5 x6 x7 (ix2 p c)
      = Ideal.log (val_main_call2_v7 (F := Ideal) x0 x1 x2 x3 x4 x5 x6 x7 (ix1 p)) := by
  rw [val_main_call2_v10_apply, val_main_call2_v9_apply, val_main_call2_v8_apply, Ideal.hostUnary_log_def]
  exact congrArg (fun i => Ideal.log (val_main_call2_v7 (F := Ideal) x0 x1 x2 x3 x4 x5 x6 x7 i))
    (show idx_main_call2_v8 (idx_main_call2_v10 (ix2 p c)) = ix1 p from ext1 rfl)

/-- The result at (p, c): (T[p, c] − M[p]) − log Σⱼ exp(T[p, j] − M[p]). -/
private theorem v17_ix (p : Fin 10000) (c : Fin 16) :
    val_main_v17 (F := Ideal) x0 x1 x2 x3 x4 x5 x6 x7 (ix2 p c)
      = ((val_main_v16 (F := Ideal) x0 x1 x2 x3 x4 x5 x6 x7 (ix2 p c) : EReal)
          - rowM (val_main_v16 (F := Ideal) x0 x1 x2 x3 x4 x5 x6 x7) p)
        - Ideal.log (∑ j : Fin 16, Ideal.exp ((val_main_v16 (F := Ideal) x0 x1 x2 x3 x4 x5 x6 x7 (ix2 p j) : EReal)
          - rowM (val_main_v16 (F := Ideal) x0 x1 x2 x3 x4 x5 x6 x7) p)) := by
  rw [val_main_v17_apply, c2v5_ix, c2v10_ix, c2v7_ix, Ideal.subf_def]

end Stages

/-! ## The stages at the specification's inputs -/

section AtSpec

variable (I : Inp)

/-- The first layer's result is h₁. -/
theorem v4_mat : val_main_v4 (F := Ideal) I.x I.adj I.w1 I.b1 = mat (h1 I) := by
  funext y
  obtain ⟨p, q, rfl⟩ : ∃ (p : Fin 10000) (q : Fin 64), y = ix2 p q := ⟨y 0, y 1, eq_ix2 y⟩
  rw [v4_ix]
  rfl

/-- The second layer's result is h₂. -/
theorem v10_mat : val_main_v10 (F := Ideal) I.x I.adj I.w1 I.b1 I.w2 I.b2 = mat (h2 I) := by
  funext y
  obtain ⟨p, q, rfl⟩ : ∃ (p : Fin 10000) (q : Fin 64), y = ix2 p q := ⟨y 0, y 1, eq_ix2 y⟩
  rw [v10_ix, v4_mat]
  rfl

/-- The third layer's result is h₃. -/
theorem v16_mat : val_main_v16 (F := Ideal) I.x I.adj I.w1 I.b1 I.w2 I.b2 I.w3 I.b3 = mat (h3 I) := by
  funext y
  obtain ⟨p, q, rfl⟩ : ∃ (p : Fin 10000) (q : Fin 16), y = ix2 p q := ⟨y 0, y 1, eq_ix2 y⟩
  rw [v16_ix, v10_mat]
  rfl

/-- The last result is the log-softmax of h₃ with the row maximum subtracted first. -/
theorem v17_mat : val_main_v17 (F := Ideal) I.x I.adj I.w1 I.b1 I.w2 I.b2 I.w3 I.b3 = mat (outR I) := by
  funext y
  obtain ⟨p, q, rfl⟩ : ∃ (p : Fin 10000) (q : Fin 16), y = ix2 p q := ⟨y 0, y 1, eq_ix2 y⟩
  rw [v17_ix, v16_mat]
  rfl

end AtSpec

/-- Every weakly fair execution of the reference ends with its results at the specification's arrays and its
    arguments unchanged. -/
theorem run (m' : (ℓ : Loc nD τ sig) → Buf (Elt Ideal) ℓ) (g' : Dev nD → PrngReg) :
    θ_run (defs (F := Ideal)) (onTc (τ := τ) (main (F := Ideal))) ⟨m', fun _ => 0, g'⟩ (fun r => ∀ c : Dev nD,
      r.2.mem ((c.tc : Thread nD τ).loc main_v17) = mat (outR (inpR m' c))
      ∧ r.2.mem ((c.tc : Thread nD τ).loc main_v4) = mat (h1 (inpR m' c))
      ∧ r.2.mem ((c.tc : Thread nD τ).loc main_v10) = mat (h2 (inpR m' c))
      ∧ r.2.mem ((c.tc : Thread nD τ).loc main_v16) = mat (h3 (inpR m' c))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) := by
  refine (θ_run (defs (F := Ideal)) _ _).mono (fun _ h c => ?_) (Cert.ReferenceIdeal.ValueP.run (F := Ideal) m' g')
  obtain ⟨h17, h4, h10, h16, hargs⟩ := h c
  exact ⟨h17.trans ((val_main_v17_eq m' c).trans (v17_mat (inpR m' c))),
    h4.trans ((val_main_v4_eq _ _ _ _).trans (v4_mat (inpR m' c))),
    h10.trans ((val_main_v10_eq _ _ _ _ _ _).trans (v10_mat (inpR m' c))),
    h16.trans ((val_main_v16_eq _ _ _ _ _ _ _ _).trans (v16_mat (inpR m' c))),
    hargs⟩

end Cert.ReferenceIdeal.RefValue

end
-- ==== Proof.Finite.lean ====
/-
  The precondition says of each of the eight arrays that every entry has absolute value below +∞; an extended real
  whose absolute value is below +∞ is a real number.
-/
import proofs.«137813_g44306882625589_cont_8to1_c_1074_18_alg».proof.Pre_finite_inputs
import proofs.«137813_g44306882625589_cont_8to1_c_1074_18_alg».proof.Proof.Gen.Pre_finite_inputs
import proofs.«137813_g44306882625589_cont_8to1_c_1074_18_alg».proof.Proof.Spec
import Idealize.ShloMosaic.Lib.ReduceAll
import Idealize.ShloMosaic.Lib.IdealHost
import proofs.«137813_g44306882625589_cont_8to1_c_1074_18_alg».proof.Proof.Consts

noncomputable section

namespace Cert.Finite

open Idealize.ShloMosaic Idealize.ShloMosaic.ValueIdx
open Cert.Pre_finite_inputs

/-- An extended real whose absolute value `max a (-a)` is below +∞ is a real number: at −∞ and at +∞ that maximum is +∞. -/
theorem real_of_abs_lt_top (a : EReal) (h : max a (-a) < ⊤) : ∃ r : ℝ, a = (r : EReal) := by
  induction a using EReal.rec with
  | bot => simp at h
  | coe r => exact ⟨r, rfl⟩
  | top => simp at h

/-- The binary32 pattern with all-ones exponent and zero fraction is +∞. -/
theorem ofBits_inf : Ideal.ofBits .f32 0x7F800000#32 = ⊤ := Cert.Consts.ofBits_inf

/-- If the conjunction over all entries of `|x| < +∞` is one, every entry of `x` is a real number: each entry's
    comparison is one, the constant it is compared with is +∞, and the absolute value is `max (x i) (-(x i))`. -/
theorem real_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
          (cmpf .olt (Host.absf x) (broadcastInDim S ![] hb (constant (F := Ideal) S_ .f32 0x7F800000#32)))
          (constantI S_ 1 1#1) hr hu ix0 = 1#1) :
    ∀ i, ∃ r : ℝ, x i = (r : EReal) := by
  intro i
  -- the rank-0 shape has a single index
  haveI : Subsingleton S_.Idx := ⟨fun a b => funext fun d => d.elim0⟩
  have hi := Host.reduce_andi_all _ _ hr hu ix0 e i
  rw [cmpf_apply, broadcastInDim_scalar_apply, constant_apply, ofBits_inf] at hi
  apply real_of_abs_lt_top
  change Ideal.cmp .olt (max (x i) (-(x i))) ⊤ = 1#1 at hi
  unfold Ideal.cmp at hi
  by_contra hn
  simp [hn] at hi

/-- If the printed finiteness predicate of the eight arrays is all ones, every entry of every array is a real number. -/
theorem real_of_fn (x0 : FVec Ideal S10000x128 .f32) (x1 : FVec Ideal S10000x10000 .f32) (x2 : FVec Ideal S128x64 .f32)
    (x3 : FVec Ideal S64 .f32) (x4 : FVec Ideal S64x64 .f32) (x5 : FVec Ideal S64 .f32) (x6 : FVec Ideal S64x16 .f32)
    (x7 : FVec Ideal S16 .f32)
    (h : Cert.Pre_finite_inputs.fn (F := Ideal) x0 x1 x2 x3 x4 x5 x6 x7 = fun _ => 1#1) :
    Cert.Spec.Inp.Real ⟨x0, x1, x2, x3, x4, x5, x6, x7⟩ := by
  have h0 := congrFun h ValueIdx.ix0
  dsimp only [fn, fn_part1, fn_part2] at h0
  -- the result is the conjunction of the eight per-array conjunctions, joined left to right
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all x0 _ _ _ e0, real_of_all x1 _ _ _ e1, real_of_all x2 _ _ _ e2, real_of_all x3 _ _ _ e3,
    real_of_all x4 _ _ _ e4, real_of_all x5 _ _ _ e5, real_of_all x6 _ _ _ e6, real_of_all x7 _ _ _ e7⟩

end Cert.Finite

end
-- ==== Proof.lean ====
/-
  The kernel computes a three-layer graph convolution with a dense adjacency, out = log_softmax(h₃), h₃ = adj·(relu(h₂)·W₃) + b₃,
  h₂ = adj·(relu(h₁)·W₂) + b₂, h₁ = adj·(x·W₁) + b₁, in two pallas_calls that stream the adjacency by row blocks and keep the small
  projections z₁ = x·W₁ and z₃ = relu(h₂)·W₃ in scratch buffers across grid points; the reference is the same chain of whole-array
  products. At the ideal instance a change of float format is the identity and a matrix product, blocked or whole, is the plain sum, so
  both programs' h₁, h₂, h₃ are one function of the inputs entry by entry, with no condition on the inputs. The log-softmax differs in
  arrangement — the kernel subtracts log Σ exp(h₃ − M) + M, the reference subtracts M and then log Σ exp(h₃ − M) — and the two agree
  where h₃ and M are real numbers, which the precondition (every input entry finite) gives.
  The three frames: each program terminates from any memory with its argument arrays unchanged — the two kernel programs by the run of
  their segments (host stretch, region, host stretch, region), the reference by its run read back.
-/
import proofs.«137813_g44306882625589_cont_8to1_c_1074_18_alg».proof.Defs
import proofs.«137813_g44306882625589_cont_8to1_c_1074_18_alg».proof.Proof.Gen.Kernel
import proofs.«137813_g44306882625589_cont_8to1_c_1074_18_alg».proof.Proof.Gen.KernelIdeal
import proofs.«137813_g44306882625589_cont_8to1_c_1074_18_alg».proof.Proof.Gen.ReferenceIdeal
import proofs.«137813_g44306882625589_cont_8to1_c_1074_18_alg».proof.Proof.Gen.Pre_finite_inputs
import proofs.«137813_g44306882625589_cont_8to1_c_1074_18_alg».proof.Proof.K.Args
import proofs.«137813_g44306882625589_cont_8to1_c_1074_18_alg».proof.Proof.KI.Args
import proofs.«137813_g44306882625589_cont_8to1_c_1074_18_alg».proof.Proof.KI.Result
import proofs.«137813_g44306882625589_cont_8to1_c_1074_18_alg».proof.Proof.RefVal
import proofs.«137813_g44306882625589_cont_8to1_c_1074_18_alg».proof.Proof.Finite
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2.2.2) (Cert.ReferenceIdeal.RefValue.run m ρ)

/-- Under the precondition every entry of every input is a real number. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.Hand.inpK m c).Real :=
  Cert.Finite.real_of_fn _ _ _ _ _ _ _ _ (h c)

open Cert.KernelIdeal.Hand in
/-- Both idealized programs end with h₁, h₂, h₃ at the layers' functions of the inputs and the log-softmax at its first
    arrangement, which under the precondition is the second. -/
theorem algebraic : Cert.algebraic_KernelIdeal_ReferenceIdeal := by
  intro m ρ m' ρ' hpre hagree
  refine ⟨fun c => mat (outK (inpK m c)), fun c => mat (h1 (inpK m c)), fun c => mat (h2 (inpK m c)),
    fun c => mat (h3 (inpK m c)), ?_, ?_⟩
  · refine (θ_run Cert.KernelIdeal.defs _ _).mono (fun r h c => ?_) (run_all (F := Ideal) m ρ)
    exact ⟨(h c _ (mem_uc Cert.KernelIdeal.main_v6_2 (by decide))).trans (res_out m c),
      (h c _ (mem_uc Cert.KernelIdeal.main_v2_0 (by decide))).trans (res_h1 m c),
      (h c _ (mem_uc Cert.KernelIdeal.main_v6_0 (by decide))).trans (res_h2 m c),
      (h c _ (mem_uc Cert.KernelIdeal.main_v6_1 (by decide))).trans (res_h3 m c),
      (h c _ (mem_uc Cert.KernelIdeal.main_arg0 (by decide))).trans (res_arg m c _ (by decide) (by decide) (W2_arg0 m c)),
      (h c _ (mem_uc Cert.KernelIdeal.main_arg1 (by decide))).trans (res_arg m c _ (by decide) (by decide) (W2_arg1 m c)),
      (h c _ (mem_uc Cert.KernelIdeal.main_arg2 (by decide))).trans (res_arg m c _ (by decide) (by decide) (W2_arg2 m c)),
      (h c _ (mem_uc Cert.KernelIdeal.main_arg3 (by decide))).trans (res_arg m c _ (by decide) (by decide) (W2_arg3 m c)),
      (h c _ (mem_uc Cert.KernelIdeal.main_arg4 (by decide))).trans (res_arg m c _ (by decide) (by decide) (W2_arg4 m c)),
      (h c _ (mem_uc Cert.KernelIdeal.main_arg5 (by decide))).trans (res_arg m c _ (by decide) (by decide) (W2_arg5 m c)),
      (h c _ (mem_uc Cert.KernelIdeal.main_arg6 (by decide))).trans (res_arg m c _ (by decide) (by decide) (W2_arg6 m c)),
      (h c _ (mem_uc Cert.KernelIdeal.main_arg7 (by decide))).trans (res_arg m c _ (by decide) (by decide) (W2_arg7 m c))⟩
  · refine (θ_run Cert.ReferenceIdeal.defs _ _).mono (fun r h c => ?_) (Cert.ReferenceIdeal.RefValue.run m' ρ')
    obtain ⟨g0, g1, g2, g3, g4, g5, g6, g7⟩ := hagree c
    have hI : Cert.ReferenceIdeal.RefValue.inpR m' c = inpK m c := by
      simp only [Cert.ReferenceIdeal.RefValue.inpR, inpK, g0, g1, g2, g3, g4, g5, g6, g7]
    obtain ⟨e0, e1, e2, e3, a⟩ := h c
    rw [hI] at e0 e1 e2 e3
    refine ⟨e0.trans ?_, e1, e2, e3, a⟩
    exact congrArg mat (funext fun p => funext fun q => (outK_eq_outR _ (real_of_pre m hpre c) p q).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
